-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x25x7x7 : Shape := ⟨4, ![16384, 25, 7, 7]⟩
abbrev S16384x16x4 : Shape := ⟨3, ![16384, 16, 4]⟩
abbrev S16384x16 : Shape := ⟨2, ![16384, 16]⟩
abbrev S16384x16x2 : Shape := ⟨3, ![16384, 16, 2]⟩
abbrev S16384x7x7 : Shape := ⟨3, ![16384, 7, 7]⟩
abbrev S_ : Shape := ⟨0, ![]⟩

class Facts : Prop where
  bcast_S_S16384x25x7x7 : S_.BroadcastsInDim S16384x25x7x7 (![] : Fin 0 → Fin S16384x25x7x7.rank)
  reducesTo_S16384x25x7x7_S_d0_1_2_3 : S16384x25x7x7.ReducesTo [0, 1, 2, 3] S_
  h_S_ : 0 < S_.numel
  bcast_S_S16384x16x4 : S_.BroadcastsInDim S16384x16x4 (![] : Fin 0 → Fin S16384x16x4.rank)
  reducesTo_S16384x16x4_S_d0_1_2 : S16384x16x4.ReducesTo [0, 1, 2] S_
  bcast_S_S16384x7x7 : S_.BroadcastsInDim S16384x7x7 (![] : Fin 0 → Fin S16384x7x7.rank)
  reducesTo_S16384x7x7_S_d0_1_2 : S16384x7x7.ReducesTo [0, 1, 2] S_
  bcast_S_S16384x16x2 : S_.BroadcastsInDim S16384x16x2 (![] : Fin 0 → Fin S16384x16x2.rank)
  reducesTo_S16384x16x2_S_d0_1_2 : S16384x16x2.ReducesTo [0, 1, 2] S_
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_arg2 : IVec S16384x16 32) (main_arg3 : IVec S16384x16x2 32) (main_v13 : IVec S_ 1) (main_v15 : IVec S16384x16x2 1) (main_c_5 : IVec S_ 32) : IVec S_ 1 :=
  let main_v16 : IVec S16384x16x2 32 := broadcastInDim S16384x16x2 ![] bcast_S_S16384x16x2 main_c_5
  let main_v17 : IVec S16384x16x2 1 := cmpi .slt main_arg3 main_v16
  let main_v18 : IVec S16384x16x2 1 := andi main_v15 main_v17
  let main_c_6 : IVec S_ 1 := constantI S_ 1 1#1
  let main_v19 : IVec S_ 1 := (fun x v => Host.reduce IntOp.andi x v reducesTo_S16384x16x2_S_d0_1_2 h_S_) main_v18 main_c_6
  let main_v20 : IVec S_ 1 := andi main_v13 main_v19
  let main_c_7 : IVec S_ 32 := constantI S_ 32 1#32
  let main_v21 : IVec S16384x16 32 := broadcastInDim S16384x16 ![] bcast_S_S16384x16 main_c_7
  let main_v22 : IVec S16384x16 1 := cmpi .sge main_arg2 main_v21
  let main_c_8 : IVec S_ 32 := constantI S_ 32 20#32
  let main_v23 : IVec S16384x16 32 := broadcastInDim S16384x16 ![] bcast_S_S16384x16 main_c_8
  let main_v24 : IVec S16384x16 1 := cmpi .sle main_arg2 main_v23
  let main_v25 : IVec S16384x16 1 := andi main_v22 main_v24
  let main_c_9 : IVec S_ 1 := constantI S_ 1 1#1
  let main_v26 : IVec S_ 1 := (fun x v => Host.reduce IntOp.andi x v reducesTo_S16384x16_S_d0_1 h_S_) main_v25 main_c_9
  let main_v27 : IVec S_ 1 := andi main_v20 main_v26
  main_v27

def fn {F : FTy → Type} [FloatOps F] (main_arg0 : FVec F S16384x25x7x7 .f32) (main_arg1 : FVec F S16384x16x4 .f32) (main_arg2 : IVec S16384x16 32) (main_arg3 : IVec S16384x16x2 32) (main_arg4 : FVec F S16384x7x7 .f32) : IVec S_ 1 :=
  let main_v0 : FVec F S16384x25x7x7 .f32 := Host.absf main_arg0
  let main_cst : FVec F S_ .f32 := constant S_ .f32 0x7F800000#32
  let main_v1 : FVec F S16384x25x7x7 .f32 := broadcastInDim S16384x25x7x7 ![] bcast_S_S16384x25x7x7 main_cst
  let main_v2 : IVec S16384x25x7x7 1 := cmpf .olt main_v0 main_v1
  let main_c : IVec S_ 1 := constantI S_ 1 1#1
  let main_v3 : IVec S_ 1 := (fun x v => Host.reduce IntOp.andi x v reducesTo_S16384x25x7x7_S_d0_1_2_3 h_S_) main_v2 main_c
  let main_v4 : FVec F S16384x16x4 .f32 := Host.absf main_arg1
  let main_cst_0 : FVec F S_ .f32 := constant S_ .f32 0x7F800000#32
  let main_v5 : FVec F S16384x16x4 .f32 := broadcastInDim S16384x16x4 ![] bcast_S_S16384x16x4 main_cst_0
  let main_v6 : IVec S16384x16x4 1 := cmpf .olt main_v4 main_v5
  let main_c_1 : IVec S_ 1 := constantI S_ 1 1#1
  let main_v7 : IVec S_ 1 := (fun x v => Host.reduce IntOp.andi x v reducesTo_S16384x16x4_S_d0_1_2 h_S_) main_v6 main_c_1
  let main_v8 : IVec S_ 1 := andi main_v3 main_v7
  let main_v9 : FVec F S16384x7x7 .f32 := Host.absf main_arg4
  let main_cst_2 : FVec F S_ .f32 := constant S_ .f32 0x7F800000#32
  let main_v10 : FVec F S16384x7x7 .f32 := broadcastInDim S16384x7x7 ![] bcast_S_S16384x7x7 main_cst_2
  let main_v11 : IVec S16384x7x7 1 := cmpf .olt main_v9 main_v10
  let main_c_3 : IVec S_ 1 := constantI S_ 1 1#1
  let main_v12 : IVec S_ 1 := (fun x v => Host.reduce IntOp.andi x v reducesTo_S16384x7x7_S_d0_1_2 h_S_) main_v11 main_c_3
  let main_v13 : IVec S_ 1 := andi main_v8 main_v12
  let main_c_4 : IVec S_ 32 := constantI S_ 32 0#32
  let main_v14 : IVec S16384x16x2 32 := broadcastInDim S16384x16x2 ![] bcast_S_S16384x16x2 main_c_4
  let main_v15 : IVec S16384x16x2 1 := cmpi .sge main_arg3 main_v14
  let main_c_5 : IVec S_ 32 := constantI S_ 32 7#32
  fn_part1 (F := F) main_arg2 main_arg3 main_v13 main_v15 main_c_5
-- ==== Kernel.lean ====
abbrev S16384x25x7x7 : Shape := ⟨4, ![16384, 25, 7, 7]⟩
abbrev S16384x16x4 : Shape := ⟨3, ![16384, 16, 4]⟩
abbrev S16384x16 : Shape := ⟨2, ![16384, 16]⟩
abbrev S16384x16x2 : Shape := ⟨3, ![16384, 16, 2]⟩
abbrev S16384x7x7 : Shape := ⟨3, ![16384, 7, 7]⟩
abbrev S16384x25x49 : Shape := ⟨3, ![16384, 25, 49]⟩
abbrev S16384x49 : Shape := ⟨2, ![16384, 49]⟩
abbrev S16384x16x1 : Shape := ⟨3, ![16384, 16, 1]⟩
abbrev S_ : Shape := ⟨0, ![]⟩
abbrev S1x1 : Shape := ⟨2, ![1, 1]⟩
abbrev S256x25x49 : Shape := ⟨3, ![256, 25, 49]⟩
abbrev S256x49 : Shape := ⟨2, ![256, 49]⟩
abbrev S256x16 : Shape := ⟨2, ![256, 16]⟩
abbrev S256x16x4 : Shape := ⟨3, ![256, 16, 4]⟩
abbrev S256x1x49 : Shape := ⟨3, ![256, 1, 49]⟩
abbrev S256 : Shape := ⟨1, ![256]⟩
abbrev S256x1 : Shape := ⟨2, ![256, 1]⟩
abbrev S1 : Shape := ⟨1, ![1]⟩
abbrev S256x16x49 : Shape := ⟨3, ![256, 16, 49]⟩
abbrev S256x16x1 : Shape := ⟨3, ![256, 16, 1]⟩
abbrev S256x16x25 : Shape := ⟨3, ![256, 16, 25]⟩
abbrev S256x16x20 : Shape := ⟨3, ![256, 16, 20]⟩
abbrev S256x1x1 : Shape := ⟨3, ![256, 1, 1]⟩
abbrev S1x1x1 : Shape := ⟨3, ![1, 1, 1]⟩

abbrev nBuf : Space → Nat
  | .hbm => 40
  | .vmem => 13
  | .smem => 0
  | _ => 0

abbrev bufTy : (tb : Table) → Fin (tcTables nBuf tb) → BufTy
  | .hbm, ⟨0, _⟩ => ⟨S16384x25x7x7, .f32⟩
  | .hbm, ⟨1, _⟩ => ⟨S16384x16x4, .f32⟩
  | .hbm, ⟨2, _⟩ => ⟨S16384x16, .i32⟩
  | .hbm, ⟨3, _⟩ => ⟨S16384x16x2, .i32⟩
  | .hbm, ⟨4, _⟩ => ⟨S16384x7x7, .f32⟩
  | .hbm, ⟨5, _⟩ => ⟨S16384x25x49, .f32⟩
  | .hbm, ⟨6, _⟩ => ⟨S16384x49, .f32⟩
  | .hbm, ⟨7, _⟩ => ⟨S16384x16x1, .i32⟩
  | .hbm, ⟨8, _⟩ => ⟨S16384x16, .i32⟩
  | .hbm, ⟨9, _⟩ => ⟨S_, .i32⟩
  | .hbm, ⟨10, _⟩ => ⟨S16384x16, .i32⟩
  | .hbm, ⟨11, _⟩ => ⟨S16384x16, .i32⟩
  | .hbm, ⟨12, _⟩ => ⟨S16384x16x1, .i32⟩
  | .hbm, ⟨13, _⟩ => ⟨S16384x16, .i32⟩
  | .hbm, ⟨14, _⟩ => ⟨S16384x16, .i32⟩
  | .hbm, ⟨15, _⟩ => ⟨S_, .f32⟩
  | .hbm, ⟨16, _⟩ => ⟨S16384x16x4, .f32⟩
  | .hbm, ⟨17, _⟩ => ⟨S16384x16x4, .f32⟩
  | .hbm, ⟨18, _⟩ => ⟨S_, .f32⟩
  | .hbm, ⟨19, _⟩ => ⟨S16384x16x4, .f32⟩
  | .hbm, ⟨20, _⟩ => ⟨S16384x16x4, .f32⟩
  | .hbm, ⟨21, _⟩ => ⟨S16384x16x4, .f32⟩
  | .hbm, ⟨22, _⟩ => ⟨S_, .f32⟩
  | .hbm, ⟨23, _⟩ => ⟨S16384x16x4, .f32⟩
  | .hbm, ⟨24, _⟩ => ⟨S16384x16x4, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S256x25x49, .f32⟩
  | .local _ .vmem, ⟨1, _⟩ => ⟨S256x25x49, .f32⟩
  | .local _ .vmem, ⟨2, _⟩ => ⟨S256x49, .f32⟩
  | .local _ .vmem, ⟨3, _⟩ => ⟨S256x49, .f32⟩
  | .local _ .vmem, ⟨4, _⟩ => ⟨S256x16, .i32⟩
  | .local _ .vmem, ⟨5, _⟩ => ⟨S256x16, .i32⟩
  | .local _ .vmem, ⟨6, _⟩ => ⟨S256x16, .i32⟩
  | .local _ .vmem, ⟨7, _⟩ => ⟨S256x16, .i32⟩
  | .local _ .vmem, ⟨8, _⟩ => ⟨S256x16x4, .f32⟩
  | .local _ .vmem, ⟨9, _⟩ => ⟨S256x16x4, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S16384x25x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x25x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S16384x25x7x7_S16384x25x49 : S16384x25x7x7.ShapeCasts S16384x25x49
  shapeCasts_S16384x7x7_S16384x49 : S16384x7x7.ShapeCasts S16384x49
  slices_S16384x16x2_S16384x16x1_0_0_1 : S16384x16x2.Slices ![0, 0, 1] S16384x16x1
  shapeCasts_S16384x16x1_S16384x16 : S16384x16x1.ShapeCasts S16384x16
  bcast_S_S16384x16 : S_.BroadcastsInDim S16384x16 (![] : Fin 0 → Fin S16384x16.rank)
  slices_S16384x16x2_S16384x16x1_0_0_0 : S16384x16x2.Slices ![0, 0, 0] S16384x16x1
  bcast_S_S16384x16x4 : S_.BroadcastsInDim S16384x16x4 (![] : Fin 0 → Fin S16384x16x4.rank)
  inb_S1x1_S1x1_0_0 : ∀ a, (![0, 0] : Fin 2 → Nat) a + S1x1.size a ≤ S1x1.size a
  h_S1x1 : 0 < S1x1.numel
  inb_S256x25x49_S256x25x49_0_0_0 : ∀ a, (![0, 0, 0] : Fin 3 → Nat) a + S256x25x49.size a ≤ S256x25x49.size a
  h_S256x25x49 : 0 < S256x25x49.numel
  shapeCasts_S256x25x49_S256x25x49 : S256x25x49.ShapeCasts S256x25x49
  slices_S256x25x49_o0_0_0_S256x1x49 : S256x25x49.Slices ![0, 0, 0] S256x1x49
  shapeCasts_S256x1x49_S256x49 : S256x1x49.ShapeCasts S256x49
  inb_S256x49_S256x49_0_0 : ∀ a, (![0, 0] : Fin 2 → Nat) a + S256x49.size a ≤ S256x49.size a
  h_S256x49 : 0 < S256x49.numel
  shapeCasts_S256x49_S256x49 : S256x49.ShapeCasts S256x49
  reduces_S256x49_S256 : S256x49.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  iota_S256x16x49_d2_w32 : S256x16x49.Iotas .tc 32 [2]
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x16_S256x16x1 : S256x16.ShapeCasts S256x16x1
  broadcasts_S256x16x1_S256x16x49 : S256x16x1.Broadcasts S256x16x49
  natLt_1_32 : 1 < 32
  slices_S256x16x25_o0_0_1_S256x16x4 : S256x16x25.Slices ![0, 0, 1] S256x16x4
  slices_S256x16x25_o0_0_5_S256x16x20 : S256x16x25.Slices ![0, 0, 5] S256x16x20
  inb_S256x16x4_S256x16x4_0_0_0 : ∀ a, (![0, 0, 0] : Fin 3 → Nat) a + S256x16x4.size a ≤ S256x16x4.size a
  h_S256x16x4 : 0 < S256x16x4.numel
  shapeCasts_S256x16x4_S256x16x4 : S256x16x4.ShapeCasts S256x16x4
  reduces_S256x16x4_S256x16 : S256x16x4.Reduces [2] S256x16
  reduces_S256x16x1_S256x1 : S256x16x1.Reduces [1] S256x1
  shapeCasts_S256x1_S256x1x1 : S256x1.ShapeCasts S256x1x1
  reduces_S256x1x1_S1x1 : S256x1x1.Reduces [0] S1x1
  shapeCasts_S1x1_S1x1x1 : S1x1.ShapeCasts S1x1x1
  shapeCasts_S1x1x1_S1x1 : S1x1x1.ShapeCasts S1x1
  reduces_S256x16x20_S256x16 : S256x16x20.Reduces [2] S256x16
  broadcasts_S256x16x1_S256x16x20 : S256x16x1.Broadcasts S256x16x20
  iota_S256x16x20_d2_w32 : S256x16x20.Iotas .tc 32 [2]
  shapeCasts_S1x1_S_ : S1x1.ShapeCasts S_
  dot_S256x16x49_S256x25x49_S256x16x25_2_2_1_1_0_0_wf : DotDims.WF S256x16x49 S256x25x49 S256x16x25 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x25x49.size a ≤ S16384x25x49.size a
  hwx0_0 : ∀ i : grid0.Coords, EltTy.bits .f32 = 32 ∨ (Rect.block (s := S16384x25x49) S256x25x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x49.size a ≤ S16384x49.size a
  hwx0_1 : ∀ i : grid0.Coords, EltTy.bits .f32 = 32 ∨ (Rect.block (s := S16384x49) S256x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S16384x16.size a
  hwx0_2 : ∀ i : grid0.Coords, EltTy.bits .i32 = 32 ∨ (Rect.block (s := S16384x16) S256x16.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S16384x16.size a
  hwx0_3 : ∀ i : grid0.Coords, EltTy.bits .i32 = 32 ∨ (Rect.block (s := S16384x16) S256x16.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16x4.size a ≤ S16384x16x4.size a
  hwx0_4 : ∀ i : grid0.Coords, EltTy.bits .f32 = 32 ∨ (Rect.block (s := S16384x16x4) S256x16x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S256x16x49_S256x25x49_S256x16x25_2_2_1_1_0_0 : DotDims S256x16x49 S256x25x49 S256x16x25 where
  lhsContracting := [2]
  rhsContracting := [2]
  lhsNonContracting := [1]
  rhsNonContracting := [1]
  lhsBatch := [0]
  rhsBatch := [0]
  wf := dot_S256x16x49_S256x25x49_S256x16x25_2_2_1_1_0_0_wf

abbrev win0_0 : Pipeline.Window sig grid0 :=
  Pipeline.Window.ofSpec (Memref.whole main_v0) S256x25x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x16x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_2) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x25x7x7 : Shape := ⟨4, ![16384, 25, 7, 7]⟩
abbrev S16384x16x4 : Shape := ⟨3, ![16384, 16, 4]⟩
abbrev S16384x16 : Shape := ⟨2, ![16384, 16]⟩
abbrev S16384x16x2 : Shape := ⟨3, ![16384, 16, 2]⟩
abbrev S16384x7x7 : Shape := ⟨3, ![16384, 7, 7]⟩
abbrev S16384x1x7x7 : Shape := ⟨4, ![16384, 1, 7, 7]⟩
abbrev S16384x49 : Shape := ⟨2, ![16384, 49]⟩
abbrev S_ : Shape := ⟨0, ![]⟩
abbrev S16384x25x49 : Shape := ⟨3, ![16384, 25, 49]⟩
abbrev S16384x16x1 : Shape := ⟨3, ![16384, 16, 1]⟩
abbrev S16384x1x16 : Shape := ⟨3, ![16384, 1, 16]⟩
abbrev S16384x25x16 : Shape := ⟨3, ![16384, 25, 16]⟩
abbrev S16384x25x16x1 : Shape := ⟨4, ![16384, 25, 16, 1]⟩
abbrev S1 : Shape := ⟨1, ![1]⟩
abbrev S1x1x1x1 : Shape := ⟨4, ![1, 1, 1, 1]⟩
abbrev S16384x4x16 : Shape := ⟨3, ![16384, 4, 16]⟩
abbrev S16384x20x16 : Shape := ⟨3, ![16384, 20, 16]⟩
abbrev S16384x16x20 : Shape := ⟨3, ![16384, 16, 20]⟩
abbrev S16384x16x1x1 : Shape := ⟨4, ![16384, 16, 1, 1]⟩

abbrev nBuf : Space → Nat
  | .hbm => 140
  | .vmem => 0
  | .smem => 0
  | _ => 0

abbrev hbmTy0_0 (i : Nat) : BufTy := match i % 128 with
  | 0 => ⟨S16384x25x7x7, .f32⟩
  | 1 => ⟨S16384x16x4, .f32⟩
  | 2 => ⟨S16384x16, .i32⟩
  | 3 => ⟨S16384x16x2, .i32⟩
  | 4 => ⟨S16384x7x7, .f32⟩
  | 5 => ⟨S16384x1x7x7, .f32⟩
  | 6 => ⟨S16384x7x7, .f32⟩
  | 7 => ⟨S16384x49, .f32⟩
  | 8 => ⟨S16384x49, .f32⟩
  | 9 => ⟨S16384x49, .f32⟩
  | 10 => ⟨S_, .f32⟩
  | 11 => ⟨S_, .f32⟩
  | 12 => ⟨S16384x49, .f32⟩
  | 13 => ⟨S16384x49, .f32⟩
  | 14 => ⟨S16384x49, .f32⟩
  | 15 => ⟨S_, .f32⟩
  | 16 => ⟨S16384x49, .f32⟩
  | 17 => ⟨S16384x49, .f32⟩
  | 18 => ⟨S_, .f32⟩
  | 19 => ⟨S16384x49, .f32⟩
  | 20 => ⟨S16384x49, .f32⟩
  | 21 => ⟨S16384x49, .f32⟩
  | 22 => ⟨S_, .f32⟩
  | 23 => ⟨S_, .f32⟩
  | 24 => ⟨S16384x49, .f32⟩
  | 25 => ⟨S16384x49, .f32⟩
  | 26 => ⟨S16384x49, .f32⟩
  | 27 => ⟨S16384x49, .f32⟩
  | 28 => ⟨S_, .f32⟩
  | 29 => ⟨S_, .f32⟩
  | 30 => ⟨S_, .f32⟩
  | 31 => ⟨S_, .f32⟩
  | 32 => ⟨S_, .f32⟩
  | 33 => ⟨S16384x25x49, .f32⟩
  | 34 => ⟨S16384x16x1, .i32⟩
  | 35 => ⟨S16384x16, .i32⟩
  | 36 => ⟨S_, .i32⟩
  | 37 => ⟨S16384x16, .i32⟩
  | 38 => ⟨S16384x16, .i32⟩
  | 39 => ⟨S16384x16x1, .i32⟩
  | 40 => ⟨S16384x16, .i32⟩
  | 41 => ⟨S16384x16, .i32⟩
  | 42 => ⟨S16384x1x16, .i32⟩
  | 43 => ⟨S16384x25x16, .i32⟩
  | 44 => ⟨S_, .i32⟩
  | 45 => ⟨S16384x25x16, .i32⟩
  | 46 => ⟨S16384x25x16, .i1⟩
  | 47 => ⟨S_, .i32⟩
  | 48 => ⟨S16384x25x16, .i32⟩
  | 49 => ⟨S16384x25x16, .i32⟩
  | 50 => ⟨S16384x25x16, .i32⟩
  | 51 => ⟨S16384x25x16x1, .i32⟩
  | 52 => ⟨S1, .i32⟩
  | 53 => ⟨S_, .i32⟩
  | 54 => ⟨S16384x25x16x1, .i32⟩
  | 55 => ⟨S16384x25x16x1, .i1⟩
  | 56 => ⟨S1x1x1x1, .i32⟩
  | 57 => ⟨S16384x25x16x1, .i32⟩
  | 58 => ⟨S16384x25x16x1, .i1⟩
  | 59 => ⟨S16384x25x16x1, .i1⟩
  | 60 => ⟨S_, .i1⟩
  | 61 => ⟨S16384x25x16, .i1⟩
  | 62 => ⟨S16384x25x16, .f32⟩
  | 63 => ⟨S_, .f32⟩
  | 64 => ⟨S16384x25x16, .f32⟩
  | 65 => ⟨S16384x25x16, .f32⟩
  | 66 => ⟨S16384x4x16, .f32⟩
  | 67 => ⟨S16384x16x4, .f32⟩
  | 68 => ⟨S_, .f32⟩
  | 69 => ⟨S16384x16x4, .f32⟩
  | 70 => ⟨S16384x16x4, .f32⟩
  | 71 => ⟨S_, .f32⟩
  | 72 => ⟨S16384x16x4, .f32⟩
  | 73 => ⟨S16384x16x4, .f32⟩
  | 74 => ⟨S16384x16x4, .f32⟩
  | 75 => ⟨S_, .f32⟩
  | 76 => ⟨S16384x16x4, .f32⟩
  | 77 => ⟨S16384x16x4, .f32⟩
  | 78 => ⟨S16384x16x4, .f32⟩
  | 79 => ⟨S16384x16x4, .f32⟩
  | 80 => ⟨S_, .f32⟩
  | 81 => ⟨S16384x16, .f32⟩
  | 82 => ⟨S_, .f32⟩
  | 83 => ⟨S16384x16, .f32⟩
  | 84 => ⟨S16384x16, .f32⟩
  | 85 => ⟨S_, .f32⟩
  | 86 => ⟨S_, .f32⟩
  | 87 => ⟨S_, .f32⟩
  | 88 => ⟨S_, .f32⟩
  | 89 => ⟨S16384x20x16, .f32⟩
  | 90 => ⟨S16384x16x20, .f32⟩
  | 91 => ⟨S_, .f32⟩
  | 92 => ⟨S16384x16, .f32⟩
  | 93 => ⟨S_, .f32⟩
  | 94 => ⟨S16384x16, .f32⟩
  | 95 => ⟨S16384x16, .f32⟩
  | 96 => ⟨S16384x16x1, .f32⟩
  | 97 => ⟨S16384x16x20, .f32⟩
  | 98 => ⟨S16384x16x20, .f32⟩
  | 99 => ⟨S16384x16x20, .f32⟩
  | 100 => ⟨S_, .f32⟩
  | 101 => ⟨S16384x16, .f32⟩
  | 102 => ⟨S16384x16x1, .f32⟩
  | 103 => ⟨S16384x16x1, .f32⟩
  | 104 => ⟨S16384x16x20, .f32⟩
  | 105 => ⟨S16384x16x20, .f32⟩
  | 106 => ⟨S_, .i32⟩
  | 107 => ⟨S16384x16, .i32⟩
  | 108 => ⟨S16384x16, .i32⟩
  | 109 => ⟨S16384x16x1, .i32⟩
  | 110 => ⟨S_, .i32⟩
  | 111 => ⟨S16384x16x1, .i32⟩
  | 112 => ⟨S16384x16x1, .i1⟩
  | 113 => ⟨S_, .i32⟩
  | 114 => ⟨S16384x16x1, .i32⟩
  | 115 => ⟨S16384x16x1, .i32⟩
  | 116 => ⟨S16384x16x1, .i32⟩
  | 117 => ⟨S16384x16x1x1, .i32⟩
  | 118 => ⟨S1, .i32⟩
  | 119 => ⟨S_, .i32⟩
  | 120 => ⟨S16384x16x1x1, .i32⟩
  | 121 => ⟨S16384x16x1x1, .i1⟩
  | 122 => ⟨S1x1x1x1, .i32⟩
  | 123 => ⟨S16384x16x1x1, .i32⟩
  | 124 => ⟨S16384x16x1x1, .i1⟩
  | 125 => ⟨S16384x16x1x1, .i1⟩
  | 126 => ⟨S_, .i1⟩
  | 127 => ⟨S16384x16x1, .i1⟩
  | _ => ⟨S16384x25x7x7, .f32⟩

abbrev hbmTy0_1 (i : Nat) : BufTy := match i % 128 with
  | 0 => ⟨S16384x16x1, .f32⟩
  | 1 => ⟨S_, .f32⟩
  | 2 => ⟨S16384x16x1, .f32⟩
  | 3 => ⟨S16384x16x1, .f32⟩
  | 4 => ⟨S16384x16, .f32⟩
  | 5 => ⟨S16384x16, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S16384x25x7x7, .f32⟩

abbrev hbmTy (i : Nat) : BufTy := match i / 128 with
  | 0 => hbmTy0_0 i
  | 1 => hbmTy0_1 i
  | _ => ⟨S16384x25x7x7, .f32⟩

abbrev bufTy : (tb : Table) → Fin (tcTables nBuf tb) → BufTy
  | .hbm, ⟨i, _⟩ => hbmTy i
  | _, _ => ⟨S16384x25x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_cst_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_7 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_8 : Ref sig .tc := ⟨.hbm, 80, rfl⟩
abbrev main_v40 : Ref sig .tc := ⟨.hbm, 81, rfl⟩
abbrev main_cst_9 : Ref sig .tc := ⟨.hbm, 82, rfl⟩
abbrev main_v41 : Ref sig .tc := ⟨.hbm, 83, rfl⟩
abbrev main_v42 : Ref sig .tc := ⟨.hbm, 84, rfl⟩
abbrev main_cst_10 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call4_cst : Ref sig .tc := ⟨.hbm, 91, rfl⟩
abbrev main_call4_v0 : Ref sig .tc := ⟨.hbm, 92, rfl⟩
abbrev main_call4_cst_0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_cst_1 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_v47 : Ref sig .tc := ⟨.hbm, 105, rfl⟩
abbrev main_c_12 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_call5_c : Ref sig .tc := ⟨.hbm, 110, rfl⟩
abbrev main_call5_v0 : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_c_1 : Ref sig .tc := ⟨.hbm, 118, rfl⟩
abbrev main_call5_c_2 : Ref sig .tc := ⟨.hbm, 119, rfl⟩
abbrev main_call5_v6 : Ref sig .tc := ⟨.hbm, 120, rfl⟩
abbrev main_call5_v7 : Ref sig .tc := ⟨.hbm, 121, rfl⟩
abbrev main_call5_v8 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_c_3 : Ref sig .tc := ⟨.hbm, 126, rfl⟩
abbrev main_call5_v12 : Ref sig .tc := ⟨.hbm, 127, rfl⟩
abbrev main_call5_v13 : Ref sig .tc := ⟨.hbm, 128, rfl⟩
abbrev main_call5_cst : Ref sig .tc := ⟨.hbm, 129, rfl⟩
abbrev main_call5_v14 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_13 : Ref sig .tc := ⟨.hbm, 134, rfl⟩
abbrev main_v54 : Ref sig .tc := ⟨.hbm, 135, rfl⟩
abbrev main_cst_14 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩

abbrev nD : Nat := 1
abbrev τ : Topo := Topo.v7x

variable {F : FTy → Type} [FloatOps F]

class Facts₀ : Prop where
  slices_S16384x25x7x7_S16384x1x7x7_0_0_0_0 : S16384x25x7x7.Slices ![0, 0, 0, 0] S16384x1x7x7
  shapeCasts_S16384x1x7x7_S16384x7x7 : S16384x1x7x7.ShapeCasts S16384x7x7
  shapeCasts_S16384x7x7_S16384x49 : S16384x7x7.ShapeCasts S16384x49
  bcast_S_S16384x49 : S_.BroadcastsInDim S16384x49 (![] : Fin 0 → Fin S16384x49.rank)
  reducesTo_S16384x49_S_d0_1 : S16384x49.ReducesTo [0, 1] S_
  h_S_ : 0 < S_.numel
  shapeCasts_S16384x25x7x7_S16384x25x49 : S16384x25x7x7.ShapeCasts S16384x25x49
  slices_S16384x16x2_S16384x16x1_0_0_1 : S16384x16x2.Slices ![0, 0, 1] S16384x16x1
  shapeCasts_S16384x16x1_S16384x16 : S16384x16x1.ShapeCasts S16384x16
  bcast_S_S16384x16 : S_.BroadcastsInDim S16384x16 (![] : Fin 0 → Fin S16384x16.rank)
  slices_S16384x16x2_S16384x16x1_0_0_0 : S16384x16x2.Slices ![0, 0, 0] S16384x16x1
  bcast_S16384x16_S16384x1x16_0_2 : S16384x16.BroadcastsInDim S16384x1x16 (![0, 2] : Fin 2 → Fin S16384x1x16.rank)
  bcast_S16384x1x16_S16384x25x16_0_1_2 : S16384x1x16.BroadcastsInDim S16384x25x16 (![0, 1, 2] : Fin 3 → Fin S16384x25x16.rank)
  bcast_S_S16384x25x16 : S_.BroadcastsInDim S16384x25x16 (![] : Fin 0 → Fin S16384x25x16.rank)
  shapeCasts_S16384x25x16_S16384x25x16x1 : S16384x25x16.ShapeCasts S16384x25x16x1
  bcast_S_S16384x25x16x1 : S_.BroadcastsInDim S16384x25x16x1 (![] : Fin 0 → Fin S16384x25x16x1.rank)
  bcast_S1_S1x1x1x1_3 : S1.BroadcastsInDim S1x1x1x1 (![3] : Fin 1 → Fin S1x1x1x1.rank)
  bcast_S1x1x1x1_S16384x25x16x1_0_1_2_3 : S1x1x1x1.BroadcastsInDim S16384x25x16x1 (![0, 1, 2, 3] : Fin 4 → Fin S16384x25x16x1.rank)
  reducesTo_S16384x25x16x1_S16384x25x16_d3 : S16384x25x16x1.ReducesTo [3] S16384x25x16
  slices_S16384x25x16_S16384x4x16_0_1_0 : S16384x25x16.Slices ![0, 1, 0] S16384x4x16
  transposes_S16384x4x16_S16384x16x4_0_2_1 : S16384x4x16.Transposes [0, 2, 1] S16384x16x4
  bcast_S_S16384x16x4 : S_.BroadcastsInDim S16384x16x4 (![] : Fin 0 → Fin S16384x16x4.rank)
  reducesTo_S16384x16x4_S16384x16_d2 : S16384x16x4.ReducesTo [2] S16384x16
  reducesTo_S16384x16_S_d0_1 : S16384x16.ReducesTo [0, 1] S_
  slices_S16384x25x16_S16384x20x16_0_5_0 : S16384x25x16.Slices ![0, 5, 0] S16384x20x16
  transposes_S16384x20x16_S16384x16x20_0_2_1 : S16384x20x16.Transposes [0, 2, 1] S16384x16x20
  reducesTo_S16384x16x20_S16384x16_d2 : S16384x16x20.ReducesTo [2] S16384x16
  bcast_S16384x16_S16384x16x1_0_1 : S16384x16.BroadcastsInDim S16384x16x1 (![0, 1] : Fin 2 → Fin S16384x16x1.rank)
  bcast_S16384x16x1_S16384x16x20_0_1_2 : S16384x16x1.BroadcastsInDim S16384x16x20 (![0, 1, 2] : Fin 3 → Fin S16384x16x20.rank)
  bcast_S_S16384x16x1 : S_.BroadcastsInDim S16384x16x1 (![] : Fin 0 → Fin S16384x16x1.rank)
  shapeCasts_S16384x16x1_S16384x16x1x1 : S16384x16x1.ShapeCasts S16384x16x1x1
  bcast_S_S16384x16x1x1 : S_.BroadcastsInDim S16384x16x1x1 (![] : Fin 0 → Fin S16384x16x1x1.rank)
  bcast_S1x1x1x1_S16384x16x1x1_0_1_2_3 : S1x1x1x1.BroadcastsInDim S16384x16x1x1 (![0, 1, 2, 3] : Fin 4 → Fin S16384x16x1x1.rank)
  reducesTo_S16384x16x1x1_S16384x16x1_d3 : S16384x16x1x1.ReducesTo [3] S16384x16x1
  gather_S16384x25x49_S16384x25x16x1_S16384x25x16_n_2_01_01_2_3_111_wf : GatherDims.WF S16384x25x49 S16384x25x16x1 S16384x25x16 [] [2] [0, 1] [2] [0, 1] 3 ![1, 1, 1]
  gather_S16384x16x20_S16384x16x1x1_S16384x16x1_n_2_01_01_2_3_111_wf : GatherDims.WF S16384x16x20 S16384x16x1x1 S16384x16x1 [] [2] [0, 1] [2] [0, 1] 3 ![1, 1, 1]

variable [Facts₀]

def gather_S16384x25x49_S16384x25x16x1_S16384x25x16_n_2_01_01_2_3_111 : GatherDims S16384x25x49 S16384x25x16x1 S16384x25x16 where
  offsetDims := []
  collapsedSliceDims := [2]
  operandBatchingDims := [0, 1]
  startIndicesBatchingDims := [0, 1]
  startIndexMap := [2]
  indexVectorDim := 3
  sliceSizes := ![1, 1, 1]
  wf := gather_S16384x25x49_S16384x25x16x1_S16384x25x16_n_2_01_01_2_3_111_wf
def gather_S16384x16x20_S16384x16x1x1_S16384x16x1_n_2_01_01_2_3_111 : GatherDims S16384x16x20 S16384x16x1x1 S16384x16x1 where
  offsetDims := []
  collapsedSliceDims := [2]
  operandBatchingDims := [0, 1]
  startIndicesBatchingDims := [0, 1]
  startIndexMap := [2]
  indexVectorDim := 3
  sliceSizes := ![1, 1, 1]
  wf := gather_S16384x16x20_S16384x16x1x1_S16384x16x1_n_2_01_01_2_3_111_wf

class Facts : Prop extends Facts₀ where

variable [Facts]
-- ==== Proof.Pieces.lean ====
/-
  What one run of the body leaves in the three one-word accumulators: at the first grid point the zero just stored,
  read back, plus the block's term; at every later point what the point before left plus the block's term.
-/
import proofs.«418083_j22368189678034_3_alg».proof.Proof.Gen.KernelIdeal.Frame
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg1 : Memref sig .tc .vmem S256x25x49 .f32) (harg1 : arg1.IsWhole) (arg2 : Memref sig .tc .vmem S256x49 .f32) (harg2 : arg2.IsWhole)
  (arg3 : Memref sig .tc .vmem S256x16 .i32) (harg3 : arg3.IsWhole) (arg4 : Memref sig .tc .vmem S256x16 .i32) (harg4 : arg4.IsWhole)
  (arg5 : Memref sig .tc .vmem S256x16x4 .f32) (harg5 : arg5.IsWhole) (arg6 : Memref sig .tc .vmem S1x1 .f32) (harg6 : arg6.IsWhole)
  (arg7 : Memref sig .tc .vmem S1x1 .f32) (harg7 : arg7.IsWhole) (arg8 : Memref sig .tc .vmem S1x1 .f32) (harg8 : arg8.IsWhole)
  (x0 : Vec F S256x25x49 .f32) (x1 : Vec F S256x49 .f32) (x2 x3 : Vec F S256x16 .i32) (x4 : Vec F S256x16x4 .f32)

/-- A later point, the objectness word: what was there plus the block's term. -/
theorem out_B_5 (hc0 : ¬cond0_0 i) (xo5 xo6 xo7 : Vec F S1x1 .f32) :
    out0_B_5 c i arg1 harg1 arg2 harg2 arg3 harg3 arg4 harg4 arg5 harg5 arg6 harg6 arg7 harg7 arg8 harg8 hc0 x0 x1 x2 x3 x4 xo5 xo6 xo7 = k0_pay6 x0 x1 xo5 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo5 xo6 xo7)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, View.ld_unit_zero (S := S256x25x49) hz3, View.ld_unit_zero (S := S256x49) hz2,
    View.ld_unit_zero (S := S256x16) hz2, View.ld_unit_zero (S := S256x16x4) hz3, View.ld_unit_zero (S := S1x1) hz2]

/-- A later point, the box word. -/
theorem out_B_6 (hc0 : ¬cond0_0 i) (xo5 xo6 xo7 : Vec F S1x1 .f32) :
    out0_B_6 c i arg1 harg1 arg2 harg2 arg3 harg3 arg4 harg4 arg5 harg5 arg6 harg6 arg7 harg7 arg8 harg8 hc0 x0 x1 x2 x3 x4 xo5 xo6 xo7 = k0_pay9 (k0_pay5 x0) (k0_pay7 x2) x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo5 xo6 xo7)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, View.ld_unit_zero (S := S256x25x49) hz3, View.ld_unit_zero (S := S256x49) hz2,
    View.ld_unit_zero (S := S256x16) hz2, View.ld_unit_zero (S := S256x16x4) hz3, View.ld_unit_zero (S := S1x1) hz2]

/-- A later point, the class word. -/
theorem out_B_7 (hc0 : ¬cond0_0 i) (xo5 xo6 xo7 : Vec F S1x1 .f32) :
    out0_B_7 c i arg1 harg1 arg2 harg2 arg3 harg3 arg4 harg4 arg5 harg5 arg6 harg6 arg7 harg7 arg8 harg8 hc0 x0 x1 x2 x3 x4 xo5 xo6 xo7 = k0_pay1 (k0_pay10 (k0_pay5 x0) (k0_pay7 x2) x3) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo5 xo6 xo7)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, View.ld_unit_zero (S := S256x25x49) hz3, View.ld_unit_zero (S := S256x49) hz2,
    View.ld_unit_zero (S := S256x16) hz2, View.ld_unit_zero (S := S256x16x4) hz3, View.ld_unit_zero (S := S1x1) hz2]

/-- The first point, the objectness word: the zero just stored plus the block's term. -/
theorem out_A_5 (hc0 : cond0_0 i) :
    out0_A_5 c i arg1 harg1 arg2 harg2 arg3 harg3 arg4 harg4 arg5 harg5 arg6 harg6 arg7 harg7 arg8 harg8 hc0 x0 x1 x2 x3 x4 = k0_pay6 x0 x1 (k0_pay2 (F := F)) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread,
    View.ld_unit_zero (S := S256x25x49) hz3, View.ld_unit_zero (S := S256x49) hz2,
    View.ld_unit_zero (S := S256x16) hz2, View.ld_unit_zero (S := S256x16x4) hz3, View.ld_unit_zero (S := S1x1) hz2]

/-- The first point, the box word. -/
theorem out_A_6 (hc0 : cond0_0 i) :
    out0_A_6 c i arg1 harg1 arg2 harg2 arg3 harg3 arg4 harg4 arg5 harg5 arg6 harg6 arg7 harg7 arg8 harg8 hc0 x0 x1 x2 x3 x4 = k0_pay9 (k0_pay5 x0) (k0_pay7 x2) x4 (k0_pay3 (F := F)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread,
    View.ld_unit_zero (S := S256x25x49) hz3, View.ld_unit_zero (S := S256x49) hz2,
    View.ld_unit_zero (S := S256x16) hz2, View.ld_unit_zero (S := S256x16x4) hz3, View.ld_unit_zero (S := S1x1) hz2]

/-- The first point, the class word. -/
theorem out_A_7 (hc0 : cond0_0 i) :
    out0_A_7 c i arg1 harg1 arg2 harg2 arg3 harg3 arg4 harg4 arg5 harg5 arg6 harg6 arg7 harg7 arg8 harg8 hc0 x0 x1 x2 x3 x4 = k0_pay1 (k0_pay10 (k0_pay5 x0) (k0_pay7 x2) x3) (k0_pay4 (F := F)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread,
    View.ld_unit_zero (S := S256x25x49) hz3, View.ld_unit_zero (S := S256x49) hz2,
    View.ld_unit_zero (S := S256x16) hz2, View.ld_unit_zero (S := S256x16x4) hz3, View.ld_unit_zero (S := S1x1) hz2]

end Cert.KernelIdeal.Acc

end
-- ==== Proof.KernelRun.lean ====
/-
  The three accumulators across the grid, and the program's four results.  After grid point n each one-word
  accumulator holds the fold, from zero, of the blocks' terms of points 0..n; only the last point writes the words
  back, so each result word of the region is the fold over all 64 points; the host lines after the region negate and
  divide the first by 16384·49, divide the other two by 16384, and add the three.
-/
import proofs.«418083_j22368189678034_3_alg».proof.Proof.Pieces
import Idealize.ShloMosaic.Lib.StableHlo.Run

set_option maxRecDepth 16384

noncomputable section

namespace Cert.KernelIdeal.Acc

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The three accumulators after grid point `n`: the fold of the blocks' terms from the zero words. -/
def chain (c : Dev nD) : (n : ℕ) → n < cfg0.N → Vec F S1x1 .f32 × Vec F S1x1 .f32 × Vec F S1x1 .f32
  | 0, h => (k0_pay6 (iblk m c 0 ⟨0, h⟩) (iblk m c 1 ⟨0, h⟩) (k0_pay2 (F := F)),
      k0_pay9 (k0_pay5 (iblk m c 0 ⟨0, h⟩)) (k0_pay7 (iblk m c 2 ⟨0, h⟩)) (iblk m c 4 ⟨0, h⟩) (k0_pay3 (F := F)),
      k0_pay1 (k0_pay10 (k0_pay5 (iblk m c 0 ⟨0, h⟩)) (k0_pay7 (iblk m c 2 ⟨0, h⟩)) (iblk m c 3 ⟨0, h⟩)) (k0_pay4 (F := F)))
  | n + 1, h => (k0_pay6 (iblk m c 0 ⟨n + 1, h⟩) (iblk m c 1 ⟨n + 1, h⟩) (chain c n (Nat.lt_of_succ_lt h)).1,
      k0_pay9 (k0_pay5 (iblk m c 0 ⟨n + 1, h⟩)) (k0_pay7 (iblk m c 2 ⟨n + 1, h⟩)) (iblk m c 4 ⟨n + 1, h⟩) (chain c n (Nat.lt_of_succ_lt h)).2.1,
      k0_pay1 (k0_pay10 (k0_pay5 (iblk m c 0 ⟨n + 1, h⟩)) (k0_pay7 (iblk m c 2 ⟨n + 1, h⟩)) (iblk m c 3 ⟨n + 1, h⟩)) (chain c n (Nat.lt_of_succ_lt h)).2.2)

/-- What the staging words hold after point `n` is that fold: by induction on the point. -/
theorem outsAt_eq (c : Dev nD) : ∀ (n : ℕ) (h : n < cfg0.N), outsAt0 m c n h = chain m c n h
  | 0, h => by
    rw [outsAt0_A m c ⟨0, h⟩ rfl, out_A_5, out_A_6, out_A_7]
    rfl
  | n + 1, h => by
    have hN : cfg0.N = 64 := N_0
    have hB : ¬(⟨n + 1, h⟩ : Fin cfg0.N).val % 64 = 0 := by dsimp only; omega
    rw [outsAt0_B m c ⟨n + 1, h⟩ hB, out_B_5, out_B_6, out_B_7]
    show (k0_pay6 _ _ (outsAt0 m c n _).1, k0_pay9 _ _ _ (outsAt0 m c n _).2.1, k0_pay1 _ (outsAt0 m c n _).2.2) = _
    rw [outsAt_eq c n]
    rfl

/-- The last grid point. -/
abbrev tLast : Fin cfg0.N := ⟨63, by rw [show cfg0.N = 64 from N_0]; decide⟩

/-- The region's result word 0: the fold over all 64 points. -/
abbrev fin5 (c : Dev nD) : Buf (Elt F) ((c : Thread nD τ).loc main_v16_0) := (chain m c 63 tLast.isLt).1

/-- The one write-back of window 5, at the last point, writes it: the one-word block is the whole array. -/
theorem flushed5_eq (c : Dev nD) (t : Fin cfg0.N) (hf : (cfg0.win 5).flush t = true) :
    (dats m 0 c).flushed 5 t = ((cfg0.win 5).blk t).view.read (Elt F) (fin5 m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, outsAt_eq]
  have hz' : (fun a => win0_5.index tLast a * main_v16_0.ty.shape.size a) = fun _ => 0 := funext fun a => by fin_cases a <;> decide +kernel
  exact (Memref.read_access_unit_zero (Elt F) main_v16_0 hz' (fun a => by rw [congrFun hz' a]; simp) (fin5 m c)).symm

/-- So the region leaves the fold in result array 0. -/
theorem final5 (c : Dev nD) : (dats m 0 c).arrAt 5 cfg0.N = fin5 m c :=
  (dats m 0 c).arrAt_eq_of_cover 5 (fin5 m c) (flushed5_eq m c) fun i =>
    ⟨tLast, (flush0_5 tLast).mpr rfl, by
      show i ∈ ((View.whole main_v16_0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The region's result word 1: the fold over all 64 points. -/
abbrev fin6 (c : Dev nD) : Buf (Elt F) ((c : Thread nD τ).loc main_v16_1) := (chain m c 63 tLast.isLt).2.1

/-- The one write-back of window 6, at the last point, writes it: the one-word block is the whole array. -/
theorem flushed6_eq (c : Dev nD) (t : Fin cfg0.N) (hf : (cfg0.win 6).flush t = true) :
    (dats m 0 c).flushed 6 t = ((cfg0.win 6).blk t).view.read (Elt F) (fin6 m c) := by
  have hN : cfg0.N = 64 := N_0
  have h63 : t.val = 63 := by have := (flush0_6 t).mp hf; have := t.isLt; omega
  obtain rfl : t = tLast := Fin.ext h63
  show (cfg0.win 6).cut (grid0.coords tLast) ((dats m 0 c).after 6 tLast) = _
  rw [after0_6, outsAt_eq]
  have hz' : (fun a => win0_6.index tLast a * main_v16_1.ty.shape.size a) = fun _ => 0 := funext fun a => by fin_cases a <;> decide +kernel
  exact (Memref.read_access_unit_zero (Elt F) main_v16_1 hz' (fun a => by rw [congrFun hz' a]; simp) (fin6 m c)).symm

/-- So the region leaves the fold in result array 1. -/
theorem final6 (c : Dev nD) : (dats m 0 c).arrAt 6 cfg0.N = fin6 m c :=
  (dats m 0 c).arrAt_eq_of_cover 6 (fin6 m c) (flushed6_eq m c) fun i =>
    ⟨tLast, (flush0_6 tLast).mpr rfl, by
      show i ∈ ((View.whole main_v16_1).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- The region's result word 2: the fold over all 64 points. -/
abbrev fin7 (c : Dev nD) : Buf (Elt F) ((c : Thread nD τ).loc main_v16_2) := (chain m c 63 tLast.isLt).2.2

/-- The one write-back of window 7, at the last point, writes it: the one-word block is the whole array. -/
theorem flushed7_eq (c : Dev nD) (t : Fin cfg0.N) (hf : (cfg0.win 7).flush t = true) :
    (dats m 0 c).flushed 7 t = ((cfg0.win 7).blk t).view.read (Elt F) (fin7 m c) := by
  have hN : cfg0.N = 64 := N_0
  have h63 : t.val = 63 := by have := (flush0_7 t).mp hf; have := t.isLt; omega
  obtain rfl : t = tLast := Fin.ext h63
  show (cfg0.win 7).cut (grid0.coords tLast) ((dats m 0 c).after 7 tLast) = _
  rw [after0_7, outsAt_eq]
  have hz' : (fun a => win0_7.index tLast a * main_v16_2.ty.shape.size a) = fun _ => 0 := funext fun a => by fin_cases a <;> decide +kernel
  exact (Memref.read_access_unit_zero (Elt F) main_v16_2 hz' (fun a => by rw [congrFun hz' a]; simp) (fin7 m c)).symm

/-- So the region leaves the fold in result array 2. -/
theorem final7 (c : Dev nD) : (dats m 0 c).arrAt 7 cfg0.N = fin7 m c :=
  (dats m 0 c).arrAt_eq_of_cover 7 (fin7 m c) (flushed7_eq m c) fun i =>
    ⟨tLast, (flush0_7 tLast).mpr rfl, by
      show i ∈ ((View.whole main_v16_2).slice (win0_7.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 1 from by decide +kernel]; omega⟩

/-- The host lines after the region, as functions of the three result words. -/
def celOut (a : Vec F S1x1 .f32) : FVec F S_ .f32 :=
  Host.divf (Host.negf (shapeCast S_ a shapeCasts_S1x1_S_)) (constant S_ .f32 0x49440000#32)
def meanOut (a : Vec F S1x1 .f32) : FVec F S_ .f32 :=
  Host.divf (shapeCast S_ a shapeCasts_S1x1_S_) (constant S_ .f32 0x46800000#32)
def totalOut (a5 a6 a7 : Vec F S1x1 .f32) : FVec F S_ .f32 :=
  addf (addf (celOut a5) (meanOut a6)) (meanOut a7)

/-- What the lines after the region find in the three result arrays. -/
theorem arr5 (c : Dev nD) : Pipeline.withArrays (cfgs 0).spec c (V0 m c) (fun w => (dats m 0 c).arrAt w (cfgs 0).N) (Proc.tc.devRef main_v16_0) = fin5 m c :=
  (Pipeline.withArrays_arr spec0 launch0.win.arr_inj c _ _ 5).trans (final5 m c)
theorem arr6 (c : Dev nD) : Pipeline.withArrays (cfgs 0).spec c (V0 m c) (fun w => (dats m 0 c).arrAt w (cfgs 0).N) (Proc.tc.devRef main_v16_1) = fin6 m c :=
  (Pipeline.withArrays_arr spec0 launch0.win.arr_inj c _ _ 6).trans (final6 m c)
theorem arr7 (c : Dev nD) : Pipeline.withArrays (cfgs 0).spec c (V0 m c) (fun w => (dats m 0 c).arrAt w (cfgs 0).N) (Proc.tc.devRef main_v16_2) = fin7 m c :=
  (Pipeline.withArrays_arr spec0 launch0.win.arr_inj c _ _ 7).trans (final7 m c)

theorem tail_v19 (c : Dev nD) :
    Pipeline.afterTail₀ cfgs (dats m) 0 (V0 m) [hostOps1] c main_v19 = celOut (fin5 m c) := by
  unfold Pipeline.afterTail₀
  show StableHlo.after hostOps1 _ (Proc.devRef .tc main_v19) = _
  after_results
  rw [arr5]
  rfl

theorem tail_v21 (c : Dev nD) :
    Pipeline.afterTail₀ cfgs (dats m) 0 (V0 m) [hostOps1] c main_v21 = meanOut (fin6 m c) := by
  unfold Pipeline.afterTail₀
  show StableHlo.after hostOps1 _ (Proc.devRef .tc main_v21) = _
  after_results
  rw [arr6]
  rfl

theorem tail_v23 (c : Dev nD) :
    Pipeline.afterTail₀ cfgs (dats m) 0 (V0 m) [hostOps1] c main_v23 = meanOut (fin7 m c) := by
  unfold Pipeline.afterTail₀
  show StableHlo.after hostOps1 _ (Proc.devRef .tc main_v23) = _
  after_results
  rw [arr7]
  rfl

theorem tail_v25 (c : Dev nD) :
    Pipeline.afterTail₀ cfgs (dats m) 0 (V0 m) [hostOps1] c main_v25 = totalOut (fin5 m c) (fin6 m c) (fin7 m c) := by
  unfold Pipeline.afterTail₀
  show StableHlo.after hostOps1 _ (Proc.devRef .tc main_v25) = _
  after_results
  rw [arr5, arr6, arr7]
  rfl

/-- The run, read: the four results as the host lines after the region compute them from the three folds, the
    arguments unchanged. -/
theorem run : θ_run defs (onTc (τ := τ) (main (F := F))) ⟨m, fun _ => 0, ρ⟩ fun r => ∀ c : Dev nD,
      r.2.mem ((c.tc : Thread nD τ).loc main_v25) = totalOut (fin5 m c) (fin6 m c) (fin7 m c)
      ∧ r.2.mem ((c.tc : Thread nD τ).loc main_v19) = celOut (fin5 m c)
      ∧ r.2.mem ((c.tc : Thread nD τ).loc main_v21) = meanOut (fin6 m c)
      ∧ r.2.mem ((c.tc : Thread nD τ).loc main_v23) = meanOut (fin7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans (tail_v25 m c),
      ((h c).2 main_v19 (Pipeline.mem_restRefs_of main_v19 (by decide) (by decide))).trans (tail_v19 m c),
      ((h c).2 main_v21 (Pipeline.mem_restRefs_of main_v21 (by decide) (by decide))).trans (tail_v21 m c),
      ((h c).2 main_v23 (Pipeline.mem_restRefs_of main_v23 (by decide) (by decide))).trans (tail_v23 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.Spec.lean ====
/-
  The loss the two programs compute, as plain functions on the extended reals.

  An image b has a 7×7 grid of cells, flattened row-major to 49 cells g = 7·y + x; channel 0 of the network
  output is an objectness probability per cell, channels 1..4 a box, channels 5..24 class logits.  Each image has
  16 ground-truth boxes n, each assigned a cell and a class.  Three sums over the batch:

  * the objectness term: over every cell, t·max(-100, log p) + (1 - t)·max(-100, log (1 - p));
  * the box term: over every box, a quarter of the squared distance between the four predicted coordinates read at
    the box's cell and the target coordinates;
  * the class term: over every box, minus the log-softmax of the 20 logits read at the box's cell, taken at the
    box's class.

  The losses are the first sum negated and divided by 16384·49, the other two divided by 16384, and their total.
  Everything here is stated row by row (one image at a time) over small index types, so that the same row
  functions serve a block of 256 images and the whole batch.
-/
import Idealize.ShloMosaic.PureOps.Ideal
import Idealize.ShloMosaic.PureOps.Ideal.Laws
import Idealize.ShloMosaic.Lib.ValueIdx

noncomputable section

namespace Cert.Yolo

open Idealize.ShloMosaic Idealize.ShloMosaic.ValueIdx

/-! ## The constants, as the f32 words denote them -/

/-- The clamp floor of a logarithm, -100. -/
abbrev floorW : EReal := Ideal.ofBits .f32 0xC2C80000#32
/-- One. -/
abbrev oneW : EReal := Ideal.ofBits .f32 0x3F800000#32
/-- A quarter. -/
abbrev quarterW : EReal := Ideal.ofBits .f32 0x3E800000#32
/-- Minus infinity, the start of a running maximum. -/
abbrev negInfW : EReal := Ideal.ofBits .f32 0xFF800000#32
/-- The image side 224, the decimal scale 10, the counts 16384·49 and 16384. -/
abbrev sideW : EReal := Ideal.ofBits .f32 0x43600000#32
abbrev tenW : EReal := Ideal.ofBits .f32 0x41200000#32
abbrev cellsW : EReal := Ideal.ofBits .f32 0x49440000#32
abbrev batchW : EReal := Ideal.ofBits .f32 0x46800000#32

/-! ## One image -/

/-- Binary cross-entropy of a probability `p` against a target `t`, logarithms clamped below at -100 (sign not yet flipped). -/
def bce (p t : EReal) : EReal :=
  t * max floorW (Ideal.log p) + (oneW - t) * max floorW (Ideal.log (oneW - p))

/-- The objectness term of one image: the cross-entropies of its 49 cells added. -/
def rowCel (p t : Fin 49 → EReal) : EReal := ∑ g : Fin 49, bce (p g) (t g)

/-- The box term of one image: per box the four squared coordinate differences added and quartered, the boxes added. -/
def rowBox (z tg : Fin 16 → Fin 4 → EReal) : EReal :=
  ∑ n : Fin 16, (∑ k : Fin 4, (z n k - tg n k) * (z n k - tg n k)) * quarterW

/-- The largest of 20 logits, as a running maximum from minus infinity. -/
def rowMax (v : Fin 20 → EReal) : EReal := (Finset.univ : Finset (Fin 20)).fold max negInfW v

/-- Log-softmax of 20 logits at class `c`: the logit shifted by the maximum, minus the log of the sum of the shifted exponentials. -/
def logp (v : Fin 20 → EReal) (c : Fin 20) : EReal :=
  (v c - rowMax v) - Ideal.log (∑ c' : Fin 20, Ideal.exp (v c' - rowMax v))

/-- The class term of one image: per box minus the log-softmax of its logits at its class, the boxes added. -/
def rowCls (z : Fin 16 → Fin 20 → EReal) (l : Fin 16 → Fin 20) : EReal :=
  ∑ n : Fin 16, -(logp (z n) (l n))

/-- A target coordinate: the pixel coordinate over the image side, rounded to one decimal (ties to even). -/
def tgt (x : EReal) : EReal :=
  Ideal.div (Ideal.liftRound Ideal.roundHalfEven (Ideal.div x sideW * tenW)) tenW

/-! ## The batch -/

abbrev SOut : Shape := ⟨4, ![16384, 25, 7, 7]⟩
abbrev SObj : Shape := ⟨3, ![16384, 7, 7]⟩
abbrev SBox : Shape := ⟨3, ![16384, 16, 4]⟩
abbrev SCo : Shape := ⟨3, ![16384, 16, 2]⟩
abbrev SLb : Shape := ⟨2, ![16384, 16]⟩

/-- Row and column of a flat cell. -/
abbrev cellY (g : Fin 49) : Fin 7 := ⟨g.val / 7, by have := g.isLt; omega⟩
abbrev cellX (g : Fin 49) : Fin 7 := ⟨g.val % 7, by omega⟩

/-- The network output of image `b`, channel `c`, at flat cell `g`. -/
def flatOut (O : SOut.Idx → EReal) (b : Fin 16384) (c : Fin 25) (g : Fin 49) : EReal :=
  O (ix4 b c (cellY g) (cellX g))

/-- The objectness target of image `b` at flat cell `g`. -/
def flatObj (T : SObj.Idx → EReal) (b : Fin 16384) (g : Fin 49) : EReal :=
  T (ix3 b (cellY g) (cellX g))

/-- Channel 1 + k (a box coordinate) and channel 5 + c (a class logit). -/
abbrev boxCh (k : Fin 4) : Fin 25 := ⟨1 + k.val, by have := k.isLt; omega⟩
abbrev clsCh (c : Fin 20) : Fin 25 := ⟨5 + c.val, by have := c.isLt; omega⟩

/-- The flat-cell word of box `n` of image `b`: 7·y + x in 32-bit arithmetic. -/
def cellWord (co : SCo.Idx → BitVec 32) (b : Fin 16384) (n : Fin 16) : BitVec 32 :=
  co (ix3 b n (1 : Fin 2)) * 7#32 + co (ix3 b n (0 : Fin 2))

/-- The flat cell of a box, and its class (labels count from 1), as indices; both are read modulo their range so
    that they are total, and are the words' own values when the coordinates lie in the grid and the label in 1..20. -/
def cellOf (co : SCo.Idx → BitVec 32) (b : Fin 16384) (n : Fin 16) : Fin 49 :=
  ⟨((co (ix3 b n (1 : Fin 2))).toNat * 7 + (co (ix3 b n (0 : Fin 2))).toNat) % 49, Nat.mod_lt _ (by decide)⟩
def classOf (lb : SLb.Idx → BitVec 32) (b : Fin 16384) (n : Fin 16) : Fin 20 :=
  ⟨((lb (ix2 b n)).toNat - 1) % 20, Nat.mod_lt _ (by decide)⟩

variable (O : SOut.Idx → EReal) (Bx : SBox.Idx → EReal) (T : SObj.Idx → EReal)
  (gi : Fin 16384 → Fin 16 → Fin 49) (li : Fin 16384 → Fin 16 → Fin 20)

/-- The three sums over the batch, for any assignment `gi` of cells and `li` of classes to the boxes. -/
def celSum : EReal := ∑ b : Fin 16384, rowCel (fun g => flatOut O b 0 g) (fun g => flatObj T b g)
def boxSum : EReal :=
  ∑ b : Fin 16384, rowBox (fun n k => flatOut O b (boxCh k) (gi b n)) (fun n k => tgt (Bx (ix3 b n k)))
def clsSum : EReal := ∑ b : Fin 16384, rowCls (fun n c => flatOut O b (clsCh c) (gi b n)) (li b)

/-- The three losses and their total. -/
def celLoss : EReal := Ideal.div (-(celSum O T)) cellsW
def boxLoss : EReal := Ideal.div (boxSum O Bx gi) batchW
def clsLoss : EReal := Ideal.div (clsSum O gi li) batchW
def totalLoss : EReal := celLoss O T + boxLoss O Bx gi + clsLoss O gi li

end Cert.Yolo

end
-- ==== Proof.BlkCel.lean ====
/-
  The objectness term of one block of 256 images: the body adds, to what the accumulator held, the sum over the
  block's rows of the row's 49 clamped cross-entropies (channel 0 of the output block against the target block).
-/
import proofs.«418083_j22368189678034_3_alg».proof.Proof.Gen.KernelIdeal.Skeleton
import proofs.«418083_j22368189678034_3_alg».proof.Proof.Spec
import Idealize.ShloMosaic.PureOps.Ideal.Laws
import Idealize.ShloMosaic.Lib.ValueIdx
import Idealize.ShloMosaic.Lib.Pipeline.Value

noncomputable section

namespace Cert.KernelIdeal.Blk

open Idealize.ShloMosaic Idealize.ShloMosaic.ValueIdx Cert.KernelIdeal Cert.KernelIdeal.Gen Cert.Yolo

/-! ## The layout steps of the objectness body, each read at explicit coordinates -/

/-- Channel 0 of the output block, as a [256, 1, 49] slice, reads the block at channel 0. -/
private theorem cel_slice {α : Type} (x : S256x25x49.Idx → α) (h : S256x25x49.Slices ![0, 0, 0] S256x1x49)
    (r : Fin 256) (z : Fin 1) (g : Fin 49) :
    extractStridedSlice S256x1x49 ![0, 0, 0] x h (ix3 r z g) = x (ix3 r (0 : Fin 25) g) :=
  extractStridedSlice_apply ![0, 0, 0] x h (ix3 r z g) (ix3 r (0 : Fin 25) g) fun a => by
    match a with
    | ⟨0, _⟩ => show r.val = 0 + r.val; omega
    | ⟨1, _⟩ => show 0 = 0 + z.val; omega
    | ⟨2, _⟩ => show g.val = 0 + g.val; omega

/-- Dropping the unit channel axis: the [256, 49] view at (r, g) is the [256, 1, 49] slice at (r, 0, g). -/
private theorem cel_drop {α : Type} (v : S256x1x49.Idx → α) (h : S256x1x49.ShapeCasts S256x49) (r : Fin 256) (g : Fin 49) :
    shapeCast S256x49 v h (ix2 r g) = v (ix3 r (0 : Fin 1) g) :=
  shapeCast_apply v h (ix2 r g) (ix3 r (0 : Fin 1) g) (by
    rw [Shape.rowMajor_val_three, Shape.rowMajor_val_two]
    show (r.val * 1 + 0) * 49 + g.val = r.val * 49 + g.val
    omega)

/-- Channel 0 of the output block as a [256, 49] vector. -/
private theorem cel_chan0 {α : Type} (x : S256x25x49.Idx → α) (h1 : S256x25x49.Slices ![0, 0, 0] S256x1x49)
    (h2 : S256x1x49.ShapeCasts S256x49) :
    shapeCast S256x49 (extractStridedSlice S256x1x49 ![0, 0, 0] x h1) h2 = fun i => x (ix3 (i 0) (0 : Fin 25) (i 1)) := by
  funext i
  obtain ⟨r, g, rfl⟩ : ∃ (r : Fin 256) (g : Fin 49), i = ix2 r g := ⟨i 0, i 1, eq_ix2 i⟩
  rw [cel_drop, cel_slice]

/-- The row sums as a column: the [256, 1] view at (r, 0) is the [256] vector at r. -/
private theorem col_of_vec {α : Type} (v : S256.Idx → α) (h : S256.ShapeCasts S256x1) (r : Fin 256) (z : Fin 1) :
    shapeCast S256x1 v h (ix2 r z) = v (ix1 r) :=
  shapeCast_apply v h (ix2 r z) (ix1 r) (by
    rw [Shape.rowMajor_val_one, Shape.rowMajor_val_two]
    show r.val = r.val * 1 + z.val
    omega)

/-- The one total as a [1, 1] vector. -/
private theorem one_of_vec {α : Type} (v : S1.Idx → α) (h : S1.ShapeCasts S1x1) (y : S1x1.Idx) :
    shapeCast S1x1 v h y = v (ix1 (0 : Fin 1)) :=
  shapeCast_apply v h y (ix1 (0 : Fin 1)) (by
    rw [Shape.rowMajor_val_one, Shape.rowMajor_val_two]
    show 0 = (y 0).val * 1 + (y 1).val
    have h0 : (y 0).val < 1 := (y 0).isLt
    have h1 : (y 1).val < 1 := (y 1).isLt
    omega)

/-- The lane sum of a [256, 49] vector at row r is the sum of its 49 entries in that row. -/
private theorem lane_sum (src : FVec Ideal S256x49 .f32) (h : S256x49.Reduces [1] S256)
    (hφ : FKind.Formats .f32) (hacc : (0x00000000#32 : BitVec 32) = 0x00000000#32) (r : Fin 256) :
    multiReduction .add [1] S256 src 0x00000000#32 h hφ hacc (ix1 r) = ∑ g : Fin 49, src (ix2 r g) :=
  (Ideal.multiReduction_add_single src 0x00000000#32 h hφ hacc (ix1 r)).trans
    (Finset.sum_congr rfl fun g _ => congrArg src (funext fun c => Fin.ext (by
      match c with
      | ⟨0, _⟩ => rfl
      | ⟨1, _⟩ => rfl)))

/-- The sum down the 256 rows of a [256, 1] column. -/
private theorem row_sum (src : FVec Ideal S256x1 .f32) (h : S256x1.Reduces [0] S1)
    (hφ : FKind.Formats .f32) (hacc : (0x00000000#32 : BitVec 32) = 0x00000000#32) :
    multiReduction .add [0] S1 src 0x00000000#32 h hφ hacc (ix1 (0 : Fin 1)) = ∑ r : Fin 256, src (ix2 r (0 : Fin 1)) :=
  (Ideal.multiReduction_add_single src 0x00000000#32 h hφ hacc (ix1 (0 : Fin 1))).trans
    (Finset.sum_congr rfl fun r _ => congrArg src (funext fun c => Fin.ext (by
      match c with
      | ⟨0, _⟩ => rfl
      | ⟨1, _⟩ => rfl)))

/-- The accumulator's new value: its old value plus the block's rows' objectness terms. -/
theorem pay6_eq (x0 : Vec Ideal S256x25x49 .f32) (x1 : Vec Ideal S256x49 .f32) (acc : Vec Ideal S1x1 .f32) (y : S1x1.Idx) :
    k0_pay6 (F := Ideal) x0 x1 acc y
      = acc y + ∑ r : Fin 256, rowCel (fun g => x0 (ix3 r (0 : Fin 25) g)) (fun g => x1 (ix2 r g)) := by
  unfold k0_pay6 k0_pay5
  simp only [shapeCast_self]
  rw [cel_chan0, addf_apply, one_of_vec, row_sum]
  refine congrArg (acc y + ·) (Finset.sum_congr rfl fun r _ => ?_)
  rw [col_of_vec, lane_sum]
  unfold rowCel bce
  refine Finset.sum_congr rfl fun g _ => ?_
  rfl

end Cert.KernelIdeal.Blk

end
-- ==== Proof.BlkGather.lean ====
/-
  The one-hot contraction is a gather: the matrix product of the indicator of a box's cell (over the 49 cells)
  with the image's channels has, at (image r, box n, channel c), exactly the channel's value at that cell, since
  every other term of the sum is a product with zero.
-/
import proofs.«418083_j22368189678034_3_alg».proof.Proof.Gen.KernelIdeal.Skeleton
import proofs.«418083_j22368189678034_3_alg».proof.Proof.Spec
import Idealize.ShloMosaic.PureOps.Ideal.Laws
import Idealize.ShloMosaic.Lib.ValueIdx
import Idealize.ShloMosaic.Lib.Pipeline.Value

noncomputable section

namespace Cert.KernelIdeal.Blk

open Idealize.ShloMosaic Idealize.ShloMosaic.ValueIdx Cert.KernelIdeal Cert.KernelIdeal.Gen Cert.Yolo

/-! ## The indicator of a box's cell -/

/-- The cell words with a trailing unit axis: the [256, 16, 1] view at (r, n, 0) is the [256, 16] block at (r, n). -/
private theorem word_col {α : Type} (v : S256x16.Idx → α) (h : S256x16.ShapeCasts S256x16x1) (r : Fin 256) (n : Fin 16) (z : Fin 1) :
    shapeCast S256x16x1 v h (ix3 r n z) = v (ix2 r n) :=
  shapeCast_apply v h (ix3 r n z) (ix2 r n) (by
    rw [Shape.rowMajor_val_two, Shape.rowMajor_val_three]
    show r.val * 16 + n.val = (r.val * 16 + n.val) * 1 + z.val
    omega)

/-- The cell word repeated along the 49 lanes. -/
private theorem word_lanes {α : Type} (v : S256x16x1.Idx → α) (h : S256x16x1.Broadcasts S256x16x49) (r : Fin 256) (n : Fin 16) (g : Fin 49) :
    broadcastTo S256x16x49 v h (ix3 r n g) = v (ix3 r n (0 : Fin 1)) :=
  broadcastTo_apply v h (ix3 r n g) (ix3 r n (0 : Fin 1)) fun a => by
    match a with
    | ⟨0, _⟩ => rfl
    | ⟨1, _⟩ => rfl
    | ⟨2, _⟩ => rfl

/-- Two lane numbers below 49 have the same 32-bit word only if they are the same. -/
private theorem lane_word_inj {g g' : Fin 49} (h : BitVec.ofNat 32 g.val = BitVec.ofNat 32 g'.val) : g = g' := by
  have := congrArg BitVec.toNat h
  simp only [BitVec.toNat_ofNat] at this
  exact Fin.ext (by omega)

/-- The indicator at (r, n, g): one when lane g's word is the box's cell word, zero otherwise. -/
private theorem onehot_apply (x2 : Vec Ideal S256x16 .i32) (r : Fin 256) (n : Fin 16) (g : Fin 49) :
    k0_pay7 (F := Ideal) x2 (ix3 r n g) = if BitVec.ofNat 32 g.val = x2 (ix2 r n) then (1 : EReal) else 0 := by
  unfold k0_pay7
  simp only [shapeCast_self]
  rw [sitofp_apply, extui_apply]
  show FloatOps.sitofp .f32 ((IntOp.cmpi .eq (iota .tc S256x16x49 32 [2] iota_S256x16x49_d2_w32 (ix3 r n g))
    (broadcastTo S256x16x49 (shapeCast S256x16x1 x2 shapeCasts_S256x16_S256x16x1) broadcasts_S256x16x1_S256x16x49 (ix3 r n g))).setWidth 32) = _
  rw [iota_single_apply, word_lanes, word_col]
  show FloatOps.sitofp .f32 ((IntOp.cmpi .eq (BitVec.ofNat 32 g.val) (x2 (ix2 r n))).setWidth 32) = _
  by_cases hq : BitVec.ofNat 32 g.val = x2 (ix2 r n)
  · rw [if_pos hq, show IntOp.cmpi .eq (BitVec.ofNat 32 g.val) (x2 (ix2 r n)) = 1#1 from by
      simp only [IntOp.cmpi, hq, beq_self_eq_true, BitVec.ofBool_true]; rfl]
    show (((((1#1 : BitVec 1).setWidth 32).toInt : ℤ) : ℝ) : EReal) = 1
    rw [show ((1#1 : BitVec 1).setWidth 32).toInt = 1 from by decide]
    simp
  · rw [if_neg hq, show IntOp.cmpi .eq (BitVec.ofNat 32 g.val) (x2 (ix2 r n)) = 0#1 from by
      simp only [IntOp.cmpi, beq_eq_false_iff_ne.mpr hq, BitVec.ofBool_false]; rfl]
    show (((((0#1 : BitVec 1).setWidth 32).toInt : ℤ) : ℝ) : EReal) = 0
    rw [show ((0#1 : BitVec 1).setWidth 32).toInt = 0 from by decide]
    simp

/-! ## The contraction's operand indices, axis by axis -/

private theorem lhs_gather_0 (i : S256x16x25.Idx) (q : dot_S256x16x49_S256x25x49_S256x16x25_2_2_1_1_0_0.contr.Idx) :
    (dot_S256x16x49_S256x25x49_S256x16x25_2_2_1_1_0_0.lhsIdx i q 0).val = (i 0).val := by
  unfold DotDims.lhsIdx
  rw [dif_pos (show (0 : Fin S256x16x49.rank) ∈ dot_S256x16x49_S256x25x49_S256x16x25_2_2_1_1_0_0.lhsBatch by decide)]
  rfl

private theorem lhs_gather_1 (i : S256x16x25.Idx) (q : dot_S256x16x49_S256x25x49_S256x16x25_2_2_1_1_0_0.contr.Idx) :
    (dot_S256x16x49_S256x25x49_S256x16x25_2_2_1_1_0_0.lhsIdx i q 1).val = (i 1).val := by
  unfold DotDims.lhsIdx
  rw [dif_neg (show ¬(1 : Fin S256x16x49.rank) ∈ dot_S256x16x49_S256x25x49_S256x16x25_2_2_1_1_0_0.lhsBatch by decide),
    dif_pos (show (1 : Fin S256x16x49.rank) ∈ dot_S256x16x49_S256x25x49_S256x16x25_2_2_1_1_0_0.lhsNonContracting by decide)]
  rfl

private theorem lhs_gather_2 (i : S256x16x25.Idx) (q : dot_S256x16x49_S256x25x49_S256x16x25_2_2_1_1_0_0.contr.Idx) :
    (dot_S256x16x49_S256x25x49_S256x16x25_2_2_1_1_0_0.lhsIdx i q 2).val = (q ⟨0, by decide⟩).val :=
  dot_S256x16x49_S256x25x49_S256x16x25_2_2_1_1_0_0.lhsIdx_val_of_single rfl i q

private theorem rhs_gather_0 (i : S256x16x25.Idx) (q : dot_S256x16x49_S256x25x49_S256x16x25_2_2_1_1_0_0.contr.Idx) :
    (dot_S256x16x49_S256x25x49_S256x16x25_2_2_1_1_0_0.rhsIdx i q 0).val = (i 0).val := by
  unfold DotDims.rhsIdx
  rw [dif_pos (show (0 : Fin S256x25x49.rank) ∈ dot_S256x16x49_S256x25x49_S256x16x25_2_2_1_1_0_0.rhsBatch by decide)]
  rfl

private theorem rhs_gather_1 (i : S256x16x25.Idx) (q : dot_S256x16x49_S256x25x49_S256x16x25_2_2_1_1_0_0.contr.Idx) :
    (dot_S256x16x49_S256x25x49_S256x16x25_2_2_1_1_0_0.rhsIdx i q 1).val = (i 2).val := by
  unfold DotDims.rhsIdx
  rw [dif_neg (show ¬(1 : Fin S256x25x49.rank) ∈ dot_S256x16x49_S256x25x49_S256x16x25_2_2_1_1_0_0.rhsBatch by decide),
    dif_pos (show (1 : Fin S256x25x49.rank) ∈ dot_S256x16x49_S256x25x49_S256x16x25_2_2_1_1_0_0.rhsNonContracting by decide)]
  rfl

private theorem rhs_gather_2 (i : S256x16x25.Idx) (q : dot_S256x16x49_S256x25x49_S256x16x25_2_2_1_1_0_0.contr.Idx) :
    (dot_S256x16x49_S256x25x49_S256x16x25_2_2_1_1_0_0.rhsIdx i q 2).val = (q ⟨0, by decide⟩).val :=
  dot_S256x16x49_S256x25x49_S256x16x25_2_2_1_1_0_0.rhsIdx_val_of_single rfl i q

/-- The product at (r, n, c) is the sum over the 49 cells of the left operand at (r, n, g) times the right at (r, c, g). -/
private theorem gather_sum (L : FVec Ideal S256x16x49 .f32) (R : FVec Ideal S256x25x49 .f32) (r : Fin 256) (n : Fin 16) (c : Fin 25) :
    FloatOps.matmul dot_S256x16x49_S256x25x49_S256x16x25_2_2_1_1_0_0 (some .fp32) L R
        (constant (F := Ideal) S256x16x25 .f32 0x00000000#32) (ix3 r n c)
      = ∑ g : Fin 49, L (ix3 r n g) * R (ix3 r c g) := by
  rw [Ideal.matmul_constant_zero_apply,
    ← Equiv.sum_comp (contrEquiv1 dot_S256x16x49_S256x25x49_S256x16x25_2_2_1_1_0_0 49 rfl rfl).symm]
  refine Finset.sum_congr rfl fun k _ => ?_
  have hk := contrEquiv1_symm_val dot_S256x16x49_S256x25x49_S256x16x25_2_2_1_1_0_0 49 rfl rfl k
  have el : dot_S256x16x49_S256x25x49_S256x16x25_2_2_1_1_0_0.lhsIdx (ix3 r n c)
      ((contrEquiv1 dot_S256x16x49_S256x25x49_S256x16x25_2_2_1_1_0_0 49 rfl rfl).symm k) = ix3 r n k :=
    funext fun a => Fin.ext (by
      match a with
      | ⟨0, _⟩ => exact lhs_gather_0 _ _
      | ⟨1, _⟩ => exact lhs_gather_1 _ _
      | ⟨2, _⟩ => exact (lhs_gather_2 _ _).trans hk)
  have er : dot_S256x16x49_S256x25x49_S256x16x25_2_2_1_1_0_0.rhsIdx (ix3 r n c)
      ((contrEquiv1 dot_S256x16x49_S256x25x49_S256x16x25_2_2_1_1_0_0 49 rfl rfl).symm k) = ix3 r c k :=
    funext fun a => Fin.ext (by
      match a with
      | ⟨0, _⟩ => exact rhs_gather_0 _ _
      | ⟨1, _⟩ => exact rhs_gather_1 _ _
      | ⟨2, _⟩ => exact (rhs_gather_2 _ _).trans hk)
  rw [el, er]

/-- The contraction read at an index, when every cell word of the block is the 32-bit word of a cell `gi r n`. -/
theorem pay8_eq (x0 : Vec Ideal S256x25x49 .f32) (x2 : Vec Ideal S256x16 .i32) (gi : Fin 256 → Fin 16 → Fin 49)
    (h : ∀ (r : Fin 256) (n : Fin 16), x2 (ix2 r n) = BitVec.ofNat 32 (gi r n).val)
    (r : Fin 256) (n : Fin 16) (c : Fin 25) :
    k0_pay8 (F := Ideal) (k0_pay5 x0) (k0_pay7 x2) (ix3 r n c) = x0 (ix3 r c (gi r n)) := by
  unfold k0_pay8 k0_pay5
  simp only [shapeCast_self, matmul]
  rw [gather_sum]
  rw [Finset.sum_eq_single (gi r n)]
  · rw [onehot_apply, if_pos (h r n).symm, one_mul]
  · intro g _ hg
    rw [onehot_apply, if_neg (fun e => hg (lane_word_inj (e.trans (h r n)))), zero_mul]
  · intro hn
    exact absurd (Finset.mem_univ _) hn

end Cert.KernelIdeal.Blk

end
-- ==== Proof.BlkBox.lean ====
/-
  The box term of one block of 256 images: the body adds, to what the accumulator held, the sum over the block's
  rows of the row's box term (predicted coordinates gathered at each box's cell against the target block).
-/
import proofs.«418083_j22368189678034_3_alg».proof.Proof.Gen.KernelIdeal.Skeleton
import proofs.«418083_j22368189678034_3_alg».proof.Proof.Spec
import proofs.«418083_j22368189678034_3_alg».proof.Proof.BlkGather
import Idealize.ShloMosaic.PureOps.Ideal.Laws
import Idealize.ShloMosaic.Lib.ValueIdx
import Idealize.ShloMosaic.Lib.Pipeline.Value

noncomputable section

namespace Cert.KernelIdeal.Blk

open Idealize.ShloMosaic Idealize.ShloMosaic.ValueIdx Cert.KernelIdeal Cert.KernelIdeal.Gen Cert.Yolo

/-! ## The predicted coordinates: channels 1 to 4 of the gathered product -/

/-- Channels 1 to 4 of a [256, 16, 25] vector, as a [256, 16, 4] slice, read it at channel 1 + k. -/
private theorem box_slice {α : Type} (P : S256x16x25.Idx → α) (hs : S256x16x25.Slices ![0, 0, 1] S256x16x4)
    (r : Fin 256) (n : Fin 16) (k : Fin 4) :
    extractStridedSlice S256x16x4 ![0, 0, 1] P hs (ix3 r n k) = P (ix3 r n (boxCh k)) :=
  extractStridedSlice_apply ![0, 0, 1] P hs (ix3 r n k) (ix3 r n (boxCh k)) fun a => by
    match a with
    | ⟨0, _⟩ => show r.val = 0 + r.val; omega
    | ⟨1, _⟩ => show n.val = 0 + n.val; omega
    | ⟨2, _⟩ => show 1 + k.val = 1 + k.val; rfl

/-- The four box channels of the gathered product, at (r, n, k), are the output block's channel 1 + k at the box's cell. -/
private theorem box_pred (x0 : Vec Ideal S256x25x49 .f32) (x2 : Vec Ideal S256x16 .i32) (gi : Fin 256 → Fin 16 → Fin 49)
    (h : ∀ (r : Fin 256) (n : Fin 16), x2 (ix2 r n) = BitVec.ofNat 32 (gi r n).val)
    (hs : S256x16x25.Slices ![0, 0, 1] S256x16x4) :
    extractStridedSlice S256x16x4 ![0, 0, 1] (k0_pay8 (F := Ideal) (k0_pay5 x0) (k0_pay7 x2)) hs
      = fun i => x0 (ix3 (i 0) (boxCh (i 2)) (gi (i 0) (i 1))) := by
  funext i
  obtain ⟨r, n, k, rfl⟩ : ∃ (r : Fin 256) (n : Fin 16) (k : Fin 4), i = ix3 r n k := ⟨i 0, i 1, i 2, eq_ix3 i⟩
  rw [box_slice, pay8_eq x0 x2 gi h]

/-! ## The layout steps of the box body, each read at explicit coordinates -/

/-- The sum over the four coordinates of a [256, 16, 4] vector at (r, n). -/
private theorem coord_sum (src : FVec Ideal S256x16x4 .f32) (h : S256x16x4.Reduces [2] S256x16)
    (hφ : FKind.Formats .f32) (hacc : (0x00000000#32 : BitVec 32) = 0x00000000#32) (r : Fin 256) (n : Fin 16) :
    multiReduction .add [2] S256x16 src 0x00000000#32 h hφ hacc (ix2 r n) = ∑ k : Fin 4, src (ix3 r n k) :=
  (Ideal.multiReduction_add_single src 0x00000000#32 h hφ hacc (ix2 r n)).trans
    (Finset.sum_congr rfl fun k _ => congrArg src (funext fun c => Fin.ext (by
      match c with
      | ⟨0, _⟩ => rfl
      | ⟨1, _⟩ => rfl
      | ⟨2, _⟩ => rfl)))

/-- A trailing unit axis added: the [256, 16, 1] view at (r, n, 0) is the [256, 16] vector at (r, n). -/
private theorem box_col {α : Type} (v : S256x16.Idx → α) (h : S256x16.ShapeCasts S256x16x1) (r : Fin 256) (n : Fin 16) (z : Fin 1) :
    shapeCast S256x16x1 v h (ix3 r n z) = v (ix2 r n) :=
  shapeCast_apply v h (ix3 r n z) (ix2 r n) (by
    rw [Shape.rowMajor_val_two, Shape.rowMajor_val_three]
    show r.val * 16 + n.val = (r.val * 16 + n.val) * 1 + z.val
    omega)

/-- The sum over the 16 boxes of a [256, 16, 1] vector at (r, 0). -/
private theorem box_sum (src : FVec Ideal S256x16x1 .f32) (h : S256x16x1.Reduces [1] S256x1)
    (hφ : FKind.Formats .f32) (hacc : (0x00000000#32 : BitVec 32) = 0x00000000#32) (r : Fin 256) (z : Fin 1) :
    multiReduction .add [1] S256x1 src 0x00000000#32 h hφ hacc (ix2 r z) = ∑ n : Fin 16, src (ix3 r n z) :=
  (Ideal.multiReduction_add_single src 0x00000000#32 h hφ hacc (ix2 r z)).trans
    (Finset.sum_congr rfl fun n _ => congrArg src (funext fun c => Fin.ext (by
      match c with
      | ⟨0, _⟩ => rfl
      | ⟨1, _⟩ => rfl
      | ⟨2, _⟩ => rfl)))

/-- A second trailing unit axis: the [256, 1, 1] view at (r, 0, 0) is the [256, 1] column at (r, 0). -/
private theorem rows_col {α : Type} (v : S256x1.Idx → α) (h : S256x1.ShapeCasts S256x1x1) (r : Fin 256) (z z' : Fin 1) :
    shapeCast S256x1x1 v h (ix3 r z z') = v (ix2 r (0 : Fin 1)) :=
  shapeCast_apply v h (ix3 r z z') (ix2 r (0 : Fin 1)) (by
    rw [Shape.rowMajor_val_two, Shape.rowMajor_val_three]
    show r.val * 1 + 0 = (r.val * 1 + z.val) * 1 + z'.val
    omega)

/-- The sum down the 256 rows of a [256, 1, 1] vector. -/
private theorem rows_sum (src : FVec Ideal S256x1x1 .f32) (h : S256x1x1.Reduces [0] S1x1)
    (hφ : FKind.Formats .f32) (hacc : (0x00000000#32 : BitVec 32) = 0x00000000#32) (a b : Fin 1) :
    multiReduction .add [0] S1x1 src 0x00000000#32 h hφ hacc (ix2 a b) = ∑ r : Fin 256, src (ix3 r a b) :=
  (Ideal.multiReduction_add_single src 0x00000000#32 h hφ hacc (ix2 a b)).trans
    (Finset.sum_congr rfl fun r _ => congrArg src (funext fun c => Fin.ext (by
      match c with
      | ⟨0, _⟩ => rfl
      | ⟨1, _⟩ => rfl
      | ⟨2, _⟩ => rfl)))

/-- The one total with a third unit axis. -/
private theorem one_up {α : Type} (v : S1x1.Idx → α) (h : S1x1.ShapeCasts S1x1x1) (j : S1x1x1.Idx) :
    shapeCast S1x1x1 v h j = v (ix2 (0 : Fin 1) (0 : Fin 1)) :=
  shapeCast_apply v h j (ix2 (0 : Fin 1) (0 : Fin 1)) (by
    rw [Shape.rowMajor_val_two, Shape.rowMajor_val_three]
    show 0 * 1 + 0 = ((j 0).val * 1 + (j 1).val) * 1 + (j 2).val
    have h0 : (j 0).val < 1 := (j 0).isLt
    have h1 : (j 1).val < 1 := (j 1).isLt
    have h2 : (j 2).val < 1 := (j 2).isLt
    omega)

/-- And the third unit axis dropped again. -/
private theorem one_down {α : Type} (v : S1x1x1.Idx → α) (h : S1x1x1.ShapeCasts S1x1) (y : S1x1.Idx) :
    shapeCast S1x1 v h y = v (ix3 (0 : Fin 1) (0 : Fin 1) (0 : Fin 1)) :=
  shapeCast_apply v h y (ix3 (0 : Fin 1) (0 : Fin 1) (0 : Fin 1)) (by
    rw [Shape.rowMajor_val_two, Shape.rowMajor_val_three]
    show (0 * 1 + 0) * 1 + 0 = (y 0).val * 1 + (y 1).val
    have h0 : (y 0).val < 1 := (y 0).isLt
    have h1 : (y 1).val < 1 := (y 1).isLt
    omega)

/-- The accumulator's new value: its old value plus the block's rows' box terms. -/
theorem pay9_eq (x0 : Vec Ideal S256x25x49 .f32) (x2 : Vec Ideal S256x16 .i32) (x4 : Vec Ideal S256x16x4 .f32)
    (gi : Fin 256 → Fin 16 → Fin 49) (h : ∀ (r : Fin 256) (n : Fin 16), x2 (ix2 r n) = BitVec.ofNat 32 (gi r n).val)
    (acc : Vec Ideal S1x1 .f32) (y : S1x1.Idx) :
    k0_pay9 (F := Ideal) (k0_pay5 x0) (k0_pay7 x2) x4 acc y
      = acc y + ∑ r : Fin 256, rowBox (fun n k => x0 (ix3 r (boxCh k) (gi r n))) (fun n k => x4 (ix3 r n k)) := by
  unfold k0_pay9
  simp only [shapeCast_self]
  rw [box_pred x0 x2 gi h, addf_apply, one_down, one_up, rows_sum]
  refine congrArg (acc y + ·) (Finset.sum_congr rfl fun r _ => ?_)
  rw [rows_col, box_sum]
  unfold rowBox
  refine Finset.sum_congr rfl fun n _ => ?_
  rw [mulf_apply, box_col, coord_sum]
  rfl

end Cert.KernelIdeal.Blk

end
-- ==== Proof.BlkCls.lean ====
/-
  The class term of one block of 256 images: the body adds, to what the accumulator held, the sum over the block's
  rows of the row's class term (minus the log-softmax of the logits gathered at each box's cell, selected at the
  box's class by a product with the class's indicator).
-/
import proofs.«418083_j22368189678034_3_alg».proof.Proof.Gen.KernelIdeal.Skeleton
import proofs.«418083_j22368189678034_3_alg».proof.Proof.Spec
import proofs.«418083_j22368189678034_3_alg».proof.Proof.BlkGather
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Blk

open Idealize.ShloMosaic Idealize.ShloMosaic.ValueIdx Cert.KernelIdeal Cert.KernelIdeal.Gen Cert.Yolo

/-! ## Layout operations read at explicit coordinates -/

section Layout
variable {α : Type}

/-- A [256,16] vector viewed [256,16,1]: (r, n, 0) reads (r, n). -/
private theorem cast_rn_addUnit (v : S256x16.Idx → α) (hc : S256x16.ShapeCasts S256x16x1)
    (r : Fin 256) (n : Fin 16) (k : Fin 1) : shapeCast S256x16x1 v hc (ix3 r n k) = v (ix2 r n) := by
  refine shapeCast_apply v hc (ix3 r n k) (ix2 r n) ?_
  rw [Shape.rowMajor_val_two, Shape.rowMajor_val_three]
  show r.val * 16 + n.val = (r.val * 16 + n.val) * 1 + k.val
  have := k.isLt
  omega

/-- A [256,1] vector viewed [256,1,1]: (r, 0, 0) reads (r, 0). -/
private theorem cast_r_addUnit (v : S256x1.Idx → α) (hc : S256x1.ShapeCasts S256x1x1)
    (r : Fin 256) (a b : Fin 1) : shapeCast S256x1x1 v hc (ix3 r a b) = v (ix2 r a) := by
  refine shapeCast_apply v hc (ix3 r a b) (ix2 r a) ?_
  rw [Shape.rowMajor_val_two, Shape.rowMajor_val_three]
  show r.val * 1 + a.val = (r.val * 1 + a.val) * 1 + b.val
  have := b.isLt
  omega

/-- A [1,1] vector viewed [1,1,1]. -/
private theorem cast_one_addUnit (v : S1x1.Idx → α) (hc : S1x1.ShapeCasts S1x1x1)
    (a b c : Fin 1) : shapeCast S1x1x1 v hc (ix3 a b c) = v (ix2 a b) := by
  refine shapeCast_apply v hc (ix3 a b c) (ix2 a b) ?_
  rw [Shape.rowMajor_val_two, Shape.rowMajor_val_three]
  show a.val * 1 + b.val = (a.val * 1 + b.val) * 1 + c.val
  have := c.isLt
  omega

/-- A [1,1,1] vector viewed [1,1]. -/
private theorem cast_one_dropUnit (v : S1x1x1.Idx → α) (hc : S1x1x1.ShapeCasts S1x1)
    (a b : Fin 1) : shapeCast S1x1 v hc (ix2 a b) = v (ix3 a b 0) := by
  refine shapeCast_apply v hc (ix2 a b) (ix3 a b 0) ?_
  rw [Shape.rowMajor_val_two, Shape.rowMajor_val_three]
  show (a.val * 1 + b.val) * 1 + 0 = a.val * 1 + b.val
  omega

/-- A [256,16,1] vector broadcast along the class axis: (r, n, c) reads (r, n, 0). -/
private theorem bcast_cls (v : S256x16x1.Idx → α) (hb : S256x16x1.Broadcasts S256x16x20)
    (r : Fin 256) (n : Fin 16) (c : Fin 20) : broadcastTo S256x16x20 v hb (ix3 r n c) = v (ix3 r n 0) := by
  refine broadcastTo_apply v hb (ix3 r n c) (ix3 r n 0) fun a => ?_
  match a with
  | ⟨0, _⟩ => rfl
  | ⟨1, _⟩ => rfl
  | ⟨2, _⟩ => rfl

/-- The slice of channels 5..24: (r, n, c) reads channel 5 + c. -/
private theorem slice_cls (v : S256x16x25.Idx → α) (hs : S256x16x25.Slices ![0, 0, 5] S256x16x20)
    (r : Fin 256) (n : Fin 16) (c : Fin 20) :
    extractStridedSlice S256x16x20 ![0, 0, 5] v hs (ix3 r n c) = v (ix3 r n (clsCh c)) := by
  refine extractStridedSlice_apply _ v hs (ix3 r n c) (ix3 r n (clsCh c)) fun a => ?_
  match a with
  | ⟨0, _⟩ => show r.val = 0 + r.val; omega
  | ⟨1, _⟩ => show n.val = 0 + n.val; omega
  | ⟨2, _⟩ => show 5 + c.val = 5 + c.val; rfl

end Layout

/-! ## The reductions read at explicit coordinates -/

section Reduce

/-- The index over (r, n) with class c inserted. -/
private theorem lift_cls (hr : S256x16x20.Reduces [2] S256x16) (r : Fin 256) (n : Fin 16) (c : Fin 20) :
    hr.lift (ix2 r n) c = ix3 r n c := by
  funext a
  apply Fin.ext
  match a with
  | ⟨0, _⟩ => rfl
  | ⟨1, _⟩ => rfl
  | ⟨2, _⟩ => rfl

/-- The index over (r, 0) with box n inserted. -/
private theorem lift_box (hr : S256x16x1.Reduces [1] S256x1) (r : Fin 256) (k : Fin 1) (n : Fin 16) :
    hr.lift (ix2 r k) n = ix3 r n k := by
  funext a
  apply Fin.ext
  match a with
  | ⟨0, _⟩ => rfl
  | ⟨1, _⟩ => rfl
  | ⟨2, _⟩ => rfl

/-- The index over (0, 0) with row r inserted. -/
private theorem lift_row (hr : S256x1x1.Reduces [0] S1x1) (a b : Fin 1) (r : Fin 256) :
    hr.lift (ix2 a b) r = ix3 r a b := by
  funext d
  apply Fin.ext
  match d with
  | ⟨0, _⟩ => rfl
  | ⟨1, _⟩ => rfl
  | ⟨2, _⟩ => rfl

/-- The maximum over the class axis is the row maximum of the 20 entries. -/
private theorem max_cls (v : FVec Ideal S256x16x20 .f32) (hr : S256x16x20.Reduces [2] S256x16) (hφ : FKind.Formats .f32)
    (hacc : (0xFF800000#32 : BitVec 32) = 0xFF800000#32) (r : Fin 256) (n : Fin 16) :
    multiReduction .maximumf [2] S256x16 v 0xFF800000#32 hr hφ hacc (ix2 r n) = rowMax (fun c => v (ix3 r n c)) := by
  refine (Ideal.multiReduction_maximumf_single v _ hr hφ hacc (ix2 r n)).trans ?_
  exact congrArg (fun f : Fin 20 → EReal => (Finset.univ : Finset (Fin 20)).fold max negInfW f)
    (funext fun c => congrArg v (lift_cls hr r n c))

/-- The sum over the class axis. -/
private theorem sum_cls (v : FVec Ideal S256x16x20 .f32) (hr : S256x16x20.Reduces [2] S256x16) (hφ : FKind.Formats .f32)
    (hacc : (0x00000000#32 : BitVec 32) = 0x00000000#32) (r : Fin 256) (n : Fin 16) :
    multiReduction .add [2] S256x16 v 0x00000000#32 hr hφ hacc (ix2 r n) = ∑ c : Fin 20, v (ix3 r n c) := by
  refine (Ideal.multiReduction_add_single v _ hr hφ hacc (ix2 r n)).trans ?_
  show ∑ c : Fin 20, v (hr.lift (ix2 r n) c) = _
  simp only [lift_cls]

/-- The sum over the box axis. -/
private theorem sum_box (v : FVec Ideal S256x16x1 .f32) (hr : S256x16x1.Reduces [1] S256x1) (hφ : FKind.Formats .f32)
    (hacc : (0x00000000#32 : BitVec 32) = 0x00000000#32) (r : Fin 256) (k : Fin 1) :
    multiReduction .add [1] S256x1 v 0x00000000#32 hr hφ hacc (ix2 r k) = ∑ n : Fin 16, v (ix3 r n k) := by
  refine (Ideal.multiReduction_add_single v _ hr hφ hacc (ix2 r k)).trans ?_
  show ∑ n : Fin 16, v (hr.lift (ix2 r k) n) = _
  simp only [lift_box]

/-- The sum over the row axis. -/
private theorem sum_row (v : FVec Ideal S256x1x1 .f32) (hr : S256x1x1.Reduces [0] S1x1) (hφ : FKind.Formats .f32)
    (hacc : (0x00000000#32 : BitVec 32) = 0x00000000#32) (a b : Fin 1) :
    multiReduction .add [0] S1x1 v 0x00000000#32 hr hφ hacc (ix2 a b) = ∑ r : Fin 256, v (ix3 r a b) := by
  refine (Ideal.multiReduction_add_single v _ hr hφ hacc (ix2 a b)).trans ?_
  show ∑ r : Fin 256, v (hr.lift (ix2 a b) r) = _
  simp only [lift_row]

end Reduce

/-! ## The class indicator -/

/-- A comparison bit, widened to 32 bits and read as a signed integer, is one at equality and zero otherwise. -/
private theorem ind_val (a b : BitVec 32) :
    (FloatOps.sitofp (F := Ideal) .f32 ((IntOp.cmpi .eq a b).setWidth 32) : EReal) = if a = b then 1 else 0 := by
  by_cases hab : a = b
  · rw [if_pos hab, StableHlo.Predicate.cmpi_eq_iff.mpr hab]
    show (((1#1 : BitVec 1).setWidth 32).toInt : ℝ) = (1 : EReal)
    norm_num
  · have h0 : IntOp.cmpi .eq a b = 0#1 := eq_zero_of_ne_one fun h1 => hab (StableHlo.Predicate.cmpi_eq_iff.mp h1)
    rw [if_neg hab, h0]
    show (((0#1 : BitVec 1).setWidth 32).toInt : ℝ) = (0 : EReal)
    norm_num

/-- Two classes have the same 32-bit word only when they are the same class. -/
private theorem ofNat_cls_inj (c c' : Fin 20) : BitVec.ofNat 32 c.val = BitVec.ofNat 32 c'.val ↔ c = c' := by
  constructor
  · intro e
    have := congrArg BitVec.toNat e
    simp only [BitVec.toNat_ofNat] at this
    have h1 := c.isLt
    have h2 := c'.isLt
    exact Fin.ext (by omega)
  · rintro rfl; rfl

/-! ## The block's per-box class term -/

private theorem exp_at {s : Shape} (a : FVec Ideal s .f32) (i : s.Idx) : exp a i = Ideal.exp (a i) := rfl
private theorem log_at {s : Shape} (a : FVec Ideal s .f32) (i : s.Idx) : log a i = Ideal.log (a i) := rfl

/-- Subtracting a per-box quantity, broadcast along the class axis. -/
private theorem sub_bcast (u : FVec Ideal S256x16x20 .f32) (w : FVec Ideal S256x16x1 .f32)
    (hb : S256x16x1.Broadcasts S256x16x20) (r : Fin 256) (n : Fin 16) (c : Fin 20) :
    subf u (broadcastTo S256x16x20 w hb) (ix3 r n c) = u (ix3 r n c) - w (ix3 r n 0) := by
  rw [subf_apply, bcast_cls]

/-- The per-box value the body hands on: the log-softmax of the box's 20 logits, read at the box's class. -/
private theorem pay10_eq (x0 : Vec Ideal S256x25x49 .f32) (x2 x3 : Vec Ideal S256x16 .i32)
    (gi : Fin 256 → Fin 16 → Fin 49) (h : ∀ (r : Fin 256) (n : Fin 16), x2 (ix2 r n) = BitVec.ofNat 32 (gi r n).val)
    (li : Fin 256 → Fin 16 → Fin 20) (hl : ∀ (r : Fin 256) (n : Fin 16), x3 (ix2 r n) - 1#32 = BitVec.ofNat 32 (li r n).val)
    (r : Fin 256) (n : Fin 16) :
    k0_pay10 (F := Ideal) (k0_pay5 x0) (k0_pay7 x2) x3 (ix2 r n)
      = logp (fun c => x0 (ix3 r (clsCh c) (gi r n))) (li r n) := by
  unfold k0_pay10
  refine (sum_cls _ _ _ _ r n).trans ?_
  -- the 20 logits of box n of row r are the network's class channels at the box's cell
  generalize hv : extractStridedSlice S256x16x20 ![0, 0, 5] (k0_pay8 (F := Ideal) (k0_pay5 x0) (k0_pay7 x2))
    slices_S256x16x25_o0_0_5_S256x16x20 = v
  have e40 : ∀ c : Fin 20, v (ix3 r n c) = x0 (ix3 r (clsCh c) (gi r n)) := fun c => by
    rw [← hv]; exact (slice_cls _ _ r n c).trans (pay8_eq x0 x2 gi h r n (clsCh c))
  -- their maximum
  generalize hm : multiReduction .maximumf [2] S256x16 v 0xFF800000#32 reduces_S256x16x20_S256x16 (.inl rfl) rfl = m
  have em : m (ix2 r n) = rowMax (fun c => x0 (ix3 r (clsCh c) (gi r n))) := by
    rw [← hm, max_cls]; exact congrArg rowMax (funext e40)
  -- the shifted logits
  generalize hu : subf v (broadcastTo S256x16x20 (shapeCast S256x16x1 m shapeCasts_S256x16_S256x16x1)
    broadcasts_S256x16x1_S256x16x20) = u
  have eu : ∀ c : Fin 20, u (ix3 r n c)
      = x0 (ix3 r (clsCh c) (gi r n)) - rowMax (fun c => x0 (ix3 r (clsCh c) (gi r n))) := fun c => by
    rw [← hu, sub_bcast, cast_rn_addUnit, e40, em]
  refine (Finset.sum_congr rfl (g := fun c => (if c = li r n then (1 : EReal) else 0)
    * logp (fun c => x0 (ix3 r (clsCh c) (gi r n))) c) fun c _ => ?_).trans ?_
  · rw [mulf_apply]
    congr 1
    · refine (ind_val _ _).trans ?_
      rw [iota_single_apply, bcast_cls, cast_rn_addUnit]
      show (if BitVec.ofNat 32 c.val = x3 (ix2 r n) - 1#32 then (1 : EReal) else 0) = _
      rw [hl]
      simp only [ofNat_cls_inj]
    · rw [sub_bcast, log_at, cast_rn_addUnit, sum_cls, eu]
      unfold logp
      congr 2
      exact Finset.sum_congr rfl fun c' _ => by rw [exp_at, eu]
  · rw [Finset.sum_eq_single (li r n)]
    · rw [if_pos rfl, one_mul]
    · intro c _ hc; rw [if_neg hc, zero_mul]
    · intro hn; exact absurd (Finset.mem_univ _) hn

/-! ## The accumulator's new value -/

/-- The accumulator's new value: its old value plus the block's rows' class terms, when every label word less one is
    the 32-bit word of a class `li r n`. -/
theorem pay1_eq (x0 : Vec Ideal S256x25x49 .f32) (x2 x3 : Vec Ideal S256x16 .i32)
    (gi : Fin 256 → Fin 16 → Fin 49) (h : ∀ (r : Fin 256) (n : Fin 16), x2 (ix2 r n) = BitVec.ofNat 32 (gi r n).val)
    (li : Fin 256 → Fin 16 → Fin 20) (hl : ∀ (r : Fin 256) (n : Fin 16), x3 (ix2 r n) - 1#32 = BitVec.ofNat 32 (li r n).val)
    (acc : Vec Ideal S1x1 .f32) (y : S1x1.Idx) :
    k0_pay1 (F := Ideal) (k0_pay10 (F := Ideal) (k0_pay5 x0) (k0_pay7 x2) x3) acc y
      = acc y + ∑ r : Fin 256, rowCls (fun n c => x0 (ix3 r (clsCh c) (gi r n))) (li r) := by
  obtain ⟨a, b, rfl⟩ : ∃ (a b : Fin 1), y = ix2 a b := ⟨y 0, y 1, eq_ix2 y⟩
  unfold k0_pay1
  rw [addf_apply, shapeCast_self, cast_one_dropUnit, cast_one_addUnit, sum_row]
  congr 1
  refine Finset.sum_congr rfl fun r _ => ?_
  rw [cast_r_addUnit, sum_box]
  unfold rowCls
  refine Finset.sum_congr rfl fun n _ => ?_
  rw [subf_apply, broadcast_apply, cast_rn_addUnit, pay10_eq x0 x2 x3 gi h li hl r n]
  show Ideal.ofBits .f32 0x00000000#32 - _ = _
  rw [Ideal.ofBits_zero_f32, zero_sub]

end Cert.KernelIdeal.Blk

end
-- ==== Proof.HostIn.lean ====
/-
  What the region finds in its five windows' arrays, read at an index: the host lines before the region flatten the
  7×7 grid of the outputs and of the targets to 49 cells (row-major: cell g is row g / 7, column g % 7), form each
  box's flat-cell word 7·y + x, and turn the pixel boxes into target coordinates; and what a window's block at grid
  point t holds: rows 256·t … 256·t + 255 of its array.
-/
import proofs.«418083_j22368189678034_3_alg».proof.Proof.Gen.KernelIdeal.Frame
import proofs.«418083_j22368189678034_3_alg».proof.Proof.Spec
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.HostIn

open Idealize.ShloMosaic Idealize.ShloMosaic.TcCoe Idealize.SL.Sem Idealize.ShloMosaic.ValueIdx
open Cert.KernelIdeal Cert.KernelIdeal.Gen Cert.Yolo

variable (m : (ℓ : Loc nD τ sig) → Buf (Elt Ideal) ℓ)

/-- Row 256·t + r of the batch. -/
abbrev row (t : Fin cfg0.N) (r : Fin 256) : Fin 16384 :=
  ⟨256 * t.val + r.val, by have := t.isLt; have h : cfg0.N = 64 := N_0; have := r.isLt; omega⟩

/-! ## The arrays the host lines before the region leave -/

/-- The flattened outputs: the launched array reshaped. -/
private theorem arr_out (c : Dev nD) :
    (V m c main_v0 : S16384x25x49.Idx → EReal)
      = shapeCast S16384x25x49 (m ((c : Thread nD τ).loc main_arg0)) shapeCasts_S16384x25x7x7_S16384x25x49 := by
  dsimp only [Gen.V, Gen.V0]
  simp only [Gen.hostOps0, Gen.hostOps0_1, Gen.hostOps0_2, List.flatten_cons, List.flatten_nil, List.append_nil,
    List.cons_append, List.nil_append]
  after_results
  rfl

theorem V_out (c : Dev nD) (b : Fin 16384) (ch : Fin 25) (g : Fin 49) :
    V m c main_v0 (ix3 b ch g) = flatOut (m ((c : Thread nD τ).loc main_arg0)) b ch g := by
  refine (congrFun (arr_out m c) (ix3 b ch g)).trans ?_
  unfold flatOut
  refine shapeCast_apply _ _ _ (ix4 b ch (cellY g) (cellX g)) ?_
  rw [Shape.rowMajor_val_four, Shape.rowMajor_val_three]
  show ((b.val * 25 + ch.val) * 7 + g.val / 7) * 7 + g.val % 7 = (b.val * 25 + ch.val) * 49 + g.val
  omega

/-- The flattened targets: the launched array reshaped. -/
private theorem arr_obj (c : Dev nD) :
    (V m c main_v1 : S16384x49.Idx → EReal)
      = shapeCast S16384x49 (m ((c : Thread nD τ).loc main_arg4)) shapeCasts_S16384x7x7_S16384x49 := by
  dsimp only [Gen.V, Gen.V0]
  simp only [Gen.hostOps0, Gen.hostOps0_1, Gen.hostOps0_2, List.flatten_cons, List.flatten_nil, List.append_nil,
    List.cons_append, List.nil_append]
  after_results
  rfl

theorem V_obj (c : Dev nD) (b : Fin 16384) (g : Fin 49) :
    V m c main_v1 (ix2 b g) = flatObj (m ((c : Thread nD τ).loc main_arg4)) b g := by
  refine (congrFun (arr_obj m c) (ix2 b g)).trans ?_
  unfold flatObj
  refine shapeCast_apply _ _ _ (ix3 b (cellY g) (cellX g)) ?_
  rw [Shape.rowMajor_val_three, Shape.rowMajor_val_two]
  show (b.val * 7 + g.val / 7) * 7 + g.val % 7 = b.val * 49 + g.val
  omega

/-- A coordinate column of the boxes' grid coordinates: the slice at the last axis, its unit axis dropped. -/
private theorem coord_read (A : IVec S16384x16x2 32) (k : Fin 2) (off : Fin 3 → Nat) (hoff : off = ![0, 0, k.val])
    (hs : S16384x16x2.Slices off S16384x16x1) (b : Fin 16384) (n : Fin 16) :
    shapeCast S16384x16 (extractStridedSlice S16384x16x1 off A hs) shapeCasts_S16384x16x1_S16384x16 (ix2 b n)
      = A (ix3 b n k) := by
  subst hoff
  refine (shapeCast_apply _ _ _ (ix3 b n (0 : Fin 1)) ?_).trans (extractStridedSlice_apply _ _ _ _ (ix3 b n k) ?_)
  · rw [Shape.rowMajor_val_three, Shape.rowMajor_val_two]
    show (b.val * 16 + n.val) * 1 + 0 = b.val * 16 + n.val
    omega
  · intro a
    match a with
    | ⟨0, _⟩ => show b.val = 0 + b.val; omega
    | ⟨1, _⟩ => show n.val = 0 + n.val; omega
    | ⟨2, _⟩ => show k.val = k.val + 0; omega

/-- The flat-cell words: seven times the row column plus the column column, in 32-bit arithmetic. -/
private theorem arr_cell (c : Dev nD) :
    (V m c main_v8 : S16384x16.Idx → BitVec 32)
      = addi (muli (shapeCast S16384x16 (extractStridedSlice S16384x16x1 ![0, 0, 1] (m ((c : Thread nD τ).loc main_arg3))
            slices_S16384x16x2_S16384x16x1_0_0_1) shapeCasts_S16384x16x1_S16384x16)
          (broadcastInDim S16384x16 ![] bcast_S_S16384x16 (constantI S_ 32 7#32)))
        (shapeCast S16384x16 (extractStridedSlice S16384x16x1 ![0, 0, 0] (m ((c : Thread nD τ).loc main_arg3))
            slices_S16384x16x2_S16384x16x1_0_0_0) shapeCasts_S16384x16x1_S16384x16) := by
  dsimp only [Gen.V, Gen.V0]
  simp only [Gen.hostOps0, Gen.hostOps0_1, Gen.hostOps0_2, List.flatten_cons, List.flatten_nil, List.append_nil,
    List.cons_append, List.nil_append]
  after_results
  rfl

theorem V_cell (c : Dev nD) (b : Fin 16384) (n : Fin 16) :
    V m c main_v8 (ix2 b n) = cellWord (m ((c : Thread nD τ).loc main_arg3)) b n := by
  refine (congrFun (arr_cell m c) (ix2 b n)).trans ?_
  unfold cellWord
  show shapeCast S16384x16 _ _ (ix2 b n) * 7#32 + shapeCast S16384x16 _ _ (ix2 b n) = _
  exact congrArg₂ (fun p q : BitVec 32 => p * 7#32 + q) (coord_read _ (1 : Fin 2) _ rfl _ b n)
    (coord_read _ (0 : Fin 2) _ rfl _ b n)

/-- The target coordinates: the pixel boxes over the image side, times ten, rounded to even, over ten. -/
private theorem arr_tgt (c : Dev nD) :
    (V m c main_v15 : S16384x16x4.Idx → EReal)
      = Host.divf (Host.roundeven (mulf
            (Host.divf (m ((c : Thread nD τ).loc main_arg1))
              (broadcastInDim S16384x16x4 ![] bcast_S_S16384x16x4 (constant (F := Ideal) S_ .f32 0x43600000#32)))
            (broadcastInDim S16384x16x4 ![] bcast_S_S16384x16x4 (constant (F := Ideal) S_ .f32 0x41200000#32))))
          (broadcastInDim S16384x16x4 ![] bcast_S_S16384x16x4 (constant (F := Ideal) S_ .f32 0x41200000#32)) := by
  dsimp only [Gen.V, Gen.V0]
  simp only [Gen.hostOps0, Gen.hostOps0_1, Gen.hostOps0_2, List.flatten_cons, List.flatten_nil, List.append_nil,
    List.cons_append, List.nil_append]
  after_results
  rfl

theorem V_tgt (c : Dev nD) (b : Fin 16384) (n : Fin 16) (k : Fin 4) :
    V m c main_v15 (ix3 b n k) = tgt (m ((c : Thread nD τ).loc main_arg1) (ix3 b n k)) := by
  refine (congrFun (arr_tgt m c) (ix3 b n k)).trans ?_
  rfl

/-! ## The blocks: rows 256·t … 256·t + 255 of each window's array -/

theorem blk_out (c : Dev nD) (t : Fin cfg0.N) (r : Fin 256) (ch : Fin 25) (g : Fin 49) :
    (iblk m c 0 t : Vec Ideal S256x25x49 .f32) (ix3 r ch g) = V m c main_v0 (ix3 (row t r) ch g) := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  unfold iblk
  rw [View.read_apply]
  show V m c main_v0 _ = V m c main_v0 _
  congr 1
  funext a
  apply Fin.ext
  match a with
  | ⟨0, _⟩ => show win0_0.index t 0 * 256 + 1 * r.val = 256 * t.val + r.val; rw [hi.1]; omega
  | ⟨1, _⟩ => show win0_0.index t 1 * 25 + 1 * ch.val = ch.val; rw [hi.2.1]; omega
  | ⟨2, _⟩ => show win0_0.index t 2 * 49 + 1 * g.val = g.val; rw [hi.2.2]; omega

theorem blk_obj (c : Dev nD) (t : Fin cfg0.N) (r : Fin 256) (g : Fin 49) :
    (iblk m c 1 t : Vec Ideal S256x49 .f32) (ix2 r g) = V m c main_v1 (ix2 (row t r) g) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_v1 _ = V m c main_v1 _
  congr 1
  funext a
  apply Fin.ext
  match a with
  | ⟨0, _⟩ => show win0_1.index t 0 * 256 + 1 * r.val = 256 * t.val + r.val; rw [hi.1]; omega
  | ⟨1, _⟩ => show win0_1.index t 1 * 49 + 1 * g.val = g.val; rw [hi.2]; omega

theorem blk_cell (c : Dev nD) (t : Fin cfg0.N) (r : Fin 256) (n : Fin 16) :
    (iblk m c 2 t : Vec Ideal S256x16 .i32) (ix2 r n) = V m c main_v8 (ix2 (row t r) n) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_v8 _ = V m c main_v8 _
  congr 1
  funext a
  apply Fin.ext
  match a with
  | ⟨0, _⟩ => show win0_2.index t 0 * 256 + 1 * r.val = 256 * t.val + r.val; rw [hi.1]; omega
  | ⟨1, _⟩ => show win0_2.index t 1 * 16 + 1 * n.val = n.val; rw [hi.2]; omega

theorem blk_label (c : Dev nD) (t : Fin cfg0.N) (r : Fin 256) (n : Fin 16) :
    (iblk m c 3 t : Vec Ideal S256x16 .i32) (ix2 r n) = m ((c : Thread nD τ).loc main_arg2) (ix2 (row t r) n) := by
  have hi : win0_3.index t 0 = t.val ∧ win0_3.index t 1 = 0 :=
    (by decide +kernel : ∀ t : Fin grid0.N, win0_3.index t 0 = t.val ∧ win0_3.index t 1 = 0) t
  refine Eq.trans ?_ (congrFun (V_main_arg2 m c) (ix2 (row t r) n))
  unfold iblk
  rw [View.read_apply]
  show V m c main_arg2 _ = V m c main_arg2 _
  congr 1
  funext a
  apply Fin.ext
  match a with
  | ⟨0, _⟩ => show win0_3.index t 0 * 256 + 1 * r.val = 256 * t.val + r.val; rw [hi.1]; omega
  | ⟨1, _⟩ => show win0_3.index t 1 * 16 + 1 * n.val = n.val; rw [hi.2]; omega

theorem blk_tgt (c : Dev nD) (t : Fin cfg0.N) (r : Fin 256) (n : Fin 16) (k : Fin 4) :
    (iblk m c 4 t : Vec Ideal S256x16x4 .f32) (ix3 r n k) = V m c main_v15 (ix3 (row t r) n k) := by
  have hi : win0_4.index t 0 = t.val ∧ win0_4.index t 1 = 0 ∧ win0_4.index t 2 = 0 :=
    (by decide +kernel : ∀ t : Fin grid0.N, win0_4.index t 0 = t.val ∧ win0_4.index t 1 = 0 ∧ win0_4.index t 2 = 0) t
  unfold iblk
  rw [View.read_apply]
  show V m c main_v15 _ = V m c main_v15 _
  congr 1
  funext a
  apply Fin.ext
  match a with
  | ⟨0, _⟩ => show win0_4.index t 0 * 256 + 1 * r.val = 256 * t.val + r.val; rw [hi.1]; omega
  | ⟨1, _⟩ => show win0_4.index t 1 * 16 + 1 * n.val = n.val; rw [hi.2.1]; omega
  | ⟨2, _⟩ => show win0_4.index t 2 * 4 + 1 * k.val = k.val; rw [hi.2.2]; omega

end Cert.KernelIdeal.HostIn

end
-- ==== Proof.SumBlocks.lean ====
/-
  A sum over the 16384 images is the sum, over the 64 blocks, of the sums over each block's 256 images: every image
  is row r of block t for exactly one pair, b = 256·t + r.
-/
import Idealize.ShloMosaic.Lib.ValueIdx

namespace Cert.Yolo

/-- Splitting the batch into 64 consecutive blocks of 256. -/
theorem sum_blocks {M : Type*} [AddCommMonoid M] (f : Fin 16384 → M) :
    ∑ b : Fin 16384, f b
      = ∑ t : Fin 64, ∑ r : Fin 256, f ⟨256 * t.val + r.val, by have := t.isLt; have := r.isLt; omega⟩ := by
  rw [← Fintype.sum_prod_type']
  refine (Fintype.sum_equiv (finProdFinEquiv (m := 64) (n := 256)) _ _ ?_).symm
  rintro ⟨t, r⟩
  refine congrArg f (Fin.ext ?_)
  simp only [finProdFinEquiv_apply_val]
  omega

end Cert.Yolo
-- ==== Proof.KernelValue.lean ====
/-
  The kernel's four results, at the extended reals, as the losses of the specification.  Each block's term of a fold
  is the sum of its 256 rows' terms, a row of block t being image 256·t + r of the batch; the fold from zero over
  the 64 blocks is therefore the sum over the whole batch (sums of extended reals may be regrouped freely); and the
  host lines after the region are the specification's negation, divisions and additions.
-/
import proofs.«418083_j22368189678034_3_alg».proof.Proof.KernelRun
import proofs.«418083_j22368189678034_3_alg».proof.Proof.BlkCel
import proofs.«418083_j22368189678034_3_alg».proof.Proof.BlkBox
import proofs.«418083_j22368189678034_3_alg».proof.Proof.BlkCls
import proofs.«418083_j22368189678034_3_alg».proof.Proof.HostIn
import proofs.«418083_j22368189678034_3_alg».proof.Proof.SumBlocks
import proofs.«418083_j22368189678034_3_alg».proof.Proof.Spec

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.HostIn Cert.KernelIdeal.Blk Cert.Yolo

variable (m : (ℓ : Loc nD τ sig) → Buf (Elt Ideal) ℓ) (ρ : Dev nD → PrngReg)

/-- The five argument arrays of core `c`. -/
abbrev aOut (c : Dev nD) : SOut.Idx → EReal := m ((c : Thread nD τ).loc main_arg0)
abbrev aBox (c : Dev nD) : SBox.Idx → EReal := m ((c : Thread nD τ).loc main_arg1)
abbrev aLb (c : Dev nD) : SLb.Idx → BitVec 32 := m ((c : Thread nD τ).loc main_arg2)
abbrev aCo (c : Dev nD) : SCo.Idx → BitVec 32 := m ((c : Thread nD τ).loc main_arg3)
abbrev aObj (c : Dev nD) : SObj.Idx → EReal := m ((c : Thread nD τ).loc main_arg4)

/-- The three zero words the first point stores. -/
theorem pay2_zero (y : S1x1.Idx) : k0_pay2 (F := Ideal) y = 0 := Ideal.ofBits_zero_f32
theorem pay3_zero (y : S1x1.Idx) : k0_pay3 (F := Ideal) y = 0 := Ideal.ofBits_zero_f32
theorem pay4_zero (y : S1x1.Idx) : k0_pay4 (F := Ideal) y = 0 := Ideal.ofBits_zero_f32

variable (gi : Fin 16384 → Fin 16 → Fin 49) (li : Fin 16384 → Fin 16 → Fin 20)

/-- Block `t`'s terms: the sums of its 256 rows' terms. -/
def blkCel (c : Dev nD) (t : Fin cfg0.N) : EReal :=
  ∑ r : Fin 256, rowCel (fun g => flatOut (aOut m c) (row t r) 0 g) (fun g => flatObj (aObj m c) (row t r) g)
def blkBox (c : Dev nD) (t : Fin cfg0.N) : EReal :=
  ∑ r : Fin 256, rowBox (fun n k => flatOut (aOut m c) (row t r) (boxCh k) (gi (row t r) n)) (fun n k => tgt (aBox m c (ix3 (row t r) n k)))
def blkCls (c : Dev nD) (t : Fin cfg0.N) : EReal :=
  ∑ r : Fin 256, rowCls (fun n ch => flatOut (aOut m c) (row t r) (clsCh ch) (gi (row t r) n)) (li (row t r))

/-- One point's update of the objectness word. -/
theorem step5 (c : Dev nD) (t : Fin cfg0.N) (acc : Vec Ideal S1x1 .f32) (y : S1x1.Idx) :
    k0_pay6 (F := Ideal) (iblk m c 0 t) (iblk m c 1 t) acc y = acc y + blkCel m c t := by
  refine (pay6_eq (iblk m c 0 t) (iblk m c 1 t) acc y).trans ?_
  unfold blkCel
  refine congrArg (acc y + ·) (Finset.sum_congr rfl fun r _ => ?_)
  refine congrArg₂ rowCel (funext fun g => ?_) (funext fun g => ?_)
  · rw [blk_out, V_out]
  · rw [blk_obj, V_obj]

/-- One point's update of the box word, when every box's flat-cell word is the word of its cell. -/
theorem step6 (c : Dev nD) (t : Fin cfg0.N)
    (h : ∀ (b : Fin 16384) (n : Fin 16), cellWord (aCo m c) b n = BitVec.ofNat 32 (gi b n).val)
    (acc : Vec Ideal S1x1 .f32) (y : S1x1.Idx) :
    k0_pay9 (F := Ideal) (k0_pay5 (iblk m c 0 t)) (k0_pay7 (iblk m c 2 t)) (iblk m c 4 t) acc y = acc y + blkBox m gi c t := by
  refine (pay9_eq (iblk m c 0 t) (iblk m c 2 t) (iblk m c 4 t) (fun r n => gi (row t r) n) (fun r n => ?_) acc y).trans ?_
  · rw [blk_cell, V_cell]; exact h (row t r) n
  unfold blkBox
  refine congrArg (acc y + ·) (Finset.sum_congr rfl fun r _ => ?_)
  refine congrArg₂ rowBox (funext fun n => funext fun k => ?_) (funext fun n => funext fun k => ?_)
  · rw [blk_out, V_out]
  · rw [blk_tgt, V_tgt]

/-- One point's update of the class word, when moreover every label word less one is the word of its class. -/
theorem step7 (c : Dev nD) (t : Fin cfg0.N)
    (h : ∀ (b : Fin 16384) (n : Fin 16), cellWord (aCo m c) b n = BitVec.ofNat 32 (gi b n).val)
    (hl : ∀ (b : Fin 16384) (n : Fin 16), aLb m c (ix2 b n) - 1#32 = BitVec.ofNat 32 (li b n).val)
    (acc : Vec Ideal S1x1 .f32) (y : S1x1.Idx) :
    k0_pay1 (F := Ideal) (k0_pay10 (F := Ideal) (k0_pay5 (iblk m c 0 t)) (k0_pay7 (iblk m c 2 t)) (iblk m c 3 t)) acc y
      = acc y + blkCls m gi li c t := by
  refine (pay1_eq (iblk m c 0 t) (iblk m c 2 t) (iblk m c 3 t) (fun r n => gi (row t r) n) (fun r n => ?_)
    (fun r n => li (row t r) n) (fun r n => ?_) acc y).trans ?_
  · rw [blk_cell, V_cell]; exact h (row t r) n
  · rw [blk_label]; exact hl (row t r) n
  unfold blkCls
  refine congrArg (acc y + ·) (Finset.sum_congr rfl fun r _ => ?_)
  refine congrArg₂ rowCls (funext fun n => funext fun ch => ?_) rfl
  rw [blk_out, V_out]

/-- A block's term by the point's number (zero past the grid). -/
def byNat (f : Fin cfg0.N → EReal) (t : ℕ) : EReal := if ht : t < cfg0.N then f ⟨t, ht⟩ else 0

theorem byNat_of_lt (f : Fin cfg0.N → EReal) (t : ℕ) (ht : t < cfg0.N) : byNat f t = f ⟨t, ht⟩ := dif_pos ht

/-- After point `n` each word is the sum of the block terms of points 0..n: by induction on the point. -/
theorem chain_eq (c : Dev nD)
    (h : ∀ (b : Fin 16384) (n : Fin 16), cellWord (aCo m c) b n = BitVec.ofNat 32 (gi b n).val)
    (hl : ∀ (b : Fin 16384) (n : Fin 16), aLb m c (ix2 b n) - 1#32 = BitVec.ofNat 32 (li b n).val) :
    ∀ (n : ℕ) (hn : n < cfg0.N) (y : S1x1.Idx),
      (chain m c n hn).1 y = ∑ t ∈ Finset.range (n + 1), byNat (blkCel m c) t
      ∧ (chain m c n hn).2.1 y = ∑ t ∈ Finset.range (n + 1), byNat (blkBox m gi c) t
      ∧ (chain m c n hn).2.2 y = ∑ t ∈ Finset.range (n + 1), byNat (blkCls m gi li c) t
  | 0, hn, y => by
    refine ⟨?_, ?_, ?_⟩
    · show k0_pay6 (F := Ideal) (iblk m c 0 ⟨0, hn⟩) (iblk m c 1 ⟨0, hn⟩) (k0_pay2 (F := Ideal)) y = _
      rw [step5, pay2_zero, zero_add, Finset.sum_range_one, byNat_of_lt _ 0 hn]
    · show k0_pay9 (F := Ideal) (k0_pay5 (iblk m c 0 ⟨0, hn⟩)) (k0_pay7 (iblk m c 2 ⟨0, hn⟩)) (iblk m c 4 ⟨0, hn⟩) (k0_pay3 (F := Ideal)) y = _
      rw [step6 m gi c ⟨0, hn⟩ h, pay3_zero, zero_add, Finset.sum_range_one, byNat_of_lt _ 0 hn]
    · show k0_pay1 (F := Ideal) (k0_pay10 (F := Ideal) (k0_pay5 (iblk m c 0 ⟨0, hn⟩)) (k0_pay7 (iblk m c 2 ⟨0, hn⟩)) (iblk m c 3 ⟨0, hn⟩)) (k0_pay4 (F := Ideal)) y = _
      rw [step7 m gi li c ⟨0, hn⟩ h hl, pay4_zero, zero_add, Finset.sum_range_one, byNat_of_lt _ 0 hn]
  | n + 1, hn, y => by
    obtain ⟨i5, i6, i7⟩ := chain_eq c h hl n (Nat.lt_of_succ_lt hn) y
    refine ⟨?_, ?_, ?_⟩
    · show k0_pay6 (F := Ideal) (iblk m c 0 ⟨n + 1, hn⟩) (iblk m c 1 ⟨n + 1, hn⟩) (chain m c n (Nat.lt_of_succ_lt hn)).1 y = _
      rw [step5, i5, Finset.sum_range_succ _ (n + 1), byNat_of_lt _ (n + 1) hn]
    · show k0_pay9 (F := Ideal) (k0_pay5 (iblk m c 0 ⟨n + 1, hn⟩)) (k0_pay7 (iblk m c 2 ⟨n + 1, hn⟩)) (iblk m c 4 ⟨n + 1, hn⟩) (chain m c n (Nat.lt_of_succ_lt hn)).2.1 y = _
      rw [step6 m gi c ⟨n + 1, hn⟩ h, i6, Finset.sum_range_succ _ (n + 1), byNat_of_lt _ (n + 1) hn]
    · show k0_pay1 (F := Ideal) (k0_pay10 (F := Ideal) (k0_pay5 (iblk m c 0 ⟨n + 1, hn⟩)) (k0_pay7 (iblk m c 2 ⟨n + 1, hn⟩)) (iblk m c 3 ⟨n + 1, hn⟩)) (chain m c n (Nat.lt_of_succ_lt hn)).2.2 y = _
      rw [step7 m gi li c ⟨n + 1, hn⟩ h hl, i7, Finset.sum_range_succ _ (n + 1), byNat_of_lt _ (n + 1) hn]

/-- The sum over the 64 points of a block term that is a sum over the block's rows is the sum over the batch. -/
theorem sum_points (f : Fin 16384 → EReal) (g : Fin cfg0.N → EReal) (hg : ∀ t, g t = ∑ r : Fin 256, f (row t r)) :
    ∑ t ∈ Finset.range (63 + 1), byNat g t = ∑ b : Fin 16384, f b := by
  have hN : cfg0.N = 64 := N_0
  rw [sum_blocks, Finset.sum_range]
  refine Finset.sum_congr rfl fun t _ => ?_
  have ht : t.val < cfg0.N := by rw [hN]; exact t.isLt
  rw [byNat_of_lt _ _ ht, hg]

/-- The three result words of the region are the three sums over the batch. -/
theorem fin_eq (c : Dev nD)
    (h : ∀ (b : Fin 16384) (n : Fin 16), cellWord (aCo m c) b n = BitVec.ofNat 32 (gi b n).val)
    (hl : ∀ (b : Fin 16384) (n : Fin 16), aLb m c (ix2 b n) - 1#32 = BitVec.ofNat 32 (li b n).val) (y : S1x1.Idx) :
    fin5 m c y = celSum (aOut m c) (aObj m c)
    ∧ fin6 m c y = boxSum (aOut m c) (aBox m c) gi
    ∧ fin7 m c y = clsSum (aOut m c) gi li := by
  obtain ⟨i5, i6, i7⟩ := chain_eq m gi li c h hl 63 tLast.isLt y
  refine ⟨i5.trans ?_, i6.trans ?_, i7.trans ?_⟩
  · exact sum_points _ (blkCel m c) fun t => rfl
  · exact sum_points _ (blkBox m gi c) fun t => rfl
  · exact sum_points _ (blkCls m gi li c) fun t => rfl

/-! ## The host lines after the region -/

/-- The one word of a [1,1] array, recast to a scalar. -/
theorem word_cast (a : Vec Ideal S1x1 .f32) (i : S_.Idx) : shapeCast S_ a shapeCasts_S1x1_S_ i = a (ix2 0 0) :=
  shapeCast_apply a shapeCasts_S1x1_S_ i (ix2 0 0) (by
    have h1 := lt_of_lt_of_eq (S1x1.rowMajor (ix2 0 0)).isLt (by decide : S1x1.numel = 1)
    have h0 := lt_of_lt_of_eq (S_.rowMajor i).isLt (by decide : S_.numel = 1)
    omega)

theorem celOut_apply (a : Vec Ideal S1x1 .f32) (i : S_.Idx) :
    celOut (F := Ideal) a i = Ideal.div (-(a (ix2 0 0))) cellsW := by
  unfold celOut
  show Ideal.div (-(shapeCast S_ a shapeCasts_S1x1_S_ i)) (Ideal.ofBits .f32 0x49440000#32) = _
  rw [word_cast]

theorem meanOut_apply (a : Vec Ideal S1x1 .f32) (i : S_.Idx) :
    meanOut (F := Ideal) a i = Ideal.div (a (ix2 0 0)) batchW := by
  unfold meanOut
  show Ideal.div (shapeCast S_ a shapeCasts_S1x1_S_ i) (Ideal.ofBits .f32 0x46800000#32) = _
  rw [word_cast]

theorem totalOut_apply (a5 a6 a7 : Vec Ideal S1x1 .f32) (i : S_.Idx) :
    totalOut (F := Ideal) a5 a6 a7 i
      = Ideal.div (-(a5 (ix2 0 0))) cellsW + Ideal.div (a6 (ix2 0 0)) batchW + Ideal.div (a7 (ix2 0 0)) batchW := by
  unfold totalOut
  show celOut (F := Ideal) a5 i + meanOut (F := Ideal) a6 i + meanOut (F := Ideal) a7 i = _
  rw [celOut_apply, meanOut_apply, meanOut_apply]

/-- The kernel's run at the extended reals: its four results are the total, objectness, box and class losses of its
    arguments, for any assignment of cells and classes to the boxes that the flat-cell and label words spell; the
    arguments end unchanged. -/
theorem run_value (G : Dev nD → Fin 16384 → Fin 16 → Fin 49) (Lc : Dev nD → Fin 16384 → Fin 16 → Fin 20)
    (h : ∀ (c : Dev nD) (b : Fin 16384) (n : Fin 16), cellWord (aCo m c) b n = BitVec.ofNat 32 (G c b n).val)
    (hl : ∀ (c : Dev nD) (b : Fin 16384) (n : Fin 16), aLb m c (ix2 b n) - 1#32 = BitVec.ofNat 32 (Lc c b n).val) :
    θ_run defs (onTc (τ := τ) (main (F := Ideal))) ⟨m, fun _ => 0, ρ⟩ fun r => ∀ c : Dev nD,
      r.2.mem ((c.tc : Thread nD τ).loc main_v25) = (fun _ => totalLoss (aOut m c) (aBox m c) (aObj m c) (G c) (Lc c))
      ∧ r.2.mem ((c.tc : Thread nD τ).loc main_v19) = (fun _ => celLoss (aOut m c) (aObj m c))
      ∧ r.2.mem ((c.tc : Thread nD τ).loc main_v21) = (fun _ => boxLoss (aOut m c) (aBox m c) (G c))
      ∧ r.2.mem ((c.tc : Thread nD τ).loc main_v23) = (fun _ => clsLoss (aOut m c) (G c) (Lc c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (run (F := Ideal) m ρ)
  obtain ⟨e25, e19, e21, e23, rest⟩ := hr c
  obtain ⟨i5, i6, i7⟩ := fin_eq m (G c) (Lc c) c (h c) (hl c) (ix2 0 0)
  refine ⟨e25.trans (funext fun i => ?_), e19.trans (funext fun i => ?_), e21.trans (funext fun i => ?_),
    e23.trans (funext fun i => ?_), rest⟩
  · rw [totalOut_apply, i5, i6, i7]; rfl
  · rw [celOut_apply, i5]; rfl
  · rw [meanOut_apply, i6]; rfl
  · rw [meanOut_apply, i7]; rfl

end Cert.KernelIdeal.Acc

end
-- ==== Proof.PreRange.lean ====
/-
  What the precondition says of the integer inputs: every grid coordinate of a box lies in 0..6, so the flat-cell
  word 7·y + x is a cell 0..48 with no 32-bit wrap; every label lies in 1..20, so the label less one is a class 0..19.
-/
import proofs.«418083_j22368189678034_3_alg».proof.Pre_finite_inputs
import proofs.«418083_j22368189678034_3_alg».proof.Proof.Gen.Pre_finite_inputs
import proofs.«418083_j22368189678034_3_alg».proof.Proof.Spec
import Idealize.ShloMosaic.Lib.ReduceAll
import Idealize.ShloMosaic.Lib.StableHlo.Predicate
import Idealize.ShloMosaic.Lib.ValueIdx

noncomputable section

namespace Cert.Pre_finite_inputs.Range

open Idealize.ShloMosaic Idealize.ShloMosaic.ValueIdx Cert.Pre_finite_inputs Cert.Yolo

private instance : Subsingleton S_.Idx := ⟨fun a b => funext fun d => d.elim0⟩

/-- A scalar spread over a whole array reads the scalar at every index. -/
private theorem spread {t : Shape} (hb : S_.BroadcastsInDim t (![] : Fin 0 → Fin t.rank)) (w : BitVec 32) (i : t.Idx) :
    broadcastInDim t ![] hb (constantI S_ 32 w) i = w := rfl

/-- The two integer conjuncts of the precondition, read at an index: a coordinate word lies in 0..6 and a
    label word in 1..20, both read signed. -/
private theorem ranges (a0 : FVec Ideal S16384x25x7x7 .f32) (a1 : FVec Ideal S16384x16x4 .f32) (a2 : IVec S16384x16 32)
    (a3 : IVec S16384x16x2 32) (a4 : FVec Ideal S16384x7x7 .f32)
    (h : Cert.Pre_finite_inputs.fn (F := Ideal) a0 a1 a2 a3 a4 = fun _ => 1#1) :
    (∀ i : S16384x16x2.Idx, 0 ≤ (a3 i).toInt ∧ (a3 i).toInt < 7) ∧
      (∀ i : S16384x16.Idx, 1 ≤ (a2 i).toInt ∧ (a2 i).toInt ≤ 20) := by
  have h0 := congrFun h ix0
  dsimp only [Cert.Pre_finite_inputs.fn, Cert.Pre_finite_inputs.fn_part1] at h0
  obtain ⟨hA, hL⟩ := IntOp.andi_eq_one.1 h0
  obtain ⟨-, hC⟩ := IntOp.andi_eq_one.1 hA
  refine ⟨fun i => ?_, fun i => ?_⟩
  · obtain ⟨h1, h2⟩ := IntOp.andi_eq_one.1 (Host.reduce_andi_all _ _ _ _ ix0 hC i)
    have e1 := IntOp.cmpi_sge.1 h1
    have e2 := IntOp.cmpi_slt.1 h2
    rw [spread] at e1 e2
    exact ⟨by simpa using e1, by simpa using e2⟩
  · obtain ⟨h1, h2⟩ := IntOp.andi_eq_one.1 (Host.reduce_andi_all _ _ _ _ ix0 hL i)
    have e1 := IntOp.cmpi_sge.1 h1
    have e2 := IntOp.cmpi_sle.1 h2
    rw [spread] at e1 e2
    exact ⟨by simpa using e1, by simpa using e2⟩

/-- A word that reads nonnegative signed reads the same unsigned. -/
private theorem toNat_eq_toInt {w : BitVec 32} (h0 : 0 ≤ w.toInt) : (w.toNat : Int) = w.toInt := by
  have e := BitVec.toInt_eq_toNat_cond w
  have l := w.isLt
  split at e <;> omega

/-- Under the precondition every box's flat-cell word is the 32-bit word of its cell. -/
theorem cell_word (a0 : FVec Ideal S16384x25x7x7 .f32) (a1 : FVec Ideal S16384x16x4 .f32) (a2 : IVec S16384x16 32)
    (a3 : IVec S16384x16x2 32) (a4 : FVec Ideal S16384x7x7 .f32)
    (h : Cert.Pre_finite_inputs.fn (F := Ideal) a0 a1 a2 a3 a4 = fun _ => 1#1) (b : Fin 16384) (n : Fin 16) :
    cellWord a3 b n = BitVec.ofNat 32 (cellOf a3 b n).val := by
  obtain ⟨hc, -⟩ := ranges a0 a1 a2 a3 a4 h
  obtain ⟨hy0, hy7⟩ := hc (ix3 b n (1 : Fin 2))
  obtain ⟨hx0, hx7⟩ := hc (ix3 b n (0 : Fin 2))
  have ey := toNat_eq_toInt hy0
  have ex := toNat_eq_toInt hx0
  unfold cellWord cellOf
  apply BitVec.eq_of_toNat_eq
  simp only [BitVec.toNat_add, BitVec.toNat_mul, BitVec.toNat_ofNat]
  have hy : (a3 (ix3 b n (1 : Fin 2))).toNat < 7 := by omega
  have hx : (a3 (ix3 b n (0 : Fin 2))).toNat < 7 := by omega
  have e49 : ((a3 (ix3 b n (1 : Fin 2))).toNat * 7 + (a3 (ix3 b n (0 : Fin 2))).toNat) % 49
      = (a3 (ix3 b n (1 : Fin 2))).toNat * 7 + (a3 (ix3 b n (0 : Fin 2))).toNat := Nat.mod_eq_of_lt (by omega)
  have e7 : (a3 (ix3 b n (1 : Fin 2))).toNat * (7 % 2 ^ 32) % 2 ^ 32 = (a3 (ix3 b n (1 : Fin 2))).toNat * 7 := by omega
  rw [e49, e7]

/-- Under the precondition every label word less one is the 32-bit word of its class. -/
theorem class_word (a0 : FVec Ideal S16384x25x7x7 .f32) (a1 : FVec Ideal S16384x16x4 .f32) (a2 : IVec S16384x16 32)
    (a3 : IVec S16384x16x2 32) (a4 : FVec Ideal S16384x7x7 .f32)
    (h : Cert.Pre_finite_inputs.fn (F := Ideal) a0 a1 a2 a3 a4 = fun _ => 1#1) (b : Fin 16384) (n : Fin 16) :
    a2 (ix2 b n) - 1#32 = BitVec.ofNat 32 (classOf a2 b n).val := by
  obtain ⟨-, hl⟩ := ranges a0 a1 a2 a3 a4 h
  obtain ⟨h1, h20⟩ := hl (ix2 b n)
  have el := toNat_eq_toInt (w := a2 (ix2 b n)) (by omega)
  unfold classOf
  apply BitVec.eq_of_toNat_eq
  simp only [BitVec.toNat_sub, BitVec.toNat_ofNat]
  omega

end Cert.Pre_finite_inputs.Range

end
-- ==== Proof.RefStages.lean ====
/-
  The reference's straight line read stretch by stretch.  The line is cut after every operation whose result is
  read more than once (and around each integer or maximum reduce and each gather, which is a stretch of its own), so that inside a
  stretch every intermediate value has one reader; a stretch's result is then
  its stage function of the arguments by computation, given that the buffers it reads hold theirs; a buffer a
  stretch does not write passes through it; chained over the 21 stretches, the four results of @main are their
  stage functions of the launch contents of the arguments.
-/
import proofs.«418083_j22368189678034_3_alg».proof.Proof.RefOps
import proofs.«418083_j22368189678034_3_alg».proof.Proof.RefRead
import Idealize.ShloMosaic.Lib.Pipeline.Frame

noncomputable section

namespace Cert.ReferenceIdeal.Line

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## The stretches -/

/-- Operations 0 to 2 of the line. -/
abbrev ops_0 : List (HloOp τ sig (Elt F)) :=
  [ unary main_arg0 main_v0 ((extractStridedSlice S16384x1x7x7 ![0, 0, 0, 0] · slices_S16384x25x7x7_S16384x1x7x7_0_0_0_0) : (⟨S16384x25x7x7, .f32⟩ : BufTy).Contents (Elt F) → (⟨S16384x1x7x7, .f32⟩ : BufTy).Contents (Elt F)),
    reshape main_v0 main_v1 rfl shapeCasts_S16384x1x7x7_S16384x7x7,
    reshape main_v1 main_v2 rfl shapeCasts_S16384x7x7_S16384x49 ]

/-- Operations 3 to 3 of the line. -/
abbrev ops_1 : List (HloOp τ sig (Elt F)) :=
  [ reshape main_arg4 main_v3 rfl shapeCasts_S16384x7x7_S16384x49 ]

/-- Operations 4 to 27 of the line. -/
abbrev ops_2 : List (HloOp τ sig (Elt F)) :=
  [ unary main_v2 main_v4 (Host.log : (⟨S16384x49, .f32⟩ : BufTy).Contents (Elt F) → (⟨S16384x49, .f32⟩ : BufTy).Contents (Elt F)),
    nullary main_cst (constant S_ .f32 0xC2C80000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S16384x49, .f32⟩) main_call0_v1) (broadcastInDim S16384x49 ![] bcast_S_S16384x49),
    TRef.binary (TRef.of (T := ⟨S16384x49, .f32⟩) main_call0_v1) (TRef.of (T := ⟨S16384x49, .f32⟩) main_v4) (TRef.of (T := ⟨S16384x49, .f32⟩) main_v5) maximumf,
    binary main_v3 main_v5 main_v6 (mulf : (⟨S16384x49, .f32⟩ : BufTy).Contents (Elt F) → (⟨S16384x49, .f32⟩ : BufTy).Contents (Elt F) → (⟨S16384x49, .f32⟩ : BufTy).Contents (Elt F)),
    nullary main_cst_0 (constant S_ .f32 0x3F800000#32),
    unary main_cst_0 main_v7 (broadcastInDim S16384x49 ![] bcast_S_S16384x49 : (⟨S_, .f32⟩ : BufTy).Contents (Elt F) → (⟨S16384x49, .f32⟩ : BufTy).Contents (Elt F)),
    binary main_v7 main_v3 main_v8 (subf : (⟨S16384x49, .f32⟩ : BufTy).Contents (Elt F) → (⟨S16384x49, .f32⟩ : BufTy).Contents (Elt F) → (⟨S16384x49, .f32⟩ : BufTy).Contents (Elt F)),
    nullary main_cst_1 (constant S_ .f32 0x3F800000#32),
    unary main_cst_1 main_v9 (broadcastInDim S16384x49 ![] bcast_S_S16384x49 : (⟨S_, .f32⟩ : BufTy).Contents (Elt F) → (⟨S16384x49, .f32⟩ : BufTy).Contents (Elt F)),
    binary main_v9 main_v2 main_v10 (subf : (⟨S16384x49, .f32⟩ : BufTy).Contents (Elt F) → (⟨S16384x49, .f32⟩ : BufTy).Contents (Elt F) → (⟨S16384x49, .f32⟩ : BufTy).Contents (Elt F)),
    unary main_v10 main_v11 (Host.log : (⟨S16384x49, .f32⟩ : BufTy).Contents (Elt F) → (⟨S16384x49, .f32⟩ : BufTy).Contents (Elt F)),
    nullary main_cst_2 (constant S_ .f32 0xC2C80000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S16384x49, .f32⟩) main_call1_v1) (broadcastInDim S16384x49 ![] bcast_S_S16384x49),
    TRef.binary (TRef.of (T := ⟨S16384x49, .f32⟩) main_call1_v1) (TRef.of (T := ⟨S16384x49, .f32⟩) main_v11) (TRef.of (T := ⟨S16384x49, .f32⟩) main_v12) maximumf,
    binary main_v8 main_v12 main_v13 (mulf : (⟨S16384x49, .f32⟩ : BufTy).Contents (Elt F) → (⟨S16384x49, .f32⟩ : BufTy).Contents (Elt F) → (⟨S16384x49, .f32⟩ : BufTy).Contents (Elt F)),
    binary main_v6 main_v13 main_v14 (addf : (⟨S16384x49, .f32⟩ : BufTy).Contents (Elt F) → (⟨S16384x49, .f32⟩ : BufTy).Contents (Elt F) → (⟨S16384x49, .f32⟩ : BufTy).Contents (Elt F)),
    nullary main_cst_3 (constant S_ .f32 0x00000000#32),
    binary main_v14 main_cst_3 main_v15 ((fun x v => Host.reduceAdd x v reducesTo_S16384x49_S_d0_1 h_S_) : (⟨S16384x49, .f32⟩ : BufTy).Contents (Elt F) → (⟨S_, .f32⟩ : BufTy).Contents (Elt F) → (⟨S_, .f32⟩ : BufTy).Contents (Elt F)),
    nullary main_cst_4 (constant S_ .f32 0x49440000#32),
    binary main_v15 main_cst_4 main_v16 (Host.divf : (⟨S_, .f32⟩ : BufTy).Contents (Elt F) → (⟨S_, .f32⟩ : BufTy).Contents (Elt F) → (⟨S_, .f32⟩ : BufTy).Contents (Elt F)),
    unary main_v16 main_v17 (Host.negf : (⟨S_, .f32⟩ : BufTy).Contents (Elt F) → (⟨S_, .f32⟩ : BufTy).Contents (Elt F)) ]

/-- Operations 28 to 38 of the line. -/
abbrev ops_3 : List (HloOp τ sig (Elt F)) :=
  [ reshape main_arg0 main_v18 rfl shapeCasts_S16384x25x7x7_S16384x25x49,
    unary main_arg3 main_v19 ((extractStridedSlice S16384x16x1 ![0, 0, 1] · slices_S16384x16x2_S16384x16x1_0_0_1) : (⟨S16384x16x2, .i32⟩ : BufTy).Contents (Elt F) → (⟨S16384x16x1, .i32⟩ : BufTy).Contents (Elt F)),
    reshape main_v19 main_v20 rfl shapeCasts_S16384x16x1_S16384x16,
    nullary main_c (constantI S_ 32 7#32),
    unary main_c main_v21 (broadcastInDim S16384x16 ![] bcast_S_S16384x16 : (⟨S_, .i32⟩ : BufTy).Contents (Elt F) → (⟨S16384x16, .i32⟩ : BufTy).Contents (Elt F)),
    binary main_v20 main_v21 main_v22 (muli : (⟨S16384x16, .i32⟩ : BufTy).Contents (Elt F) → (⟨S16384x16, .i32⟩ : BufTy).Contents (Elt F) → (⟨S16384x16, .i32⟩ : BufTy).Contents (Elt F)),
    unary main_arg3 main_v23 ((extractStridedSlice S16384x16x1 ![0, 0, 0] · slices_S16384x16x2_S16384x16x1_0_0_0) : (⟨S16384x16x2, .i32⟩ : BufTy).Contents (Elt F) → (⟨S16384x16x1, .i32⟩ : BufTy).Contents (Elt F)),
    reshape main_v23 main_v24 rfl shapeCasts_S16384x16x1_S16384x16,
    binary main_v22 main_v24 main_v25 (addi : (⟨S16384x16, .i32⟩ : BufTy).Contents (Elt F) → (⟨S16384x16, .i32⟩ : BufTy).Contents (Elt F) → (⟨S16384x16, .i32⟩ : BufTy).Contents (Elt F)),
    unary main_v25 main_v26 (broadcastInDim S16384x1x16 ![0, 2] bcast_S16384x16_S16384x1x16_0_2 : (⟨S16384x16, .i32⟩ : BufTy).Contents (Elt F) → (⟨S16384x1x16, .i32⟩ : BufTy).Contents (Elt F)),
    unary main_v26 main_v27 (broadcastInDim S16384x25x16 ![0, 1, 2] bcast_S16384x1x16_S16384x25x16_0_1_2 : (⟨S16384x1x16, .i32⟩ : BufTy).Contents (Elt F) → (⟨S16384x25x16, .i32⟩ : BufTy).Contents (Elt F)) ]

/-- Operations 39 to 46 of the line. -/
abbrev ops_4 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S16384x25x16, .i32⟩) main_call2_v0) (broadcastInDim S16384x25x16 ![] bcast_S_S16384x25x16),
    TRef.binary (TRef.of (T := ⟨S16384x25x16, .i32⟩) main_v27) (TRef.of (T := ⟨S16384x25x16, .i32⟩) main_call2_v0) (TRef.of (T := ⟨S16384x25x16, .i1⟩) main_call2_v1) (cmpi .slt),
    TRef.nullary (TRef.of (T := ⟨S_, .i32⟩) main_call2_c_0) (constantI S_ 32 49#32),
    TRef.unary (TRef.of (T := ⟨S_, .i32⟩) main_call2_c_0) (TRef.of (T := ⟨S16384x25x16, .i32⟩) main_call2_v2) (broadcastInDim S16384x25x16 ![] bcast_S_S16384x25x16),
    TRef.binary (TRef.of (T := ⟨S16384x25x16, .i32⟩) main_v27) (TRef.of (T := ⟨S16384x25x16, .i32⟩) main_call2_v2) (TRef.of (T := ⟨S16384x25x16, .i32⟩) main_call2_v3) addi,
    TRef.ternary (TRef.of (T := ⟨S16384x25x16, .i1⟩) main_call2_v1) (TRef.of (T := ⟨S16384x25x16, .i32⟩) main_call2_v3) (TRef.of (T := ⟨S16384x25x16, .i32⟩) main_v27) (TRef.of (T := ⟨S16384x25x16, .i32⟩) main_call2_v4) select,
    TRef.reshape (TRef.of (T := ⟨S16384x25x16, .i32⟩) main_call2_v4) (TRef.of (T := ⟨S16384x25x16x1, .i32⟩) main_call2_v5) rfl shapeCasts_S16384x25x16_S16384x25x16x1 ]

/-- Operations 47 to 55 of the line. -/
abbrev ops_5 : List (HloOp τ sig (Elt F)) :=
  [ TRef.nullary (TRef.of (T := ⟨S1, .i32⟩) main_call2_c_1) (constantI S1 32 48#32),
    TRef.nullary (TRef.of (T := ⟨S_, .i32⟩) main_call2_c_2) (constantI S_ 32 0#32),
    TRef.unary (TRef.of (T := ⟨S_, .i32⟩) main_call2_c_2) (TRef.of (T := ⟨S16384x25x16x1, .i32⟩) main_call2_v6) (broadcastInDim S16384x25x16x1 ![] bcast_S_S16384x25x16x1),
    TRef.binary (TRef.of (T := ⟨S16384x25x16x1, .i32⟩) main_call2_v5) (TRef.of (T := ⟨S16384x25x16x1, .i32⟩) main_call2_v6) (TRef.of (T := ⟨S16384x25x16x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S16384x25x16x1, .i32⟩) main_call2_v9) (broadcastInDim S16384x25x16x1 ![0, 1, 2, 3] bcast_S1x1x1x1_S16384x25x16x1_0_1_2_3),
    TRef.binary (TRef.of (T := ⟨S16384x25x16x1, .i32⟩) main_call2_v5) (TRef.of (T := ⟨S16384x25x16x1, .i32⟩) main_call2_v9) (TRef.of (T := ⟨S16384x25x16x1, .i1⟩) main_call2_v10) (cmpi .sle),
    TRef.binary (TRef.of (T := ⟨S16384x25x16x1, .i1⟩) main_call2_v7) (TRef.of (T := ⟨S16384x25x16x1, .i1⟩) main_call2_v10) (TRef.of (T := ⟨S16384x25x16x1, .i1⟩) main_call2_v11) andi,
    TRef.nullary (TRef.of (T := ⟨S_, .i1⟩) main_call2_c_3) (constantI S_ 1 1#1) ]

/-- Operations 56 to 56 of the line. -/
abbrev ops_6 : List (HloOp τ sig (Elt F)) :=
  [ TRef.binary (TRef.of (T := ⟨S16384x25x16x1, .i1⟩) main_call2_v11) (TRef.of (T := ⟨S_, .i1⟩) main_call2_c_3) (TRef.of (T := ⟨S16384x25x16, .i1⟩) main_call2_v12) (fun x v => Host.reduce IntOp.andi x v reducesTo_S16384x25x16x1_S16384x25x16_d3 h_S_) ]

/-- Operations 57 to 57 of the line. -/
abbrev ops_7 : List (HloOp τ sig (Elt F)) :=
  [ TRef.binary (TRef.of (T := ⟨S16384x25x49, .f32⟩) main_v18) (TRef.of (T := ⟨S16384x25x16x1, .i32⟩) main_call2_v5) (TRef.of (T := ⟨S16384x25x16, .f32⟩) main_call2_v13) (fun x i => Host.gather gather_S16384x25x49_S16384x25x16x1_S16384x25x16_n_2_01_01_2_3_111 x i) ]

/-- Operations 58 to 60 of the line. -/
abbrev ops_8 : List (HloOp τ sig (Elt F)) :=
  [ TRef.nullary (TRef.of (T := ⟨S_, .f32⟩) main_call2_cst) (constant S_ .f32 0x7FC00000#32),
    TRef.unary (TRef.of (T := ⟨S_, .f32⟩) main_call2_cst) (TRef.of (T := ⟨S16384x25x16, .f32⟩) main_call2_v14) (broadcastInDim S16384x25x16 ![] bcast_S_S16384x25x16),
    TRef.ternary (TRef.of (T := ⟨S16384x25x16, .i1⟩) main_call2_v12) (TRef.of (T := ⟨S16384x25x16, .f32⟩) main_call2_v13) (TRef.of (T := ⟨S16384x25x16, .f32⟩) main_call2_v14) (TRef.of (T := ⟨S16384x25x16, .f32⟩) main_v28) select ]

/-- Operations 61 to 83 of the line. -/
abbrev ops_9 : List (HloOp τ sig (Elt F)) :=
  [ unary main_v28 main_v29 ((extractStridedSlice S16384x4x16 ![0, 1, 0] · slices_S16384x25x16_S16384x4x16_0_1_0) : (⟨S16384x25x16, .f32⟩ : BufTy).Contents (Elt F) → (⟨S16384x4x16, .f32⟩ : BufTy).Contents (Elt F)),
    unary main_v29 main_v30 ((transpose S16384x16x4 [0, 2, 1] · transposes_S16384x4x16_S16384x16x4_0_2_1) : (⟨S16384x4x16, .f32⟩ : BufTy).Contents (Elt F) → (⟨S16384x16x4, .f32⟩ : BufTy).Contents (Elt F)),
    nullary main_cst_5 (constant S_ .f32 0x43600000#32),
    unary main_cst_5 main_v31 (broadcastInDim S16384x16x4 ![] bcast_S_S16384x16x4 : (⟨S_, .f32⟩ : BufTy).Contents (Elt F) → (⟨S16384x16x4, .f32⟩ : BufTy).Contents (Elt F)),
    binary main_arg1 main_v31 main_v32 (Host.divf : (⟨S16384x16x4, .f32⟩ : BufTy).Contents (Elt F) → (⟨S16384x16x4, .f32⟩ : BufTy).Contents (Elt F) → (⟨S16384x16x4, .f32⟩ : BufTy).Contents (Elt F)),
    nullary main_cst_6 (constant S_ .f32 0x41200000#32),
    unary main_cst_6 main_v33 (broadcastInDim S16384x16x4 ![] bcast_S_S16384x16x4 : (⟨S_, .f32⟩ : BufTy).Contents (Elt F) → (⟨S16384x16x4, .f32⟩ : BufTy).Contents (Elt F)),
    binary main_v32 main_v33 main_v34 (mulf : (⟨S16384x16x4, .f32⟩ : BufTy).Contents (Elt F) → (⟨S16384x16x4, .f32⟩ : BufTy).Contents (Elt F) → (⟨S16384x16x4, .f32⟩ : BufTy).Contents (Elt F)),
    TRef.unary (TRef.of (T := ⟨S16384x16x4, .f32⟩) main_v34) (TRef.of (T := ⟨S16384x16x4, .f32⟩) main_v35) Host.roundeven,
    nullary main_cst_7 (constant S_ .f32 0x41200000#32),
    unary main_cst_7 main_v36 (broadcastInDim S16384x16x4 ![] bcast_S_S16384x16x4 : (⟨S_, .f32⟩ : BufTy).Contents (Elt F) → (⟨S16384x16x4, .f32⟩ : BufTy).Contents (Elt F)),
    binary main_v35 main_v36 main_v37 (Host.divf : (⟨S16384x16x4, .f32⟩ : BufTy).Contents (Elt F) → (⟨S16384x16x4, .f32⟩ : BufTy).Contents (Elt F) → (⟨S16384x16x4, .f32⟩ : BufTy).Contents (Elt F)),
    binary main_v30 main_v37 main_v38 (subf : (⟨S16384x16x4, .f32⟩ : BufTy).Contents (Elt F) → (⟨S16384x16x4, .f32⟩ : BufTy).Contents (Elt F) → (⟨S16384x16x4, .f32⟩ : BufTy).Contents (Elt F)),
    binary main_v38 main_v38 main_v39 (mulf : (⟨S16384x16x4, .f32⟩ : BufTy).Contents (Elt F) → (⟨S16384x16x4, .f32⟩ : BufTy).Contents (Elt F) → (⟨S16384x16x4, .f32⟩ : BufTy).Contents (Elt F)),
    nullary main_cst_8 (constant S_ .f32 0x00000000#32),
    binary main_v39 main_cst_8 main_v40 ((fun x v => Host.reduceAdd x v reducesTo_S16384x16x4_S16384x16_d2 h_S_) : (⟨S16384x16x4, .f32⟩ : BufTy).Contents (Elt F) → (⟨S_, .f32⟩ : BufTy).Contents (Elt F) → (⟨S16384x16, .f32⟩ : BufTy).Contents (Elt F)),
    nullary main_cst_9 (constant S_ .f32 0x40800000#32),
    unary main_cst_9 main_v41 (broadcastInDim S16384x16 ![] bcast_S_S16384x16 : (⟨S_, .f32⟩ : BufTy).Contents (Elt F) → (⟨S16384x16, .f32⟩ : BufTy).Contents (Elt F)),
    binary main_v40 main_v41 main_v42 (Host.divf : (⟨S16384x16, .f32⟩ : BufTy).Contents (Elt F) → (⟨S16384x16, .f32⟩ : BufTy).Contents (Elt F) → (⟨S16384x16, .f32⟩ : BufTy).Contents (Elt F)),
    nullary main_cst_10 (constant S_ .f32 0x00000000#32),
    binary main_v42 main_cst_10 main_v43 ((fun x v => Host.reduceAdd x v reducesTo_S16384x16_S_d0_1 h_S_) : (⟨S16384x16, .f32⟩ : BufTy).Contents (Elt F) → (⟨S_, .f32⟩ : BufTy).Contents (Elt F) → (⟨S_, .f32⟩ : BufTy).Contents (Elt F)),
    nullary main_cst_11 (constant S_ .f32 0x46800000#32),
    binary main_v43 main_cst_11 main_v44 (Host.divf : (⟨S_, .f32⟩ : BufTy).Contents (Elt F) → (⟨S_, .f32⟩ : BufTy).Contents (Elt F) → (⟨S_, .f32⟩ : BufTy).Contents (Elt F)) ]

/-- Operations 84 to 85 of the line. -/
abbrev ops_10 : List (HloOp τ sig (Elt F)) :=
  [ unary main_v28 main_v45 ((extractStridedSlice S16384x20x16 ![0, 5, 0] · slices_S16384x25x16_S16384x20x16_0_5_0) : (⟨S16384x25x16, .f32⟩ : BufTy).Contents (Elt F) → (⟨S16384x20x16, .f32⟩ : BufTy).Contents (Elt F)),
    unary main_v45 main_v46 ((transpose S16384x16x20 [0, 2, 1] · transposes_S16384x20x16_S16384x16x20_0_2_1) : (⟨S16384x20x16, .f32⟩ : BufTy).Contents (Elt F) → (⟨S16384x16x20, .f32⟩ : BufTy).Contents (Elt F)) ]

/-- Operations 86 to 86 of the line. -/
abbrev ops_11 : List (HloOp τ sig (Elt F)) :=
  [ TRef.nullary (TRef.of (T := ⟨S_, .f32⟩) main_call4_cst) (constant S_ .f32 0xFF800000#32) ]

/-- Operations 87 to 87 of the line. -/
abbrev ops_12 : List (HloOp τ sig (Elt F)) :=
  [ TRef.binary (TRef.of (T := ⟨S16384x16x20, .f32⟩) main_v46) (TRef.of (T := ⟨S_, .f32⟩) main_call4_cst) (TRef.of (T := ⟨S16384x16, .f32⟩) main_call4_v0) (fun x v => Host.reduce FloatOps.maximumf x v reducesTo_S16384x16x20_S16384x16_d2 h_S_) ]

/-- Operations 88 to 93 of the line. -/
abbrev ops_13 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S16384x16, .f32⟩) main_call4_v1) (broadcastInDim S16384x16 ![] bcast_S_S16384x16),
    TRef.binary (TRef.of (T := ⟨S16384x16, .f32⟩) main_call4_v1) (TRef.of (T := ⟨S16384x16, .f32⟩) main_call4_v0) (TRef.of (T := ⟨S16384x16, .f32⟩) main_call4_v2) maximumf,
    TRef.unary (TRef.of (T := ⟨S16384x16, .f32⟩) main_call4_v2) (TRef.of (T := ⟨S16384x16x1, .f32⟩) main_call4_v3) (broadcastInDim S16384x16x1 ![0, 1] bcast_S16384x16_S16384x16x1_0_1),
    TRef.unary (TRef.of (T := ⟨S16384x16x1, .f32⟩) main_call4_v3) (TRef.of (T := ⟨S16384x16x20, .f32⟩) main_call4_v4) (broadcastInDim S16384x16x20 ![0, 1, 2] bcast_S16384x16x1_S16384x16x20_0_1_2),
    TRef.binary (TRef.of (T := ⟨S16384x16x20, .f32⟩) main_v46) (TRef.of (T := ⟨S16384x16x20, .f32⟩) main_call4_v4) (TRef.of (T := ⟨S16384x16x20, .f32⟩) main_call4_v5) subf ]

/-- Operations 94 to 104 of the line. -/
abbrev ops_14 : List (HloOp τ sig (Elt F)) :=
  [ TRef.unary (TRef.of (T := ⟨S16384x16x20, .f32⟩) main_call4_v5) (TRef.of (T := ⟨S16384x16x20, .f32⟩) main_call4_v6) Host.exp,
    TRef.nullary (TRef.of (T := ⟨S_, .f32⟩) main_call4_cst_1) (constant S_ .f32 0x00000000#32),
    TRef.binary (TRef.of (T := ⟨S16384x16x20, .f32⟩) main_call4_v6) (TRef.of (T := ⟨S_, .f32⟩) main_call4_cst_1) (TRef.of (T := ⟨S16384x16, .f32⟩) main_call4_v7) (fun x v => Host.reduceAdd x v reducesTo_S16384x16x20_S16384x16_d2 h_S_),
    TRef.unary (TRef.of (T := ⟨S16384x16, .f32⟩) main_call4_v7) (TRef.of (T := ⟨S16384x16x1, .f32⟩) main_call4_v8) (broadcastInDim S16384x16x1 ![0, 1] bcast_S16384x16_S16384x16x1_0_1),
    TRef.unary (TRef.of (T := ⟨S16384x16x1, .f32⟩) main_call4_v8) (TRef.of (T := ⟨S16384x16x1, .f32⟩) main_call4_v9) Host.log,
    TRef.unary (TRef.of (T := ⟨S16384x16x1, .f32⟩) main_call4_v9) (TRef.of (T := ⟨S16384x16x20, .f32⟩) main_call4_v10) (broadcastInDim S16384x16x20 ![0, 1, 2] bcast_S16384x16x1_S16384x16x20_0_1_2),
    TRef.binary (TRef.of (T := ⟨S16384x16x20, .f32⟩) main_call4_v5) (TRef.of (T := ⟨S16384x16x20, .f32⟩) main_call4_v10) (TRef.of (T := ⟨S16384x16x20, .f32⟩) main_v47) subf,
    nullary main_c_12 (constantI S_ 32 1#32),
    unary main_c_12 main_v48 (broadcastInDim S16384x16 ![] bcast_S_S16384x16 : (⟨S_, .i32⟩ : BufTy).Contents (Elt F) → (⟨S16384x16, .i32⟩ : BufTy).Contents (Elt F)),
    binary main_arg2 main_v48 main_v49 (subi : (⟨S16384x16, .i32⟩ : BufTy).Contents (Elt F) → (⟨S16384x16, .i32⟩ : BufTy).Contents (Elt F) → (⟨S16384x16, .i32⟩ : BufTy).Contents (Elt F)),
    unary main_v49 main_v50 (broadcastInDim S16384x16x1 ![0, 1] bcast_S16384x16_S16384x16x1_0_1 : (⟨S16384x16, .i32⟩ : BufTy).Contents (Elt F) → (⟨S16384x16x1, .i32⟩ : BufTy).Contents (Elt F)) ]

/-- Operations 105 to 112 of the line. -/
abbrev ops_15 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16384x16x1, .i32⟩) main_call5_v0) (broadcastInDim S16384x16x1 ![] bcast_S_S16384x16x1),
    TRef.binary (TRef.of (T := ⟨S16384x16x1, .i32⟩) main_v50) (TRef.of (T := ⟨S16384x16x1, .i32⟩) main_call5_v0) (TRef.of (T := ⟨S16384x16x1, .i1⟩) main_call5_v1) (cmpi .slt),
    TRef.nullary (TRef.of (T := ⟨S_, .i32⟩) main_call5_c_0) (constantI S_ 32 20#32),
    TRef.unary (TRef.of (T := ⟨S_, .i32⟩) main_call5_c_0) (TRef.of (T := ⟨S16384x16x1, .i32⟩) main_call5_v2) (broadcastInDim S16384x16x1 ![] bcast_S_S16384x16x1),
    TRef.binary (TRef.of (T := ⟨S16384x16x1, .i32⟩) main_v50) (TRef.of (T := ⟨S16384x16x1, .i32⟩) main_call5_v2) (TRef.of (T := ⟨S16384x16x1, .i32⟩) main_call5_v3) addi,
    TRef.ternary (TRef.of (T := ⟨S16384x16x1, .i1⟩) main_call5_v1) (TRef.of (T := ⟨S16384x16x1, .i32⟩) main_call5_v3) (TRef.of (T := ⟨S16384x16x1, .i32⟩) main_v50) (TRef.of (T := ⟨S16384x16x1, .i32⟩) main_call5_v4) select,
    TRef.reshape (TRef.of (T := ⟨S16384x16x1, .i32⟩) main_call5_v4) (TRef.of (T := ⟨S16384x16x1x1, .i32⟩) main_call5_v5) rfl shapeCasts_S16384x16x1_S16384x16x1x1 ]

/-- Operations 113 to 121 of the line. -/
abbrev ops_16 : List (HloOp τ sig (Elt F)) :=
  [ TRef.nullary (TRef.of (T := ⟨S1, .i32⟩) main_call5_c_1) (constantI S1 32 19#32),
    TRef.nullary (TRef.of (T := ⟨S_, .i32⟩) main_call5_c_2) (constantI S_ 32 0#32),
    TRef.unary (TRef.of (T := ⟨S_, .i32⟩) main_call5_c_2) (TRef.of (T := ⟨S16384x16x1x1, .i32⟩) main_call5_v6) (broadcastInDim S16384x16x1x1 ![] bcast_S_S16384x16x1x1),
    TRef.binary (TRef.of (T := ⟨S16384x16x1x1, .i32⟩) main_call5_v5) (TRef.of (T := ⟨S16384x16x1x1, .i32⟩) main_call5_v6) (TRef.of (T := ⟨S16384x16x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S16384x16x1x1, .i32⟩) main_call5_v9) (broadcastInDim S16384x16x1x1 ![0, 1, 2, 3] bcast_S1x1x1x1_S16384x16x1x1_0_1_2_3),
    TRef.binary (TRef.of (T := ⟨S16384x16x1x1, .i32⟩) main_call5_v5) (TRef.of (T := ⟨S16384x16x1x1, .i32⟩) main_call5_v9) (TRef.of (T := ⟨S16384x16x1x1, .i1⟩) main_call5_v10) (cmpi .sle),
    TRef.binary (TRef.of (T := ⟨S16384x16x1x1, .i1⟩) main_call5_v7) (TRef.of (T := ⟨S16384x16x1x1, .i1⟩) main_call5_v10) (TRef.of (T := ⟨S16384x16x1x1, .i1⟩) main_call5_v11) andi,
    TRef.nullary (TRef.of (T := ⟨S_, .i1⟩) main_call5_c_3) (constantI S_ 1 1#1) ]

/-- Operations 122 to 122 of the line. -/
abbrev ops_17 : List (HloOp τ sig (Elt F)) :=
  [ TRef.binary (TRef.of (T := ⟨S16384x16x1x1, .i1⟩) main_call5_v11) (TRef.of (T := ⟨S_, .i1⟩) main_call5_c_3) (TRef.of (T := ⟨S16384x16x1, .i1⟩) main_call5_v12) (fun x v => Host.reduce IntOp.andi x v reducesTo_S16384x16x1x1_S16384x16x1_d3 h_S_) ]

/-- Operations 123 to 123 of the line. -/
abbrev ops_18 : List (HloOp τ sig (Elt F)) :=
  [ TRef.binary (TRef.of (T := ⟨S16384x16x20, .f32⟩) main_v47) (TRef.of (T := ⟨S16384x16x1x1, .i32⟩) main_call5_v5) (TRef.of (T := ⟨S16384x16x1, .f32⟩) main_call5_v13) (fun x i => Host.gather gather_S16384x16x20_S16384x16x1x1_S16384x16x1_n_2_01_01_2_3_111 x i) ]

/-- Operations 124 to 132 of the line. -/
abbrev ops_19 : List (HloOp τ sig (Elt F)) :=
  [ TRef.nullary (TRef.of (T := ⟨S_, .f32⟩) main_call5_cst) (constant S_ .f32 0x7FC00000#32),
    TRef.unary (TRef.of (T := ⟨S_, .f32⟩) main_call5_cst) (TRef.of (T := ⟨S16384x16x1, .f32⟩) main_call5_v14) (broadcastInDim S16384x16x1 ![] bcast_S_S16384x16x1),
    TRef.ternary (TRef.of (T := ⟨S16384x16x1, .i1⟩) main_call5_v12) (TRef.of (T := ⟨S16384x16x1, .f32⟩) main_call5_v13) (TRef.of (T := ⟨S16384x16x1, .f32⟩) main_call5_v14) (TRef.of (T := ⟨S16384x16x1, .f32⟩) main_v51) select,
    reshape main_v51 main_v52 rfl shapeCasts_S16384x16x1_S16384x16,
    unary main_v52 main_v53 (Host.negf : (⟨S16384x16, .f32⟩ : BufTy).Contents (Elt F) → (⟨S16384x16, .f32⟩ : BufTy).Contents (Elt F)),
    nullary main_cst_13 (constant S_ .f32 0x00000000#32),
    binary main_v53 main_cst_13 main_v54 ((fun x v => Host.reduceAdd x v reducesTo_S16384x16_S_d0_1 h_S_) : (⟨S16384x16, .f32⟩ : BufTy).Contents (Elt F) → (⟨S_, .f32⟩ : BufTy).Contents (Elt F) → (⟨S_, .f32⟩ : BufTy).Contents (Elt F)),
    nullary main_cst_14 (constant S_ .f32 0x46800000#32),
    binary main_v54 main_cst_14 main_v55 (Host.divf : (⟨S_, .f32⟩ : BufTy).Contents (Elt F) → (⟨S_, .f32⟩ : BufTy).Contents (Elt F) → (⟨S_, .f32⟩ : BufTy).Contents (Elt F)) ]

/-- Operations 133 to 134 of the line. -/
abbrev ops_20 : List (HloOp τ sig (Elt F)) :=
  [ binary main_v17 main_v44 main_v56 (addf : (⟨S_, .f32⟩ : BufTy).Contents (Elt F) → (⟨S_, .f32⟩ : BufTy).Contents (Elt F) → (⟨S_, .f32⟩ : BufTy).Contents (Elt F)),
    binary main_v56 main_v55 main_v57 (addf : (⟨S_, .f32⟩ : BufTy).Contents (Elt F) → (⟨S_, .f32⟩ : BufTy).Contents (Elt F) → (⟨S_, .f32⟩ : BufTy).Contents (Elt F)) ]

set_option maxRecDepth 8192 in
/-- The line is its stretches in order. -/
theorem ops_split : (ops : List (HloOp τ sig (Elt F))) = ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17 ++ (ops_18 ++ (ops_19 ++ (ops_20)))))))))))))))))))) := rfl

/-! ## Each stretch: what it hands on, and what passes through it -/

attribute [local irreducible] Host.reduce Host.gather in
theorem res_0_main_v2 (W : Valuation τ sig (Elt F)) (x0 : (⟨S16384x25x7x7, .f32⟩ : BufTy).Contents (Elt F)) (h_main_arg0 : W (Proc.devRef .tc main_arg0) = x0) :
    after ops_0 W (Proc.devRef .tc main_v2) = val_main_v2 (F := F) x0 := by
  after_results_simp
  try simp only [h_main_arg0]
  rfl

theorem pass_0_main_arg0 (W : Valuation τ sig (Elt F)) : after ops_0 W (Proc.devRef .tc main_arg0) = W (Proc.devRef .tc main_arg0) := by
  after_results_simp

theorem pass_0_main_arg1 (W : Valuation τ sig (Elt F)) : after ops_0 W (Proc.devRef .tc main_arg1) = W (Proc.devRef .tc main_arg1) := by
  after_results_simp

theorem pass_0_main_arg2 (W : Valuation τ sig (Elt F)) : after ops_0 W (Proc.devRef .tc main_arg2) = W (Proc.devRef .tc main_arg2) := by
  after_results_simp

theorem pass_0_main_arg3 (W : Valuation τ sig (Elt F)) : after ops_0 W (Proc.devRef .tc main_arg3) = W (Proc.devRef .tc main_arg3) := by
  after_results_simp

theorem pass_0_main_arg4 (W : Valuation τ sig (Elt F)) : after ops_0 W (Proc.devRef .tc main_arg4) = W (Proc.devRef .tc main_arg4) := by
  after_results_simp

attribute [local irreducible] Host.reduce Host.gather in
theorem res_1_main_v3 (W : Valuation τ sig (Elt F)) (x4 : (⟨S16384x7x7, .f32⟩ : BufTy).Contents (Elt F)) (h_main_arg4 : W (Proc.devRef .tc main_arg4) = x4) :
    after ops_1 W (Proc.devRef .tc main_v3) = val_main_v3 (F := F) x4 := by
  after_results_simp
  try simp only [h_main_arg4]
  rfl

theorem pass_1_main_arg0 (W : Valuation τ sig (Elt F)) : after ops_1 W (Proc.devRef .tc main_arg0) = W (Proc.devRef .tc main_arg0) := by
  after_results_simp

theorem pass_1_main_arg1 (W : Valuation τ sig (Elt F)) : after ops_1 W (Proc.devRef .tc main_arg1) = W (Proc.devRef .tc main_arg1) := by
  after_results_simp

theorem pass_1_main_arg2 (W : Valuation τ sig (Elt F)) : after ops_1 W (Proc.devRef .tc main_arg2) = W (Proc.devRef .tc main_arg2) := by
  after_results_simp

theorem pass_1_main_arg3 (W : Valuation τ sig (Elt F)) : after ops_1 W (Proc.devRef .tc main_arg3) = W (Proc.devRef .tc main_arg3) := by
  after_results_simp

theorem pass_1_main_v2 (W : Valuation τ sig (Elt F)) : after ops_1 W (Proc.devRef .tc main_v2) = W (Proc.devRef .tc main_v2) := by
  after_results_simp

attribute [local irreducible] Host.reduce Host.gather val_main_v2 val_main_v3 in
theorem res_2_main_v17 (W : Valuation τ sig (Elt F)) (x0 : (⟨S16384x25x7x7, .f32⟩ : BufTy).Contents (Elt F)) (x4 : (⟨S16384x7x7, .f32⟩ : BufTy).Contents (Elt F)) (h_main_v2 : W (Proc.devRef .tc main_v2) = val_main_v2 (F := F) x0) (h_main_v3 : W (Proc.devRef .tc main_v3) = val_main_v3 (F := F) x4) :
    after ops_2 W (Proc.devRef .tc main_v17) = val_main_v17 (F := F) x0 x4 := by
  after_results_simp
  have to_main_cst : ∀ v : (⟨S_, .f32⟩ : BufTy).Contents (Elt F), (TRef.of (T := ⟨S_, .f32⟩) main_cst).toBuf (Val := Elt F) v = v := fun _ => rfl
  have of_main_cst : ∀ u : (⟨S_, .f32⟩ : BufTy).Contents (Elt F), (TRef.of (T := ⟨S_, .f32⟩) main_cst).ofBuf (Val := Elt F) u = u := fun _ => rfl
  have to_main_call0_v0 : ∀ v : (⟨S_, .f32⟩ : BufTy).Contents (Elt F), (TRef.of (T := ⟨S_, .f32⟩) main_call0_v0).toBuf (Val := Elt F) v = v := fun _ => rfl
  have of_main_call0_v0 : ∀ u : (⟨S_, .f32⟩ : BufTy).Contents (Elt F), (TRef.of (T := ⟨S_, .f32⟩) main_call0_v0).ofBuf (Val := Elt F) u = u := fun _ => rfl
  have to_main_call0_v1 : ∀ v : (⟨S16384x49, .f32⟩ : BufTy).Contents (Elt F), (TRef.of (T := ⟨S16384x49, .f32⟩) main_call0_v1).toBuf (Val := Elt F) v = v := fun _ => rfl
  have of_main_call0_v1 : ∀ u : (⟨S16384x49, .f32⟩ : BufTy).Contents (Elt F), (TRef.of (T := ⟨S16384x49, .f32⟩) main_call0_v1).ofBuf (Val := Elt F) u = u := fun _ => rfl
  have to_main_v4 : ∀ v : (⟨S16384x49, .f32⟩ : BufTy).Contents (Elt F), (TRef.of (T := ⟨S16384x49, .f32⟩) main_v4).toBuf (Val := Elt F) v = v := fun _ => rfl
  have of_main_v4 : ∀ u : (⟨S16384x49, .f32⟩ : BufTy).Contents (Elt F), (TRef.of (T := ⟨S16384x49, .f32⟩) main_v4).ofBuf (Val := Elt F) u = u := fun _ => rfl
  have to_main_v5 : ∀ v : (⟨S16384x49, .f32⟩ : BufTy).Contents (Elt F), (TRef.of (T := ⟨S16384x49, .f32⟩) main_v5).toBuf (Val := Elt F) v = v := fun _ => rfl
  have of_main_v5 : ∀ u : (⟨S16384x49, .f32⟩ : BufTy).Contents (Elt F), (TRef.of (T := ⟨S16384x49, .f32⟩) main_v5).ofBuf (Val := Elt F) u = u := fun _ => rfl
  have to_main_cst_2 : ∀ v : (⟨S_, .f32⟩ : BufTy).Contents (Elt F), (TRef.of (T := ⟨S_, .f32⟩) main_cst_2).toBuf (Val := Elt F) v = v := fun _ => rfl
  have of_main_cst_2 : ∀ u : (⟨S_, .f32⟩ : BufTy).Contents (Elt F), (TRef.of (T := ⟨S_, .f32⟩) main_cst_2).ofBuf (Val := Elt F) u = u := fun _ => rfl
  have to_main_call1_v0 : ∀ v : (⟨S_, .f32⟩ : BufTy).Contents (Elt F), (TRef.of (T := ⟨S_, .f32⟩) main_call1_v0).toBuf (Val := Elt F) v = v := fun _ => rfl
  have of_main_call1_v0 : ∀ u : (⟨S_, .f32⟩ : BufTy).Contents (Elt F), (TRef.of (T := ⟨S_, .f32⟩) main_call1_v0).ofBuf (Val := Elt F) u = u := fun _ => rfl
  have to_main_call1_v1 : ∀ v : (⟨S16384x49, .f32⟩ : BufTy).Contents (Elt F), (TRef.of (T := ⟨S16384x49, .f32⟩) main_call1_v1).toBuf (Val := Elt F) v = v := fun _ => rfl
  have of_main_call1_v1 : ∀ u : (⟨S16384x49, .f32⟩ : BufTy).Contents (Elt F), (TRef.of (T := ⟨S16384x49, .f32⟩) main_call1_v1).ofBuf (Val := Elt F) u = u := fun _ => rfl
  have to_main_v11 : ∀ v : (⟨S16384x49, .f32⟩ : BufTy).Contents (Elt F), (TRef.of (T := ⟨S16384x49, .f32⟩) main_v11).toBuf (Val := Elt F) v = v := fun _ => rfl
  have of_main_v11 : ∀ u : (⟨S16384x49, .f32⟩ : BufTy).Contents (Elt F), (TRef.of (T := ⟨S16384x49, .f32⟩) main_v11).ofBuf (Val := Elt F) u = u := fun _ => rfl
  have to_main_v12 : ∀ v : (⟨S16384x49, .f32⟩ : BufTy).Contents (Elt F), (TRef.of (T := ⟨S16384x49, .f32⟩) main_v12).toBuf (Val := Elt F) v = v := fun _ => rfl
  have of_main_v12 : ∀ u : (⟨S16384x49, .f32⟩ : BufTy).Contents (Elt F), (TRef.of (T := ⟨S16384x49, .f32⟩) main_v12).ofBuf (Val := Elt F) u = u := fun _ => rfl
  try simp only [to_main_cst, of_main_cst, to_main_call0_v0, of_main_call0_v0, to_main_call0_v1, of_main_call0_v1, to_main_v4, of_main_v4, to_main_v5, of_main_v5, to_main_cst_2, of_main_cst_2, to_main_call1_v0, of_main_call1_v0, to_main_call1_v1, of_main_call1_v1, to_main_v11, of_main_v11, to_main_v12, of_main_v12]
  try simp only [h_main_v2, h_main_v3]
  rfl

theorem pass_2_main_arg0 (W : Valuation τ sig (Elt F)) : after ops_2 W (Proc.devRef .tc main_arg0) = W (Proc.devRef .tc main_arg0) := by
  after_results_simp

theorem pass_2_main_arg1 (W : Valuation τ sig (Elt F)) : after ops_2 W (Proc.devRef .tc main_arg1) = W (Proc.devRef .tc main_arg1) := by
  after_results_simp

theorem pass_2_main_arg2 (W : Valuation τ sig (Elt F)) : after ops_2 W (Proc.devRef .tc main_arg2) = W (Proc.devRef .tc main_arg2) := by
  after_results_simp

theorem pass_2_main_arg3 (W : Valuation τ sig (Elt F)) : after ops_2 W (Proc.devRef .tc main_arg3) = W (Proc.devRef .tc main_arg3) := by
  after_results_simp

attribute [local irreducible] Host.reduce Host.gather in
theorem res_3_main_v18 (W : Valuation τ sig (Elt F)) (x0 : (⟨S16384x25x7x7, .f32⟩ : BufTy).Contents (Elt F)) (x3 : (⟨S16384x16x2, .i32⟩ : BufTy).Contents (Elt F)) (h_main_arg0 : W (Proc.devRef .tc main_arg0) = x0) (h_main_arg3 : W (Proc.devRef .tc main_arg3) = x3) :
    after ops_3 W (Proc.devRef .tc main_v18) = val_main_v18 (F := F) x0 := by
  after_results_simp
  try simp only [h_main_arg0, h_main_arg3]
  rfl

attribute [local irreducible] Host.reduce Host.gather in
theorem res_3_main_v27 (W : Valuation τ sig (Elt F)) (x0 : (⟨S16384x25x7x7, .f32⟩ : BufTy).Contents (Elt F)) (x3 : (⟨S16384x16x2, .i32⟩ : BufTy).Contents (Elt F)) (h_main_arg0 : W (Proc.devRef .tc main_arg0) = x0) (h_main_arg3 : W (Proc.devRef .tc main_arg3) = x3) :
    after ops_3 W (Proc.devRef .tc main_v27) = val_main_v27 (F := F) x3 := by
  after_results_simp
  try simp only [h_main_arg0, h_main_arg3]
  rfl

theorem pass_3_main_arg1 (W : Valuation τ sig (Elt F)) : after ops_3 W (Proc.devRef .tc main_arg1) = W (Proc.devRef .tc main_arg1) := by
  after_results_simp

theorem pass_3_main_arg2 (W : Valuation τ sig (Elt F)) : after ops_3 W (Proc.devRef .tc main_arg2) = W (Proc.devRef .tc main_arg2) := by
  after_results_simp

theorem pass_3_main_v17 (W : Valuation τ sig (Elt F)) : after ops_3 W (Proc.devRef .tc main_v17) = W (Proc.devRef .tc main_v17) := by
  after_results_simp

attribute [local irreducible] Host.reduce Host.gather val_main_v27 in
theorem res_4_main_call2_v5 (W : Valuation τ sig (Elt F)) (x3 : (⟨S16384x16x2, .i32⟩ : BufTy).Contents (Elt F)) (h_main_v27 : W (Proc.devRef .tc main_v27) = val_main_v27 (F := F) x3) :
    after ops_4 W (Proc.devRef .tc main_call2_v5) = val_main_call2_v5 (F := F) x3 := by
  after_results_simp
  have to_main_call2_c : ∀ v : (⟨S_, .i32⟩ : BufTy).Contents (Elt F), (TRef.of (T := ⟨S_, .i32⟩) main_call2_c).toBuf (Val := Elt F) v = v := fun _ => rfl
  have of_main_call2_c : ∀ u : (⟨S_, .i32⟩ : BufTy).Contents (Elt F), (TRef.of (T := ⟨S_, .i32⟩) main_call2_c).ofBuf (Val := Elt F) u = u := fun _ => rfl
  have to_main_call2_v0 : ∀ v : (⟨S16384x25x16, .i32⟩ : BufTy).Contents (Elt F), (TRef.of (T := ⟨S16384x25x16, .i32⟩) main_call2_v0).toBuf (Val := Elt F) v = v := fun _ => rfl
  have of_main_call2_v0 : ∀ u : (⟨S16384x25x16, .i32⟩ : BufTy).Contents (Elt F), (TRef.of (T := ⟨S16384x25x16, .i32⟩) main_call2_v0).ofBuf (Val := Elt F) u = u := fun _ => rfl
  have to_main_v27 : ∀ v : (⟨S16384x25x16, .i32⟩ : BufTy).Contents (Elt F), (TRef.of (T := ⟨S16384x25x16, .i32⟩) main_v27).toBuf (Val := Elt F) v = v := fun _ => rfl
  have of_main_v27 : ∀ u : (⟨S16384x25x16, .i32⟩ : BufTy).Contents (Elt F), (TRef.of (T := ⟨S16384x25x16, .i32⟩) main_v27).ofBuf (Val := Elt F) u = u := fun _ => rfl
  have to_main_call2_v1 : ∀ v : (⟨S16384x25x16, .i1⟩ : BufTy).Contents (Elt F), (TRef.of (T := ⟨S16384x25x16, .i1⟩) main_call2_v1).toBuf (Val := Elt F) v = v := fun _ => rfl
  have of_main_call2_v1 : ∀ u : (⟨S16384x25x16, .i1⟩ : BufTy).Contents (Elt F), (TRef.of (T := ⟨S16384x25x16, .i1⟩) main_call2_v1).ofBuf (Val := Elt F) u = u := fun _ => rfl
  have to_main_call2_c_0 : ∀ v : (⟨S_, .i32⟩ : BufTy).Contents (Elt F), (TRef.of (T := ⟨S_, .i32⟩) main_call2_c_0).toBuf (Val := Elt F) v = v := fun _ => rfl
  have of_main_call2_c_0 : ∀ u : (⟨S_, .i32⟩ : BufTy).Contents (Elt F), (TRef.of (T := ⟨S_, .i32⟩) main_call2_c_0).ofBuf (Val := Elt F) u = u := fun _ => rfl
  have to_main_call2_v2 : ∀ v : (⟨S16384x25x16, .i32⟩ : BufTy).Contents (Elt F), (TRef.of (T := ⟨S16384x25x16, .i32⟩) main_call2_v2).toBuf (Val := Elt F) v = v := fun _ => rfl
  have of_main_call2_v2 : ∀ u : (⟨S16384x25x16, .i32⟩ : BufTy).Contents (Elt F), (TRef.of (T := ⟨S16384x25x16, .i32⟩) main_call2_v2).ofBuf (Val := Elt F) u = u := fun _ => rfl
  have to_main_call2_v3 : ∀ v : (⟨S16384x25x16, .i32⟩ : BufTy).Contents (Elt F), (TRef.of (T := ⟨S16384x25x16, .i32⟩) main_call2_v3).toBuf (Val := Elt F) v = v := fun _ => rfl
  have of_main_call2_v3 : ∀ u : (⟨S16384x25x16, .i32⟩ : BufTy).Contents (Elt F), (TRef.of (T := ⟨S16384x25x16, .i32⟩) main_call2_v3).ofBuf (Val := Elt F) u = u := fun _ => rfl
  have to_main_call2_v4 : ∀ v : (⟨S16384x25x16, .i32⟩ : BufTy).Contents (Elt F), (TRef.of (T := ⟨S16384x25x16, .i32⟩) main_call2_v4).toBuf (Val := Elt F) v = v := fun _ => rfl
  have of_main_call2_v4 : ∀ u : (⟨S16384x25x16, .i32⟩ : BufTy).Contents (Elt F), (TRef.of (T := ⟨S16384x25x16, .i32⟩) main_call2_v4).ofBuf (Val := Elt F) u = u := fun _ => rfl
  have to_main_call2_v5 : ∀ v : (⟨S16384x25x16x1, .i32⟩ : BufTy).Contents (Elt F), (TRef.of (T := ⟨S16384x25x16x1, .i32⟩) main_call2_v5).toBuf (Val := Elt F) v = v := fun _ => rfl
  have of_main_call2_v5 : ∀ u : (⟨S16384x25x16x1, .i32⟩ : BufTy).Contents (Elt F), (TRef.of (T := ⟨S16384x25x16x1, .i32⟩) main_call2_v5).ofBuf (Val := Elt F) u = u := fun _ => rfl
  try simp only [to_main_call2_c, of_main_call2_c, to_main_call2_v0, of_main_call2_v0, to_main_v27, of_main_v27, to_main_call2_v1, of_main_call2_v1, to_main_call2_c_0, of_main_call2_c_0, to_main_call2_v2, of_main_call2_v2, to_main_call2_v3, of_main_call2_v3, to_main_call2_v4, of_main_call2_v4, to_main_call2_v5, of_main_call2_v5]
  try simp only [h_main_v27]
  rfl

theorem pass_4_main_arg1 (W : Valuation τ sig (Elt F)) : after ops_4 W (Proc.devRef .tc main_arg1) = W (Proc.devRef .tc main_arg1) := by
  after_results_simp

theorem pass_4_main_arg2 (W : Valuation τ sig (Elt F)) : after ops_4 W (Proc.devRef .tc main_arg2) = W (Proc.devRef .tc main_arg2) := by
  after_results_simp

theorem pass_4_main_v17 (W : Valuation τ sig (Elt F)) : after ops_4 W (Proc.devRef .tc main_v17) = W (Proc.devRef .tc main_v17) := by
  after_results_simp

theorem pass_4_main_v18 (W : Valuation τ sig (Elt F)) : after ops_4 W (Proc.devRef .tc main_v18) = W (Proc.devRef .tc main_v18) := by
  after_results_simp

attribute [local irreducible] Host.reduce Host.gather val_main_call2_v5 in
theorem res_5_main_call2_v11 (W : Valuation τ sig (Elt F)) (x3 : (⟨S16384x16x2, .i32⟩ : BufTy).Contents (Elt F)) (h_main_call2_v5 : W (Proc.devRef .tc main_call2_v5) = val_main_call2_v5 (F := F) x3) :
    after ops_5 W (Proc.devRef .tc main_call2_v11) = val_main_call2_v11 (F := F) x3 := by
  after_results_simp
  have to_main_call2_c_1 : ∀ v : (⟨S1, .i32⟩ : BufTy).Contents (Elt F), (TRef.of (T := ⟨S1, .i32⟩) main_call2_c_1).toBuf (Val := Elt F) v = v := fun _ => rfl
  have of_main_call2_c_1 : ∀ u : (⟨S1, .i32⟩ : BufTy).Contents (Elt F), (TRef.of (T := ⟨S1, .i32⟩) main_call2_c_1).ofBuf (Val := Elt F) u = u := fun _ => rfl
  have to_main_call2_c_2 : ∀ v : (⟨S_, .i32⟩ : BufTy).Contents (Elt F), (TRef.of (T := ⟨S_, .i32⟩) main_call2_c_2).toBuf (Val := Elt F) v = v := fun _ => rfl
  have of_main_call2_c_2 : ∀ u : (⟨S_, .i32⟩ : BufTy).Contents (Elt F), (TRef.of (T := ⟨S_, .i32⟩) main_call2_c_2).ofBuf (Val := Elt F) u = u := fun _ => rfl
  have to_main_call2_v6 : ∀ v : (⟨S16384x25x16x1, .i32⟩ : BufTy).Contents (Elt F), (TRef.of (T := ⟨S16384x25x16x1, .i32⟩) main_call2_v6).toBuf (Val := Elt F) v = v := fun _ => rfl
  have of_main_call2_v6 : ∀ u : (⟨S16384x25x16x1, .i32⟩ : BufTy).Contents (Elt F), (TRef.of (T := ⟨S16384x25x16x1, .i32⟩) main_call2_v6).ofBuf (Val := Elt F) u = u := fun _ => rfl
  have to_main_call2_v5 : ∀ v : (⟨S16384x25x16x1, .i32⟩ : BufTy).Contents (Elt F), (TRef.of (T := ⟨S16384x25x16x1, .i32⟩) main_call2_v5).toBuf (Val := Elt F) v = v := fun _ => rfl
  have of_main_call2_v5 : ∀ u : (⟨S16384x25x16x1, .i32⟩ : BufTy).Contents (Elt F), (TRef.of (T := ⟨S16384x25x16x1, .i32⟩) main_call2_v5).ofBuf (Val := Elt F) u = u := fun _ => rfl
  have to_main_call2_v7 : ∀ v : (⟨S16384x25x16x1, .i1⟩ : BufTy).Contents (Elt F), (TRef.of (T := ⟨S16384x25x16x1, .i1⟩) main_call2_v7).toBuf (Val := Elt F) v = v := fun _ => rfl
  have of_main_call2_v7 : ∀ u : (⟨S16384x25x16x1, .i1⟩ : BufTy).Contents (Elt F), (TRef.of (T := ⟨S16384x25x16x1, .i1⟩) main_call2_v7).ofBuf (Val := Elt F) u = u := fun _ => rfl
  have to_main_call2_v8 : ∀ v : (⟨S1x1x1x1, .i32⟩ : BufTy).Contents (Elt F), (TRef.of (T := ⟨S1x1x1x1, .i32⟩) main_call2_v8).toBuf (Val := Elt F) v = v := fun _ => rfl
  have of_main_call2_v8 : ∀ u : (⟨S1x1x1x1, .i32⟩ : BufTy).Contents (Elt F), (TRef.of (T := ⟨S1x1x1x1, .i32⟩) main_call2_v8).ofBuf (Val := Elt F) u = u := fun _ => rfl
  have to_main_call2_v9 : ∀ v : (⟨S16384x25x16x1, .i32⟩ : BufTy).Contents (Elt F), (TRef.of (T := ⟨S16384x25x16x1, .i32⟩) main_call2_v9).toBuf (Val := Elt F) v = v := fun _ => rfl
  have of_main_call2_v9 : ∀ u : (⟨S16384x25x16x1, .i32⟩ : BufTy).Contents (Elt F), (TRef.of (T := ⟨S16384x25x16x1, .i32⟩) main_call2_v9).ofBuf (Val := Elt F) u = u := fun _ => rfl
  have to_main_call2_v10 : ∀ v : (⟨S16384x25x16x1, .i1⟩ : BufTy).Contents (Elt F), (TRef.of (T := ⟨S16384x25x16x1, .i1⟩) main_call2_v10).toBuf (Val := Elt F) v = v := fun _ => rfl
  have of_main_call2_v10 : ∀ u : (⟨S16384x25x16x1, .i1⟩ : BufTy).Contents (Elt F), (TRef.of (T := ⟨S16384x25x16x1, .i1⟩) main_call2_v10).ofBuf (Val := Elt F) u = u := fun _ => rfl
  have to_main_call2_v11 : ∀ v : (⟨S16384x25x16x1, .i1⟩ : BufTy).Contents (Elt F), (TRef.of (T := ⟨S16384x25x16x1, .i1⟩) main_call2_v11).toBuf (Val := Elt F) v = v := fun _ => rfl
  have of_main_call2_v11 : ∀ u : (⟨S16384x25x16x1, .i1⟩ : BufTy).Contents (Elt F), (TRef.of (T := ⟨S16384x25x16x1, .i1⟩) main_call2_v11).ofBuf (Val := Elt F) u = u := fun _ => rfl
  have to_main_call2_c_3 : ∀ v : (⟨S_, .i1⟩ : BufTy).Contents (Elt F), (TRef.of (T := ⟨S_, .i1⟩) main_call2_c_3).toBuf (Val := Elt F) v = v := fun _ => rfl
  have of_main_call2_c_3 : ∀ u : (⟨S_, .i1⟩ : BufTy).Contents (Elt F), (TRef.of (T := ⟨S_, .i1⟩) main_call2_c_3).ofBuf (Val := Elt F) u = u := fun _ => rfl
  try simp only [to_main_call2_c_1, of_main_call2_c_1, to_main_call2_c_2, of_main_call2_c_2, to_main_call2_v6, of_main_call2_v6, to_main_call2_v5, of_main_call2_v5, to_main_call2_v7, of_main_call2_v7, to_main_call2_v8, of_main_call2_v8, to_main_call2_v9, of_main_call2_v9, to_main_call2_v10, of_main_call2_v10, to_main_call2_v11, of_main_call2_v11, to_main_call2_c_3, of_main_call2_c_3]
  try simp only [h_main_call2_v5]
  rfl

attribute [local irreducible] Host.reduce Host.gather val_main_call2_v5 in
theorem res_5_main_call2_c_3 (W : Valuation τ sig (Elt F)) (x3 : (⟨S16384x16x2, .i32⟩ : BufTy).Contents (Elt F)) (h_main_call2_v5 : W (Proc.devRef .tc main_call2_v5) = val_main_call2_v5 (F := F) x3) :
    after ops_5 W (Proc.devRef .tc main_call2_c_3) = val_main_call2_c_3 (F := F) := by
  after_results_simp
  have to_main_call2_c_1 : ∀ v : (⟨S1, .i32⟩ : BufTy).Contents (Elt F), (TRef.of (T := ⟨S1, .i32⟩) main_call2_c_1).toBuf (Val := Elt F) v = v := fun _ => rfl
  have of_main_call2_c_1 : ∀ u : (⟨S1, .i32⟩ : BufTy).Contents (Elt F), (TRef.of (T := ⟨S1, .i32⟩) main_call2_c_1).ofBuf (Val := Elt F) u = u := fun _ => rfl
  have to_main_call2_c_2 : ∀ v : (⟨S_, .i32⟩ : BufTy).Contents (Elt F), (TRef.of (T := ⟨S_, .i32⟩) main_call2_c_2).toBuf (Val := Elt F) v = v := fun _ => rfl
  have of_main_call2_c_2 : ∀ u : (⟨S_, .i32⟩ : BufTy).Contents (Elt F), (TRef.of (T := ⟨S_, .i32⟩) main_call2_c_2).ofBuf (Val := Elt F) u = u := fun _ => rfl
  have to_main_call2_v6 : ∀ v : (⟨S16384x25x16x1, .i32⟩ : BufTy).Contents (Elt F), (TRef.of (T := ⟨S16384x25x16x1, .i32⟩) main_call2_v6).toBuf (Val := Elt F) v = v := fun _ => rfl
  have of_main_call2_v6 : ∀ u : (⟨S16384x25x16x1, .i32⟩ : BufTy).Contents (Elt F), (TRef.of (T := ⟨S16384x25x16x1, .i32⟩) main_call2_v6).ofBuf (Val := Elt F) u = u := fun _ => rfl
  have to_main_call2_v5 : ∀ v : (⟨S16384x25x16x1, .i32⟩ : BufTy).Contents (Elt F), (TRef.of (T := ⟨S16384x25x16x1, .i32⟩) main_call2_v5).toBuf (Val := Elt F) v = v := fun _ => rfl
  have of_main_call2_v5 : ∀ u : (⟨S16384x25x16x1, .i32⟩ : BufTy).Contents (Elt F), (TRef.of (T := ⟨S16384x25x16x1, .i32⟩) main_call2_v5).ofBuf (Val := Elt F) u = u := fun _ => rfl
  have to_main_call2_v7 : ∀ v : (⟨S16384x25x16x1, .i1⟩ : BufTy).Contents (Elt F), (TRef.of (T := ⟨S16384x25x16x1, .i1⟩) main_call2_v7).toBuf (Val := Elt F) v = v := fun _ => rfl
  have of_main_call2_v7 : ∀ u : (⟨S16384x25x16x1, .i1⟩ : BufTy).Contents (Elt F), (TRef.of (T := ⟨S16384x25x16x1, .i1⟩) main_call2_v7).ofBuf (Val := Elt F) u = u := fun _ => rfl
  have to_main_call2_v8 : ∀ v : (⟨S1x1x1x1, .i32⟩ : BufTy).Contents (Elt F), (TRef.of (T := ⟨S1x1x1x1, .i32⟩) main_call2_v8).toBuf (Val := Elt F) v = v := fun _ => rfl
  have of_main_call2_v8 : ∀ u : (⟨S1x1x1x1, .i32⟩ : BufTy).Contents (Elt F), (TRef.of (T := ⟨S1x1x1x1, .i32⟩) main_call2_v8).ofBuf (Val := Elt F) u = u := fun _ => rfl
  have to_main_call2_v9 : ∀ v : (⟨S16384x25x16x1, .i32⟩ : BufTy).Contents (Elt F), (TRef.of (T := ⟨S16384x25x16x1, .i32⟩) main_call2_v9).toBuf (Val := Elt F) v = v := fun _ => rfl
  have of_main_call2_v9 : ∀ u : (⟨S16384x25x16x1, .i32⟩ : BufTy).Contents (Elt F), (TRef.of (T := ⟨S16384x25x16x1, .i32⟩) main_call2_v9).ofBuf (Val := Elt F) u = u := fun _ => rfl
  have to_main_call2_v10 : ∀ v : (⟨S16384x25x16x1, .i1⟩ : BufTy).Contents (Elt F), (TRef.of (T := ⟨S16384x25x16x1, .i1⟩) main_call2_v10).toBuf (Val := Elt F) v = v := fun _ => rfl
  have of_main_call2_v10 : ∀ u : (⟨S16384x25x16x1, .i1⟩ : BufTy).Contents (Elt F), (TRef.of (T := ⟨S16384x25x16x1, .i1⟩) main_call2_v10).ofBuf (Val := Elt F) u = u := fun _ => rfl
  have to_main_call2_v11 : ∀ v : (⟨S16384x25x16x1, .i1⟩ : BufTy).Contents (Elt F), (TRef.of (T := ⟨S16384x25x16x1, .i1⟩) main_call2_v11).toBuf (Val := Elt F) v = v := fun _ => rfl
  have of_main_call2_v11 : ∀ u : (⟨S16384x25x16x1, .i1⟩ : BufTy).Contents (Elt F), (TRef.of (T := ⟨S16384x25x16x1, .i1⟩) main_call2_v11).ofBuf (Val := Elt F) u = u := fun _ => rfl
  have to_main_call2_c_3 : ∀ v : (⟨S_, .i1⟩ : BufTy).Contents (Elt F), (TRef.of (T := ⟨S_, .i1⟩) main_call2_c_3).toBuf (Val := Elt F) v = v := fun _ => rfl
  have of_main_call2_c_3 : ∀ u : (⟨S_, .i1⟩ : BufTy).Contents (Elt F), (TRef.of (T := ⟨S_, .i1⟩) main_call2_c_3).ofBuf (Val := Elt F) u = u := fun _ => rfl
  try simp only [to_main_call2_c_1, of_main_call2_c_1, to_main_call2_c_2, of_main_call2_c_2, to_main_call2_v6, of_main_call2_v6, to_main_call2_v5, of_main_call2_v5, to_main_call2_v7, of_main_call2_v7, to_main_call2_v8, of_main_call2_v8, to_main_call2_v9, of_main_call2_v9, to_main_call2_v10, of_main_call2_v10, to_main_call2_v11, of_main_call2_v11, to_main_call2_c_3, of_main_call2_c_3]
  try simp only [h_main_call2_v5]
  rfl

theorem pass_5_main_arg1 (W : Valuation τ sig (Elt F)) : after ops_5 W (Proc.devRef .tc main_arg1) = W (Proc.devRef .tc main_arg1) := by
  after_results_simp

theorem pass_5_main_arg2 (W : Valuation τ sig (Elt F)) : after ops_5 W (Proc.devRef .tc main_arg2) = W (Proc.devRef .tc main_arg2) := by
  after_results_simp

theorem pass_5_main_v17 (W : Valuation τ sig (Elt F)) : after ops_5 W (Proc.devRef .tc main_v17) = W (Proc.devRef .tc main_v17) := by
  after_results_simp

theorem pass_5_main_v18 (W : Valuation τ sig (Elt F)) : after ops_5 W (Proc.devRef .tc main_v18) = W (Proc.devRef .tc main_v18) := by
  after_results_simp

theorem pass_5_main_call2_v5 (W : Valuation τ sig (Elt F)) : after ops_5 W (Proc.devRef .tc main_call2_v5) = W (Proc.devRef .tc main_call2_v5) := by
  after_results_simp

attribute [local irreducible] Host.reduce Host.gather val_main_call2_v11 val_main_call2_c_3 in
theorem res_6_main_call2_v12 (W : Valuation τ sig (Elt F)) (x3 : (⟨S16384x16x2, .i32⟩ : BufTy).Contents (Elt F)) (h_main_call2_v11 : W (Proc.devRef .tc main_call2_v11) = val_main_call2_v11 (F := F) x3) (h_main_call2_c_3 : W (Proc.devRef .tc main_call2_c_3) = val_main_call2_c_3 (F := F)) :
    after ops_6 W (Proc.devRef .tc main_call2_v12) = val_main_call2_v12 (F := F) x3 := by
  after_results_simp
  have to_main_call2_v11 : ∀ v : (⟨S16384x25x16x1, .i1⟩ : BufTy).Contents (Elt F), (TRef.of (T := ⟨S16384x25x16x1, .i1⟩) main_call2_v11).toBuf (Val := Elt F) v = v := fun _ => rfl
  have of_main_call2_v11 : ∀ u : (⟨S16384x25x16x1, .i1⟩ : BufTy).Contents (Elt F), (TRef.of (T := ⟨S16384x25x16x1, .i1⟩) main_call2_v11).ofBuf (Val := Elt F) u = u := fun _ => rfl
  have to_main_call2_c_3 : ∀ v : (⟨S_, .i1⟩ : BufTy).Contents (Elt F), (TRef.of (T := ⟨S_, .i1⟩) main_call2_c_3).toBuf (Val := Elt F) v = v := fun _ => rfl
  have of_main_call2_c_3 : ∀ u : (⟨S_, .i1⟩ : BufTy).Contents (Elt F), (TRef.of (T := ⟨S_, .i1⟩) main_call2_c_3).ofBuf (Val := Elt F) u = u := fun _ => rfl
  have to_main_call2_v12 : ∀ v : (⟨S16384x25x16, .i1⟩ : BufTy).Contents (Elt F), (TRef.of (T := ⟨S16384x25x16, .i1⟩) main_call2_v12).toBuf (Val := Elt F) v = v := fun _ => rfl
  have of_main_call2_v12 : ∀ u : (⟨S16384x25x16, .i1⟩ : BufTy).Contents (Elt F), (TRef.of (T := ⟨S16384x25x16, .i1⟩) main_call2_v12).ofBuf (Val := Elt F) u = u := fun _ => rfl
  try simp only [to_main_call2_v11, of_main_call2_v11, to_main_call2_c_3, of_main_call2_c_3, to_main_call2_v12, of_main_call2_v12]
  try simp only [h_main_call2_v11, h_main_call2_c_3]
  rfl

theorem pass_6_main_arg1 (W : Valuation τ sig (Elt F)) : after ops_6 W (Proc.devRef .tc main_arg1) = W (Proc.devRef .tc main_arg1) := by
  after_results_simp

theorem pass_6_main_arg2 (W : Valuation τ sig (Elt F)) : after ops_6 W (Proc.devRef .tc main_arg2) = W (Proc.devRef .tc main_arg2) := by
  after_results_simp

theorem pass_6_main_v17 (W : Valuation τ sig (Elt F)) : after ops_6 W (Proc.devRef .tc main_v17) = W (Proc.devRef .tc main_v17) := by
  after_results_simp

theorem pass_6_main_v18 (W : Valuation τ sig (Elt F)) : after ops_6 W (Proc.devRef .tc main_v18) = W (Proc.devRef .tc main_v18) := by
  after_results_simp

theorem pass_6_main_call2_v5 (W : Valuation τ sig (Elt F)) : after ops_6 W (Proc.devRef .tc main_call2_v5) = W (Proc.devRef .tc main_call2_v5) := by
  after_results_simp

attribute [local irreducible] Host.reduce Host.gather val_main_v18 val_main_call2_v5 in
theorem res_7_main_call2_v13 (W : Valuation τ sig (Elt F)) (x0 : (⟨S16384x25x7x7, .f32⟩ : BufTy).Contents (Elt F)) (x3 : (⟨S16384x16x2, .i32⟩ : BufTy).Contents (Elt F)) (h_main_v18 : W (Proc.devRef .tc main_v18) = val_main_v18 (F := F) x0) (h_main_call2_v5 : W (Proc.devRef .tc main_call2_v5) = val_main_call2_v5 (F := F) x3) :
    after ops_7 W (Proc.devRef .tc main_call2_v13) = val_main_call2_v13 (F := F) x0 x3 := by
  after_results_simp
  have to_main_v18 : ∀ v : (⟨S16384x25x49, .f32⟩ : BufTy).Contents (Elt F), (TRef.of (T := ⟨S16384x25x49, .f32⟩) main_v18).toBuf (Val := Elt F) v = v := fun _ => rfl
  have of_main_v18 : ∀ u : (⟨S16384x25x49, .f32⟩ : BufTy).Contents (Elt F), (TRef.of (T := ⟨S16384x25x49, .f32⟩) main_v18).ofBuf (Val := Elt F) u = u := fun _ => rfl
  have to_main_call2_v5 : ∀ v : (⟨S16384x25x16x1, .i32⟩ : BufTy).Contents (Elt F), (TRef.of (T := ⟨S16384x25x16x1, .i32⟩) main_call2_v5).toBuf (Val := Elt F) v = v := fun _ => rfl
  have of_main_call2_v5 : ∀ u : (⟨S16384x25x16x1, .i32⟩ : BufTy).Contents (Elt F), (TRef.of (T := ⟨S16384x25x16x1, .i32⟩) main_call2_v5).ofBuf (Val := Elt F) u = u := fun _ => rfl
  have to_main_call2_v13 : ∀ v : (⟨S16384x25x16, .f32⟩ : BufTy).Contents (Elt F), (TRef.of (T := ⟨S16384x25x16, .f32⟩) main_call2_v13).toBuf (Val := Elt F) v = v := fun _ => rfl
  have of_main_call2_v13 : ∀ u : (⟨S16384x25x16, .f32⟩ : BufTy).Contents (Elt F), (TRef.of (T := ⟨S16384x25x16, .f32⟩) main_call2_v13).ofBuf (Val := Elt F) u = u := fun _ => rfl
  try simp only [to_main_v18, of_main_v18, to_main_call2_v5, of_main_call2_v5, to_main_call2_v13, of_main_call2_v13]
  try simp only [h_main_v18, h_main_call2_v5]
  rfl

theorem pass_7_main_arg1 (W : Valuation τ sig (Elt F)) : after ops_7 W (Proc.devRef .tc main_arg1) = W (Proc.devRef .tc main_arg1) := by
  after_results_simp

theorem pass_7_main_arg2 (W : Valuation τ sig (Elt F)) : after ops_7 W (Proc.devRef .tc main_arg2) = W (Proc.devRef .tc main_arg2) := by
  after_results_simp

theorem pass_7_main_v17 (W : Valuation τ sig (Elt F)) : after ops_7 W (Proc.devRef .tc main_v17) = W (Proc.devRef .tc main_v17) := by
  after_results_simp

theorem pass_7_main_call2_v12 (W : Valuation τ sig (Elt F)) : after ops_7 W (Proc.devRef .tc main_call2_v12) = W (Proc.devRef .tc main_call2_v12) := by
  after_results_simp

attribute [local irreducible] Host.reduce Host.gather val_main_call2_v12 val_main_call2_v13 in
theorem res_8_main_v28 (W : Valuation τ sig (Elt F)) (x0 : (⟨S16384x25x7x7, .f32⟩ : BufTy).Contents (Elt F)) (x3 : (⟨S16384x16x2, .i32⟩ : BufTy).Contents (Elt F)) (h_main_call2_v12 : W (Proc.devRef .tc main_call2_v12) = val_main_call2_v12 (F := F) x3) (h_main_call2_v13 : W (Proc.devRef .tc main_call2_v13) = val_main_call2_v13 (F := F) x0 x3) :
    after ops_8 W (Proc.devRef .tc main_v28) = val_main_v28 (F := F) x0 x3 := by
  after_results_simp
  have to_main_call2_cst : ∀ v : (⟨S_, .f32⟩ : BufTy).Contents (Elt F), (TRef.of (T := ⟨S_, .f32⟩) main_call2_cst).toBuf (Val := Elt F) v = v := fun _ => rfl
  have of_main_call2_cst : ∀ u : (⟨S_, .f32⟩ : BufTy).Contents (Elt F), (TRef.of (T := ⟨S_, .f32⟩) main_call2_cst).ofBuf (Val := Elt F) u = u := fun _ => rfl
  have to_main_call2_v14 : ∀ v : (⟨S16384x25x16, .f32⟩ : BufTy).Contents (Elt F), (TRef.of (T := ⟨S16384x25x16, .f32⟩) main_call2_v14).toBuf (Val := Elt F) v = v := fun _ => rfl
  have of_main_call2_v14 : ∀ u : (⟨S16384x25x16, .f32⟩ : BufTy).Contents (Elt F), (TRef.of (T := ⟨S16384x25x16, .f32⟩) main_call2_v14).ofBuf (Val := Elt F) u = u := fun _ => rfl
  have to_main_call2_v12 : ∀ v : (⟨S16384x25x16, .i1⟩ : BufTy).Contents (Elt F), (TRef.of (T := ⟨S16384x25x16, .i1⟩) main_call2_v12).toBuf (Val := Elt F) v = v := fun _ => rfl
  have of_main_call2_v12 : ∀ u : (⟨S16384x25x16, .i1⟩ : BufTy).Contents (Elt F), (TRef.of (T := ⟨S16384x25x16, .i1⟩) main_call2_v12).ofBuf (Val := Elt F) u = u := fun _ => rfl
  have to_main_call2_v13 : ∀ v : (⟨S16384x25x16, .f32⟩ : BufTy).Contents (Elt F), (TRef.of (T := ⟨S16384x25x16, .f32⟩) main_call2_v13).toBuf (Val := Elt F) v = v := fun _ => rfl
  have of_main_call2_v13 : ∀ u : (⟨S16384x25x16, .f32⟩ : BufTy).Contents (Elt F), (TRef.of (T := ⟨S16384x25x16, .f32⟩) main_call2_v13).ofBuf (Val := Elt F) u = u := fun _ => rfl
  have to_main_v28 : ∀ v : (⟨S16384x25x16, .f32⟩ : BufTy).Contents (Elt F), (TRef.of (T := ⟨S16384x25x16, .f32⟩) main_v28).toBuf (Val := Elt F) v = v := fun _ => rfl
  have of_main_v28 : ∀ u : (⟨S16384x25x16, .f32⟩ : BufTy).Contents (Elt F), (TRef.of (T := ⟨S16384x25x16, .f32⟩) main_v28).ofBuf (Val := Elt F) u = u := fun _ => rfl
  try simp only [to_main_call2_cst, of_main_call2_cst, to_main_call2_v14, of_main_call2_v14, to_main_call2_v12, of_main_call2_v12, to_main_call2_v13, of_main_call2_v13, to_main_v28, of_main_v28]
  try simp only [h_main_call2_v12, h_main_call2_v13]
  rfl

theorem pass_8_main_arg1 (W : Valuation τ sig (Elt F)) : after ops_8 W (Proc.devRef .tc main_arg1) = W (Proc.devRef .tc main_arg1) := by
  after_results_simp

theorem pass_8_main_arg2 (W : Valuation τ sig (Elt F)) : after ops_8 W (Proc.devRef .tc main_arg2) = W (Proc.devRef .tc main_arg2) := by
  after_results_simp

theorem pass_8_main_v17 (W : Valuation τ sig (Elt F)) : after ops_8 W (Proc.devRef .tc main_v17) = W (Proc.devRef .tc main_v17) := by
  after_results_simp

attribute [local irreducible] Host.reduce Host.gather val_main_v28 in
theorem res_9_main_v44 (W : Valuation τ sig (Elt F)) (x0 : (⟨S16384x25x7x7, .f32⟩ : BufTy).Contents (Elt F)) (x1 : (⟨S16384x16x4, .f32⟩ : BufTy).Contents (Elt F)) (x3 : (⟨S16384x16x2, .i32⟩ : BufTy).Contents (Elt F)) (h_main_v28 : W (Proc.devRef .tc main_v28) = val_main_v28 (F := F) x0 x3) (h_main_arg1 : W (Proc.devRef .tc main_arg1) = x1) :
    after ops_9 W (Proc.devRef .tc main_v44) = val_main_v44 (F := F) x0 x1 x3 := by
  after_results_simp
  have to_main_v34 : ∀ v : (⟨S16384x16x4, .f32⟩ : BufTy).Contents (Elt F), (TRef.of (T := ⟨S16384x16x4, .f32⟩) main_v34).toBuf (Val := Elt F) v = v := fun _ => rfl
  have of_main_v34 : ∀ u : (⟨S16384x16x4, .f32⟩ : BufTy).Contents (Elt F), (TRef.of (T := ⟨S16384x16x4, .f32⟩) main_v34).ofBuf (Val := Elt F) u = u := fun _ => rfl
  have to_main_v35 : ∀ v : (⟨S16384x16x4, .f32⟩ : BufTy).Contents (Elt F), (TRef.of (T := ⟨S16384x16x4, .f32⟩) main_v35).toBuf (Val := Elt F) v = v := fun _ => rfl
  have of_main_v35 : ∀ u : (⟨S16384x16x4, .f32⟩ : BufTy).Contents (Elt F), (TRef.of (T := ⟨S16384x16x4, .f32⟩) main_v35).ofBuf (Val := Elt F) u = u := fun _ => rfl
  try simp only [to_main_v34, of_main_v34, to_main_v35, of_main_v35]
  try simp only [h_main_v28, h_main_arg1]
  rfl

theorem pass_9_main_arg2 (W : Valuation τ sig (Elt F)) : after ops_9 W (Proc.devRef .tc main_arg2) = W (Proc.devRef .tc main_arg2) := by
  after_results_simp

theorem pass_9_main_v17 (W : Valuation τ sig (Elt F)) : after ops_9 W (Proc.devRef .tc main_v17) = W (Proc.devRef .tc main_v17) := by
  after_results_simp

theorem pass_9_main_v28 (W : Valuation τ sig (Elt F)) : after ops_9 W (Proc.devRef .tc main_v28) = W (Proc.devRef .tc main_v28) := by
  after_results_simp

attribute [local irreducible] Host.reduce Host.gather val_main_v28 in
theorem res_10_main_v46 (W : Valuation τ sig (Elt F)) (x0 : (⟨S16384x25x7x7, .f32⟩ : BufTy).Contents (Elt F)) (x3 : (⟨S16384x16x2, .i32⟩ : BufTy).Contents (Elt F)) (h_main_v28 : W (Proc.devRef .tc main_v28) = val_main_v28 (F := F) x0 x3) :
    after ops_10 W (Proc.devRef .tc main_v46) = val_main_v46 (F := F) x0 x3 := by
  after_results_simp
  try simp only [h_main_v28]
  rfl

theorem pass_10_main_arg2 (W : Valuation τ sig (Elt F)) : after ops_10 W (Proc.devRef .tc main_arg2) = W (Proc.devRef .tc main_arg2) := by
  after_results_simp

theorem pass_10_main_v17 (W : Valuation τ sig (Elt F)) : after ops_10 W (Proc.devRef .tc main_v17) = W (Proc.devRef .tc main_v17) := by
  after_results_simp

theorem pass_10_main_v44 (W : Valuation τ sig (Elt F)) : after ops_10 W (Proc.devRef .tc main_v44) = W (Proc.devRef .tc main_v44) := by
  after_results_simp

attribute [local irreducible] Host.reduce Host.gather in
theorem res_11_main_call4_cst (W : Valuation τ sig (Elt F)) :
    after ops_11 W (Proc.devRef .tc main_call4_cst) = val_main_call4_cst (F := F) := by
  after_results_simp
  have to_main_call4_cst : ∀ v : (⟨S_, .f32⟩ : BufTy).Contents (Elt F), (TRef.of (T := ⟨S_, .f32⟩) main_call4_cst).toBuf (Val := Elt F) v = v := fun _ => rfl
  have of_main_call4_cst : ∀ u : (⟨S_, .f32⟩ : BufTy).Contents (Elt F), (TRef.of (T := ⟨S_, .f32⟩) main_call4_cst).ofBuf (Val := Elt F) u = u := fun _ => rfl
  try simp only [to_main_call4_cst, of_main_call4_cst]
  try simp only []
  rfl

theorem pass_11_main_arg2 (W : Valuation τ sig (Elt F)) : after ops_11 W (Proc.devRef .tc main_arg2) = W (Proc.devRef .tc main_arg2) := by
  after_results_simp

theorem pass_11_main_v17 (W : Valuation τ sig (Elt F)) : after ops_11 W (Proc.devRef .tc main_v17) = W (Proc.devRef .tc main_v17) := by
  after_results_simp

theorem pass_11_main_v44 (W : Valuation τ sig (Elt F)) : after ops_11 W (Proc.devRef .tc main_v44) = W (Proc.devRef .tc main_v44) := by
  after_results_simp

theorem pass_11_main_v46 (W : Valuation τ sig (Elt F)) : after ops_11 W (Proc.devRef .tc main_v46) = W (Proc.devRef .tc main_v46) := by
  after_results_simp

attribute [local irreducible] Host.reduce Host.gather val_main_v46 val_main_call4_cst in
theorem res_12_main_call4_v0 (W : Valuation τ sig (Elt F)) (x0 : (⟨S16384x25x7x7, .f32⟩ : BufTy).Contents (Elt F)) (x3 : (⟨S16384x16x2, .i32⟩ : BufTy).Contents (Elt F)) (h_main_v46 : W (Proc.devRef .tc main_v46) = val_main_v46 (F := F) x0 x3) (h_main_call4_cst : W (Proc.devRef .tc main_call4_cst) = val_main_call4_cst (F := F)) :
    after ops_12 W (Proc.devRef .tc main_call4_v0) = val_main_call4_v0 (F := F) x0 x3 := by
  after_results_simp
  have to_main_v46 : ∀ v : (⟨S16384x16x20, .f32⟩ : BufTy).Contents (Elt F), (TRef.of (T := ⟨S16384x16x20, .f32⟩) main_v46).toBuf (Val := Elt F) v = v := fun _ => rfl
  have of_main_v46 : ∀ u : (⟨S16384x16x20, .f32⟩ : BufTy).Contents (Elt F), (TRef.of (T := ⟨S16384x16x20, .f32⟩) main_v46).ofBuf (Val := Elt F) u = u := fun _ => rfl
  have to_main_call4_cst : ∀ v : (⟨S_, .f32⟩ : BufTy).Contents (Elt F), (TRef.of (T := ⟨S_, .f32⟩) main_call4_cst).toBuf (Val := Elt F) v = v := fun _ => rfl
  have of_main_call4_cst : ∀ u : (⟨S_, .f32⟩ : BufTy).Contents (Elt F), (TRef.of (T := ⟨S_, .f32⟩) main_call4_cst).ofBuf (Val := Elt F) u = u := fun _ => rfl
  have to_main_call4_v0 : ∀ v : (⟨S16384x16, .f32⟩ : BufTy).Contents (Elt F), (TRef.of (T := ⟨S16384x16, .f32⟩) main_call4_v0).toBuf (Val := Elt F) v = v := fun _ => rfl
  have of_main_call4_v0 : ∀ u : (⟨S16384x16, .f32⟩ : BufTy).Contents (Elt F), (TRef.of (T := ⟨S16384x16, .f32⟩) main_call4_v0).ofBuf (Val := Elt F) u = u := fun _ => rfl
  try simp only [to_main_v46, of_main_v46, to_main_call4_cst, of_main_call4_cst, to_main_call4_v0, of_main_call4_v0]
  try simp only [h_main_v46, h_main_call4_cst]
  rfl

theorem pass_12_main_arg2 (W : Valuation τ sig (Elt F)) : after ops_12 W (Proc.devRef .tc main_arg2) = W (Proc.devRef .tc main_arg2) := by
  after_results_simp

theorem pass_12_main_v17 (W : Valuation τ sig (Elt F)) : after ops_12 W (Proc.devRef .tc main_v17) = W (Proc.devRef .tc main_v17) := by
  after_results_simp

theorem pass_12_main_v44 (W : Valuation τ sig (Elt F)) : after ops_12 W (Proc.devRef .tc main_v44) = W (Proc.devRef .tc main_v44) := by
  after_results_simp

theorem pass_12_main_v46 (W : Valuation τ sig (Elt F)) : after ops_12 W (Proc.devRef .tc main_v46) = W (Proc.devRef .tc main_v46) := by
  after_results_simp

attribute [local irreducible] Host.reduce Host.gather val_main_call4_v0 val_main_v46 in
theorem res_13_main_call4_v5 (W : Valuation τ sig (Elt F)) (x0 : (⟨S16384x25x7x7, .f32⟩ : BufTy).Contents (Elt F)) (x3 : (⟨S16384x16x2, .i32⟩ : BufTy).Contents (Elt F)) (h_main_call4_v0 : W (Proc.devRef .tc main_call4_v0) = val_main_call4_v0 (F := F) x0 x3) (h_main_v46 : W (Proc.devRef .tc main_v46) = val_main_v46 (F := F) x0 x3) :
    after ops_13 W (Proc.devRef .tc main_call4_v5) = val_main_call4_v5 (F := F) x0 x3 := by
  after_results_simp
  have to_main_call4_cst_0 : ∀ v : (⟨S_, .f32⟩ : BufTy).Contents (Elt F), (TRef.of (T := ⟨S_, .f32⟩) main_call4_cst_0).toBuf (Val := Elt F) v = v := fun _ => rfl
  have of_main_call4_cst_0 : ∀ u : (⟨S_, .f32⟩ : BufTy).Contents (Elt F), (TRef.of (T := ⟨S_, .f32⟩) main_call4_cst_0).ofBuf (Val := Elt F) u = u := fun _ => rfl
  have to_main_call4_v1 : ∀ v : (⟨S16384x16, .f32⟩ : BufTy).Contents (Elt F), (TRef.of (T := ⟨S16384x16, .f32⟩) main_call4_v1).toBuf (Val := Elt F) v = v := fun _ => rfl
  have of_main_call4_v1 : ∀ u : (⟨S16384x16, .f32⟩ : BufTy).Contents (Elt F), (TRef.of (T := ⟨S16384x16, .f32⟩) main_call4_v1).ofBuf (Val := Elt F) u = u := fun _ => rfl
  have to_main_call4_v0 : ∀ v : (⟨S16384x16, .f32⟩ : BufTy).Contents (Elt F), (TRef.of (T := ⟨S16384x16, .f32⟩) main_call4_v0).toBuf (Val := Elt F) v = v := fun _ => rfl
  have of_main_call4_v0 : ∀ u : (⟨S16384x16, .f32⟩ : BufTy).Contents (Elt F), (TRef.of (T := ⟨S16384x16, .f32⟩) main_call4_v0).ofBuf (Val := Elt F) u = u := fun _ => rfl
  have to_main_call4_v2 : ∀ v : (⟨S16384x16, .f32⟩ : BufTy).Contents (Elt F), (TRef.of (T := ⟨S16384x16, .f32⟩) main_call4_v2).toBuf (Val := Elt F) v = v := fun _ => rfl
  have of_main_call4_v2 : ∀ u : (⟨S16384x16, .f32⟩ : BufTy).Contents (Elt F), (TRef.of (T := ⟨S16384x16, .f32⟩) main_call4_v2).ofBuf (Val := Elt F) u = u := fun _ => rfl
  have to_main_call4_v3 : ∀ v : (⟨S16384x16x1, .f32⟩ : BufTy).Contents (Elt F), (TRef.of (T := ⟨S16384x16x1, .f32⟩) main_call4_v3).toBuf (Val := Elt F) v = v := fun _ => rfl
  have of_main_call4_v3 : ∀ u : (⟨S16384x16x1, .f32⟩ : BufTy).Contents (Elt F), (TRef.of (T := ⟨S16384x16x1, .f32⟩) main_call4_v3).ofBuf (Val := Elt F) u = u := fun _ => rfl
  have to_main_call4_v4 : ∀ v : (⟨S16384x16x20, .f32⟩ : BufTy).Contents (Elt F), (TRef.of (T := ⟨S16384x16x20, .f32⟩) main_call4_v4).toBuf (Val := Elt F) v = v := fun _ => rfl
  have of_main_call4_v4 : ∀ u : (⟨S16384x16x20, .f32⟩ : BufTy).Contents (Elt F), (TRef.of (T := ⟨S16384x16x20, .f32⟩) main_call4_v4).ofBuf (Val := Elt F) u = u := fun _ => rfl
  have to_main_v46 : ∀ v : (⟨S16384x16x20, .f32⟩ : BufTy).Contents (Elt F), (TRef.of (T := ⟨S16384x16x20, .f32⟩) main_v46).toBuf (Val := Elt F) v = v := fun _ => rfl
  have of_main_v46 : ∀ u : (⟨S16384x16x20, .f32⟩ : BufTy).Contents (Elt F), (TRef.of (T := ⟨S16384x16x20, .f32⟩) main_v46).ofBuf (Val := Elt F) u = u := fun _ => rfl
  have to_main_call4_v5 : ∀ v : (⟨S16384x16x20, .f32⟩ : BufTy).Contents (Elt F), (TRef.of (T := ⟨S16384x16x20, .f32⟩) main_call4_v5).toBuf (Val := Elt F) v = v := fun _ => rfl
  have of_main_call4_v5 : ∀ u : (⟨S16384x16x20, .f32⟩ : BufTy).Contents (Elt F), (TRef.of (T := ⟨S16384x16x20, .f32⟩) main_call4_v5).ofBuf (Val := Elt F) u = u := fun _ => rfl
  try simp only [to_main_call4_cst_0, of_main_call4_cst_0, to_main_call4_v1, of_main_call4_v1, to_main_call4_v0, of_main_call4_v0, to_main_call4_v2, of_main_call4_v2, to_main_call4_v3, of_main_call4_v3, to_main_call4_v4, of_main_call4_v4, to_main_v46, of_main_v46, to_main_call4_v5, of_main_call4_v5]
  try simp only [h_main_call4_v0, h_main_v46]
  rfl

theorem pass_13_main_arg2 (W : Valuation τ sig (Elt F)) : after ops_13 W (Proc.devRef .tc main_arg2) = W (Proc.devRef .tc main_arg2) := by
  after_results_simp

theorem pass_13_main_v17 (W : Valuation τ sig (Elt F)) : after ops_13 W (Proc.devRef .tc main_v17) = W (Proc.devRef .tc main_v17) := by
  after_results_simp

theorem pass_13_main_v44 (W : Valuation τ sig (Elt F)) : after ops_13 W (Proc.devRef .tc main_v44) = W (Proc.devRef .tc main_v44) := by
  after_results_simp

attribute [local irreducible] Host.reduce Host.gather val_main_call4_v5 in
theorem res_14_main_v47 (W : Valuation τ sig (Elt F)) (x0 : (⟨S16384x25x7x7, .f32⟩ : BufTy).Contents (Elt F)) (x2 : (⟨S16384x16, .i32⟩ : BufTy).Contents (Elt F)) (x3 : (⟨S16384x16x2, .i32⟩ : BufTy).Contents (Elt F)) (h_main_call4_v5 : W (Proc.devRef .tc main_call4_v5) = val_main_call4_v5 (F := F) x0 x3) (h_main_arg2 : W (Proc.devRef .tc main_arg2) = x2) :
    after ops_14 W (Proc.devRef .tc main_v47) = val_main_v47 (F := F) x0 x3 := by
  after_results_simp
  have to_main_call4_v5 : ∀ v : (⟨S16384x16x20, .f32⟩ : BufTy).Contents (Elt F), (TRef.of (T := ⟨S16384x16x20, .f32⟩) main_call4_v5).toBuf (Val := Elt F) v = v := fun _ => rfl
  have of_main_call4_v5 : ∀ u : (⟨S16384x16x20, .f32⟩ : BufTy).Contents (Elt F), (TRef.of (T := ⟨S16384x16x20, .f32⟩) main_call4_v5).ofBuf (Val := Elt F) u = u := fun _ => rfl
  have to_main_call4_v6 : ∀ v : (⟨S16384x16x20, .f32⟩ : BufTy).Contents (Elt F), (TRef.of (T := ⟨S16384x16x20, .f32⟩) main_call4_v6).toBuf (Val := Elt F) v = v := fun _ => rfl
  have of_main_call4_v6 : ∀ u : (⟨S16384x16x20, .f32⟩ : BufTy).Contents (Elt F), (TRef.of (T := ⟨S16384x16x20, .f32⟩) main_call4_v6).ofBuf (Val := Elt F) u = u := fun _ => rfl
  have to_main_call4_cst_1 : ∀ v : (⟨S_, .f32⟩ : BufTy).Contents (Elt F), (TRef.of (T := ⟨S_, .f32⟩) main_call4_cst_1).toBuf (Val := Elt F) v = v := fun _ => rfl
  have of_main_call4_cst_1 : ∀ u : (⟨S_, .f32⟩ : BufTy).Contents (Elt F), (TRef.of (T := ⟨S_, .f32⟩) main_call4_cst_1).ofBuf (Val := Elt F) u = u := fun _ => rfl
  have to_main_call4_v7 : ∀ v : (⟨S16384x16, .f32⟩ : BufTy).Contents (Elt F), (TRef.of (T := ⟨S16384x16, .f32⟩) main_call4_v7).toBuf (Val := Elt F) v = v := fun _ => rfl
  have of_main_call4_v7 : ∀ u : (⟨S16384x16, .f32⟩ : BufTy).Contents (Elt F), (TRef.of (T := ⟨S16384x16, .f32⟩) main_call4_v7).ofBuf (Val := Elt F) u = u := fun _ => rfl
  have to_main_call4_v8 : ∀ v : (⟨S16384x16x1, .f32⟩ : BufTy).Contents (Elt F), (TRef.of (T := ⟨S16384x16x1, .f32⟩) main_call4_v8).toBuf (Val := Elt F) v = v := fun _ => rfl
  have of_main_call4_v8 : ∀ u : (⟨S16384x16x1, .f32⟩ : BufTy).Contents (Elt F), (TRef.of (T := ⟨S16384x16x1, .f32⟩) main_call4_v8).ofBuf (Val := Elt F) u = u := fun _ => rfl
  have to_main_call4_v9 : ∀ v : (⟨S16384x16x1, .f32⟩ : BufTy).Contents (Elt F), (TRef.of (T := ⟨S16384x16x1, .f32⟩) main_call4_v9).toBuf (Val := Elt F) v = v := fun _ => rfl
  have of_main_call4_v9 : ∀ u : (⟨S16384x16x1, .f32⟩ : BufTy).Contents (Elt F), (TRef.of (T := ⟨S16384x16x1, .f32⟩) main_call4_v9).ofBuf (Val := Elt F) u = u := fun _ => rfl
  have to_main_call4_v10 : ∀ v : (⟨S16384x16x20, .f32⟩ : BufTy).Contents (Elt F), (TRef.of (T := ⟨S16384x16x20, .f32⟩) main_call4_v10).toBuf (Val := Elt F) v = v := fun _ => rfl
  have of_main_call4_v10 : ∀ u : (⟨S16384x16x20, .f32⟩ : BufTy).Contents (Elt F), (TRef.of (T := ⟨S16384x16x20, .f32⟩) main_call4_v10).ofBuf (Val := Elt F) u = u := fun _ => rfl
  have to_main_v47 : ∀ v : (⟨S16384x16x20, .f32⟩ : BufTy).Contents (Elt F), (TRef.of (T := ⟨S16384x16x20, .f32⟩) main_v47).toBuf (Val := Elt F) v = v := fun _ => rfl
  have of_main_v47 : ∀ u : (⟨S16384x16x20, .f32⟩ : BufTy).Contents (Elt F), (TRef.of (T := ⟨S16384x16x20, .f32⟩) main_v47).ofBuf (Val := Elt F) u = u := fun _ => rfl
  try simp only [to_main_call4_v5, of_main_call4_v5, to_main_call4_v6, of_main_call4_v6, to_main_call4_cst_1, of_main_call4_cst_1, to_main_call4_v7, of_main_call4_v7, to_main_call4_v8, of_main_call4_v8, to_main_call4_v9, of_main_call4_v9, to_main_call4_v10, of_main_call4_v10, to_main_v47, of_main_v47]
  try simp only [h_main_call4_v5, h_main_arg2]
  rfl

attribute [local irreducible] Host.reduce Host.gather val_main_call4_v5 in
theorem res_14_main_v50 (W : Valuation τ sig (Elt F)) (x0 : (⟨S16384x25x7x7, .f32⟩ : BufTy).Contents (Elt F)) (x2 : (⟨S16384x16, .i32⟩ : BufTy).Contents (Elt F)) (x3 : (⟨S16384x16x2, .i32⟩ : BufTy).Contents (Elt F)) (h_main_call4_v5 : W (Proc.devRef .tc main_call4_v5) = val_main_call4_v5 (F := F) x0 x3) (h_main_arg2 : W (Proc.devRef .tc main_arg2) = x2) :
    after ops_14 W (Proc.devRef .tc main_v50) = val_main_v50 (F := F) x2 := by
  after_results_simp
  have to_main_call4_v5 : ∀ v : (⟨S16384x16x20, .f32⟩ : BufTy).Contents (Elt F), (TRef.of (T := ⟨S16384x16x20, .f32⟩) main_call4_v5).toBuf (Val := Elt F) v = v := fun _ => rfl
  have of_main_call4_v5 : ∀ u : (⟨S16384x16x20, .f32⟩ : BufTy).Contents (Elt F), (TRef.of (T := ⟨S16384x16x20, .f32⟩) main_call4_v5).ofBuf (Val := Elt F) u = u := fun _ => rfl
  have to_main_call4_v6 : ∀ v : (⟨S16384x16x20, .f32⟩ : BufTy).Contents (Elt F), (TRef.of (T := ⟨S16384x16x20, .f32⟩) main_call4_v6).toBuf (Val := Elt F) v = v := fun _ => rfl
  have of_main_call4_v6 : ∀ u : (⟨S16384x16x20, .f32⟩ : BufTy).Contents (Elt F), (TRef.of (T := ⟨S16384x16x20, .f32⟩) main_call4_v6).ofBuf (Val := Elt F) u = u := fun _ => rfl
  have to_main_call4_cst_1 : ∀ v : (⟨S_, .f32⟩ : BufTy).Contents (Elt F), (TRef.of (T := ⟨S_, .f32⟩) main_call4_cst_1).toBuf (Val := Elt F) v = v := fun _ => rfl
  have of_main_call4_cst_1 : ∀ u : (⟨S_, .f32⟩ : BufTy).Contents (Elt F), (TRef.of (T := ⟨S_, .f32⟩) main_call4_cst_1).ofBuf (Val := Elt F) u = u := fun _ => rfl
  have to_main_call4_v7 : ∀ v : (⟨S16384x16, .f32⟩ : BufTy).Contents (Elt F), (TRef.of (T := ⟨S16384x16, .f32⟩) main_call4_v7).toBuf (Val := Elt F) v = v := fun _ => rfl
  have of_main_call4_v7 : ∀ u : (⟨S16384x16, .f32⟩ : BufTy).Contents (Elt F), (TRef.of (T := ⟨S16384x16, .f32⟩) main_call4_v7).ofBuf (Val := Elt F) u = u := fun _ => rfl
  have to_main_call4_v8 : ∀ v : (⟨S16384x16x1, .f32⟩ : BufTy).Contents (Elt F), (TRef.of (T := ⟨S16384x16x1, .f32⟩) main_call4_v8).toBuf (Val := Elt F) v = v := fun _ => rfl
  have of_main_call4_v8 : ∀ u : (⟨S16384x16x1, .f32⟩ : BufTy).Contents (Elt F), (TRef.of (T := ⟨S16384x16x1, .f32⟩) main_call4_v8).ofBuf (Val := Elt F) u = u := fun _ => rfl
  have to_main_call4_v9 : ∀ v : (⟨S16384x16x1, .f32⟩ : BufTy).Contents (Elt F), (TRef.of (T := ⟨S16384x16x1, .f32⟩) main_call4_v9).toBuf (Val := Elt F) v = v := fun _ => rfl
  have of_main_call4_v9 : ∀ u : (⟨S16384x16x1, .f32⟩ : BufTy).Contents (Elt F), (TRef.of (T := ⟨S16384x16x1, .f32⟩) main_call4_v9).ofBuf (Val := Elt F) u = u := fun _ => rfl
  have to_main_call4_v10 : ∀ v : (⟨S16384x16x20, .f32⟩ : BufTy).Contents (Elt F), (TRef.of (T := ⟨S16384x16x20, .f32⟩) main_call4_v10).toBuf (Val := Elt F) v = v := fun _ => rfl
  have of_main_call4_v10 : ∀ u : (⟨S16384x16x20, .f32⟩ : BufTy).Contents (Elt F), (TRef.of (T := ⟨S16384x16x20, .f32⟩) main_call4_v10).ofBuf (Val := Elt F) u = u := fun _ => rfl
  have to_main_v47 : ∀ v : (⟨S16384x16x20, .f32⟩ : BufTy).Contents (Elt F), (TRef.of (T := ⟨S16384x16x20, .f32⟩) main_v47).toBuf (Val := Elt F) v = v := fun _ => rfl
  have of_main_v47 : ∀ u : (⟨S16384x16x20, .f32⟩ : BufTy).Contents (Elt F), (TRef.of (T := ⟨S16384x16x20, .f32⟩) main_v47).ofBuf (Val := Elt F) u = u := fun _ => rfl
  try simp only [to_main_call4_v5, of_main_call4_v5, to_main_call4_v6, of_main_call4_v6, to_main_call4_cst_1, of_main_call4_cst_1, to_main_call4_v7, of_main_call4_v7, to_main_call4_v8, of_main_call4_v8, to_main_call4_v9, of_main_call4_v9, to_main_call4_v10, of_main_call4_v10, to_main_v47, of_main_v47]
  try simp only [h_main_call4_v5, h_main_arg2]
  rfl

theorem pass_14_main_v17 (W : Valuation τ sig (Elt F)) : after ops_14 W (Proc.devRef .tc main_v17) = W (Proc.devRef .tc main_v17) := by
  after_results_simp

theorem pass_14_main_v44 (W : Valuation τ sig (Elt F)) : after ops_14 W (Proc.devRef .tc main_v44) = W (Proc.devRef .tc main_v44) := by
  after_results_simp

attribute [local irreducible] Host.reduce Host.gather val_main_v50 in
theorem res_15_main_call5_v5 (W : Valuation τ sig (Elt F)) (x2 : (⟨S16384x16, .i32⟩ : BufTy).Contents (Elt F)) (h_main_v50 : W (Proc.devRef .tc main_v50) = val_main_v50 (F := F) x2) :
    after ops_15 W (Proc.devRef .tc main_call5_v5) = val_main_call5_v5 (F := F) x2 := by
  after_results_simp
  have to_main_call5_c : ∀ v : (⟨S_, .i32⟩ : BufTy).Contents (Elt F), (TRef.of (T := ⟨S_, .i32⟩) main_call5_c).toBuf (Val := Elt F) v = v := fun _ => rfl
  have of_main_call5_c : ∀ u : (⟨S_, .i32⟩ : BufTy).Contents (Elt F), (TRef.of (T := ⟨S_, .i32⟩) main_call5_c).ofBuf (Val := Elt F) u = u := fun _ => rfl
  have to_main_call5_v0 : ∀ v : (⟨S16384x16x1, .i32⟩ : BufTy).Contents (Elt F), (TRef.of (T := ⟨S16384x16x1, .i32⟩) main_call5_v0).toBuf (Val := Elt F) v = v := fun _ => rfl
  have of_main_call5_v0 : ∀ u : (⟨S16384x16x1, .i32⟩ : BufTy).Contents (Elt F), (TRef.of (T := ⟨S16384x16x1, .i32⟩) main_call5_v0).ofBuf (Val := Elt F) u = u := fun _ => rfl
  have to_main_v50 : ∀ v : (⟨S16384x16x1, .i32⟩ : BufTy).Contents (Elt F), (TRef.of (T := ⟨S16384x16x1, .i32⟩) main_v50).toBuf (Val := Elt F) v = v := fun _ => rfl
  have of_main_v50 : ∀ u : (⟨S16384x16x1, .i32⟩ : BufTy).Contents (Elt F), (TRef.of (T := ⟨S16384x16x1, .i32⟩) main_v50).ofBuf (Val := Elt F) u = u := fun _ => rfl
  have to_main_call5_v1 : ∀ v : (⟨S16384x16x1, .i1⟩ : BufTy).Contents (Elt F), (TRef.of (T := ⟨S16384x16x1, .i1⟩) main_call5_v1).toBuf (Val := Elt F) v = v := fun _ => rfl
  have of_main_call5_v1 : ∀ u : (⟨S16384x16x1, .i1⟩ : BufTy).Contents (Elt F), (TRef.of (T := ⟨S16384x16x1, .i1⟩) main_call5_v1).ofBuf (Val := Elt F) u = u := fun _ => rfl
  have to_main_call5_c_0 : ∀ v : (⟨S_, .i32⟩ : BufTy).Contents (Elt F), (TRef.of (T := ⟨S_, .i32⟩) main_call5_c_0).toBuf (Val := Elt F) v = v := fun _ => rfl
  have of_main_call5_c_0 : ∀ u : (⟨S_, .i32⟩ : BufTy).Contents (Elt F), (TRef.of (T := ⟨S_, .i32⟩) main_call5_c_0).ofBuf (Val := Elt F) u = u := fun _ => rfl
  have to_main_call5_v2 : ∀ v : (⟨S16384x16x1, .i32⟩ : BufTy).Contents (Elt F), (TRef.of (T := ⟨S16384x16x1, .i32⟩) main_call5_v2).toBuf (Val := Elt F) v = v := fun _ => rfl
  have of_main_call5_v2 : ∀ u : (⟨S16384x16x1, .i32⟩ : BufTy).Contents (Elt F), (TRef.of (T := ⟨S16384x16x1, .i32⟩) main_call5_v2).ofBuf (Val := Elt F) u = u := fun _ => rfl
  have to_main_call5_v3 : ∀ v : (⟨S16384x16x1, .i32⟩ : BufTy).Contents (Elt F), (TRef.of (T := ⟨S16384x16x1, .i32⟩) main_call5_v3).toBuf (Val := Elt F) v = v := fun _ => rfl
  have of_main_call5_v3 : ∀ u : (⟨S16384x16x1, .i32⟩ : BufTy).Contents (Elt F), (TRef.of (T := ⟨S16384x16x1, .i32⟩) main_call5_v3).ofBuf (Val := Elt F) u = u := fun _ => rfl
  have to_main_call5_v4 : ∀ v : (⟨S16384x16x1, .i32⟩ : BufTy).Contents (Elt F), (TRef.of (T := ⟨S16384x16x1, .i32⟩) main_call5_v4).toBuf (Val := Elt F) v = v := fun _ => rfl
  have of_main_call5_v4 : ∀ u : (⟨S16384x16x1, .i32⟩ : BufTy).Contents (Elt F), (TRef.of (T := ⟨S16384x16x1, .i32⟩) main_call5_v4).ofBuf (Val := Elt F) u = u := fun _ => rfl
  have to_main_call5_v5 : ∀ v : (⟨S16384x16x1x1, .i32⟩ : BufTy).Contents (Elt F), (TRef.of (T := ⟨S16384x16x1x1, .i32⟩) main_call5_v5).toBuf (Val := Elt F) v = v := fun _ => rfl
  have of_main_call5_v5 : ∀ u : (⟨S16384x16x1x1, .i32⟩ : BufTy).Contents (Elt F), (TRef.of (T := ⟨S16384x16x1x1, .i32⟩) main_call5_v5).ofBuf (Val := Elt F) u = u := fun _ => rfl
  try simp only [to_main_call5_c, of_main_call5_c, to_main_call5_v0, of_main_call5_v0, to_main_v50, of_main_v50, to_main_call5_v1, of_main_call5_v1, to_main_call5_c_0, of_main_call5_c_0, to_main_call5_v2, of_main_call5_v2, to_main_call5_v3, of_main_call5_v3, to_main_call5_v4, of_main_call5_v4, to_main_call5_v5, of_main_call5_v5]
  try simp only [h_main_v50]
  rfl

theorem pass_15_main_v17 (W : Valuation τ sig (Elt F)) : after ops_15 W (Proc.devRef .tc main_v17) = W (Proc.devRef .tc main_v17) := by
  after_results_simp

theorem pass_15_main_v44 (W : Valuation τ sig (Elt F)) : after ops_15 W (Proc.devRef .tc main_v44) = W (Proc.devRef .tc main_v44) := by
  after_results_simp

theorem pass_15_main_v47 (W : Valuation τ sig (Elt F)) : after ops_15 W (Proc.devRef .tc main_v47) = W (Proc.devRef .tc main_v47) := by
  after_results_simp

attribute [local irreducible] Host.reduce Host.gather val_main_call5_v5 in
theorem res_16_main_call5_v11 (W : Valuation τ sig (Elt F)) (x2 : (⟨S16384x16, .i32⟩ : BufTy).Contents (Elt F)) (h_main_call5_v5 : W (Proc.devRef .tc main_call5_v5) = val_main_call5_v5 (F := F) x2) :
    after ops_16 W (Proc.devRef .tc main_call5_v11) = val_main_call5_v11 (F := F) x2 := by
  after_results_simp
  have to_main_call5_c_1 : ∀ v : (⟨S1, .i32⟩ : BufTy).Contents (Elt F), (TRef.of (T := ⟨S1, .i32⟩) main_call5_c_1).toBuf (Val := Elt F) v = v := fun _ => rfl
  have of_main_call5_c_1 : ∀ u : (⟨S1, .i32⟩ : BufTy).Contents (Elt F), (TRef.of (T := ⟨S1, .i32⟩) main_call5_c_1).ofBuf (Val := Elt F) u = u := fun _ => rfl
  have to_main_call5_c_2 : ∀ v : (⟨S_, .i32⟩ : BufTy).Contents (Elt F), (TRef.of (T := ⟨S_, .i32⟩) main_call5_c_2).toBuf (Val := Elt F) v = v := fun _ => rfl
  have of_main_call5_c_2 : ∀ u : (⟨S_, .i32⟩ : BufTy).Contents (Elt F), (TRef.of (T := ⟨S_, .i32⟩) main_call5_c_2).ofBuf (Val := Elt F) u = u := fun _ => rfl
  have to_main_call5_v6 : ∀ v : (⟨S16384x16x1x1, .i32⟩ : BufTy).Contents (Elt F), (TRef.of (T := ⟨S16384x16x1x1, .i32⟩) main_call5_v6).toBuf (Val := Elt F) v = v := fun _ => rfl
  have of_main_call5_v6 : ∀ u : (⟨S16384x16x1x1, .i32⟩ : BufTy).Contents (Elt F), (TRef.of (T := ⟨S16384x16x1x1, .i32⟩) main_call5_v6).ofBuf (Val := Elt F) u = u := fun _ => rfl
  have to_main_call5_v5 : ∀ v : (⟨S16384x16x1x1, .i32⟩ : BufTy).Contents (Elt F), (TRef.of (T := ⟨S16384x16x1x1, .i32⟩) main_call5_v5).toBuf (Val := Elt F) v = v := fun _ => rfl
  have of_main_call5_v5 : ∀ u : (⟨S16384x16x1x1, .i32⟩ : BufTy).Contents (Elt F), (TRef.of (T := ⟨S16384x16x1x1, .i32⟩) main_call5_v5).ofBuf (Val := Elt F) u = u := fun _ => rfl
  have to_main_call5_v7 : ∀ v : (⟨S16384x16x1x1, .i1⟩ : BufTy).Contents (Elt F), (TRef.of (T := ⟨S16384x16x1x1, .i1⟩) main_call5_v7).toBuf (Val := Elt F) v = v := fun _ => rfl
  have of_main_call5_v7 : ∀ u : (⟨S16384x16x1x1, .i1⟩ : BufTy).Contents (Elt F), (TRef.of (T := ⟨S16384x16x1x1, .i1⟩) main_call5_v7).ofBuf (Val := Elt F) u = u := fun _ => rfl
  have to_main_call5_v8 : ∀ v : (⟨S1x1x1x1, .i32⟩ : BufTy).Contents (Elt F), (TRef.of (T := ⟨S1x1x1x1, .i32⟩) main_call5_v8).toBuf (Val := Elt F) v = v := fun _ => rfl
  have of_main_call5_v8 : ∀ u : (⟨S1x1x1x1, .i32⟩ : BufTy).Contents (Elt F), (TRef.of (T := ⟨S1x1x1x1, .i32⟩) main_call5_v8).ofBuf (Val := Elt F) u = u := fun _ => rfl
  have to_main_call5_v9 : ∀ v : (⟨S16384x16x1x1, .i32⟩ : BufTy).Contents (Elt F), (TRef.of (T := ⟨S16384x16x1x1, .i32⟩) main_call5_v9).toBuf (Val := Elt F) v = v := fun _ => rfl
  have of_main_call5_v9 : ∀ u : (⟨S16384x16x1x1, .i32⟩ : BufTy).Contents (Elt F), (TRef.of (T := ⟨S16384x16x1x1, .i32⟩) main_call5_v9).ofBuf (Val := Elt F) u = u := fun _ => rfl
  have to_main_call5_v10 : ∀ v : (⟨S16384x16x1x1, .i1⟩ : BufTy).Contents (Elt F), (TRef.of (T := ⟨S16384x16x1x1, .i1⟩) main_call5_v10).toBuf (Val := Elt F) v = v := fun _ => rfl
  have of_main_call5_v10 : ∀ u : (⟨S16384x16x1x1, .i1⟩ : BufTy).Contents (Elt F), (TRef.of (T := ⟨S16384x16x1x1, .i1⟩) main_call5_v10).ofBuf (Val := Elt F) u = u := fun _ => rfl
  have to_main_call5_v11 : ∀ v : (⟨S16384x16x1x1, .i1⟩ : BufTy).Contents (Elt F), (TRef.of (T := ⟨S16384x16x1x1, .i1⟩) main_call5_v11).toBuf (Val := Elt F) v = v := fun _ => rfl
  have of_main_call5_v11 : ∀ u : (⟨S16384x16x1x1, .i1⟩ : BufTy).Contents (Elt F), (TRef.of (T := ⟨S16384x16x1x1, .i1⟩) main_call5_v11).ofBuf (Val := Elt F) u = u := fun _ => rfl
  have to_main_call5_c_3 : ∀ v : (⟨S_, .i1⟩ : BufTy).Contents (Elt F), (TRef.of (T := ⟨S_, .i1⟩) main_call5_c_3).toBuf (Val := Elt F) v = v := fun _ => rfl
  have of_main_call5_c_3 : ∀ u : (⟨S_, .i1⟩ : BufTy).Contents (Elt F), (TRef.of (T := ⟨S_, .i1⟩) main_call5_c_3).ofBuf (Val := Elt F) u = u := fun _ => rfl
  try simp only [to_main_call5_c_1, of_main_call5_c_1, to_main_call5_c_2, of_main_call5_c_2, to_main_call5_v6, of_main_call5_v6, to_main_call5_v5, of_main_call5_v5, to_main_call5_v7, of_main_call5_v7, to_main_call5_v8, of_main_call5_v8, to_main_call5_v9, of_main_call5_v9, to_main_call5_v10, of_main_call5_v10, to_main_call5_v11, of_main_call5_v11, to_main_call5_c_3, of_main_call5_c_3]
  try simp only [h_main_call5_v5]
  rfl

attribute [local irreducible] Host.reduce Host.gather val_main_call5_v5 in
theorem res_16_main_call5_c_3 (W : Valuation τ sig (Elt F)) (x2 : (⟨S16384x16, .i32⟩ : BufTy).Contents (Elt F)) (h_main_call5_v5 : W (Proc.devRef .tc main_call5_v5) = val_main_call5_v5 (F := F) x2) :
    after ops_16 W (Proc.devRef .tc main_call5_c_3) = val_main_call5_c_3 (F := F) := by
  after_results_simp
  have to_main_call5_c_1 : ∀ v : (⟨S1, .i32⟩ : BufTy).Contents (Elt F), (TRef.of (T := ⟨S1, .i32⟩) main_call5_c_1).toBuf (Val := Elt F) v = v := fun _ => rfl
  have of_main_call5_c_1 : ∀ u : (⟨S1, .i32⟩ : BufTy).Contents (Elt F), (TRef.of (T := ⟨S1, .i32⟩) main_call5_c_1).ofBuf (Val := Elt F) u = u := fun _ => rfl
  have to_main_call5_c_2 : ∀ v : (⟨S_, .i32⟩ : BufTy).Contents (Elt F), (TRef.of (T := ⟨S_, .i32⟩) main_call5_c_2).toBuf (Val := Elt F) v = v := fun _ => rfl
  have of_main_call5_c_2 : ∀ u : (⟨S_, .i32⟩ : BufTy).Contents (Elt F), (TRef.of (T := ⟨S_, .i32⟩) main_call5_c_2).ofBuf (Val := Elt F) u = u := fun _ => rfl
  have to_main_call5_v6 : ∀ v : (⟨S16384x16x1x1, .i32⟩ : BufTy).Contents (Elt F), (TRef.of (T := ⟨S16384x16x1x1, .i32⟩) main_call5_v6).toBuf (Val := Elt F) v = v := fun _ => rfl
  have of_main_call5_v6 : ∀ u : (⟨S16384x16x1x1, .i32⟩ : BufTy).Contents (Elt F), (TRef.of (T := ⟨S16384x16x1x1, .i32⟩) main_call5_v6).ofBuf (Val := Elt F) u = u := fun _ => rfl
  have to_main_call5_v5 : ∀ v : (⟨S16384x16x1x1, .i32⟩ : BufTy).Contents (Elt F), (TRef.of (T := ⟨S16384x16x1x1, .i32⟩) main_call5_v5).toBuf (Val := Elt F) v = v := fun _ => rfl
  have of_main_call5_v5 : ∀ u : (⟨S16384x16x1x1, .i32⟩ : BufTy).Contents (Elt F), (TRef.of (T := ⟨S16384x16x1x1, .i32⟩) main_call5_v5).ofBuf (Val := Elt F) u = u := fun _ => rfl
  have to_main_call5_v7 : ∀ v : (⟨S16384x16x1x1, .i1⟩ : BufTy).Contents (Elt F), (TRef.of (T := ⟨S16384x16x1x1, .i1⟩) main_call5_v7).toBuf (Val := Elt F) v = v := fun _ => rfl
  have of_main_call5_v7 : ∀ u : (⟨S16384x16x1x1, .i1⟩ : BufTy).Contents (Elt F), (TRef.of (T := ⟨S16384x16x1x1, .i1⟩) main_call5_v7).ofBuf (Val := Elt F) u = u := fun _ => rfl
  have to_main_call5_v8 : ∀ v : (⟨S1x1x1x1, .i32⟩ : BufTy).Contents (Elt F), (TRef.of (T := ⟨S1x1x1x1, .i32⟩) main_call5_v8).toBuf (Val := Elt F) v = v := fun _ => rfl
  have of_main_call5_v8 : ∀ u : (⟨S1x1x1x1, .i32⟩ : BufTy).Contents (Elt F), (TRef.of (T := ⟨S1x1x1x1, .i32⟩) main_call5_v8).ofBuf (Val := Elt F) u = u := fun _ => rfl
  have to_main_call5_v9 : ∀ v : (⟨S16384x16x1x1, .i32⟩ : BufTy).Contents (Elt F), (TRef.of (T := ⟨S16384x16x1x1, .i32⟩) main_call5_v9).toBuf (Val := Elt F) v = v := fun _ => rfl
  have of_main_call5_v9 : ∀ u : (⟨S16384x16x1x1, .i32⟩ : BufTy).Contents (Elt F), (TRef.of (T := ⟨S16384x16x1x1, .i32⟩) main_call5_v9).ofBuf (Val := Elt F) u = u := fun _ => rfl
  have to_main_call5_v10 : ∀ v : (⟨S16384x16x1x1, .i1⟩ : BufTy).Contents (Elt F), (TRef.of (T := ⟨S16384x16x1x1, .i1⟩) main_call5_v10).toBuf (Val := Elt F) v = v := fun _ => rfl
  have of_main_call5_v10 : ∀ u : (⟨S16384x16x1x1, .i1⟩ : BufTy).Contents (Elt F), (TRef.of (T := ⟨S16384x16x1x1, .i1⟩) main_call5_v10).ofBuf (Val := Elt F) u = u := fun _ => rfl
  have to_main_call5_v11 : ∀ v : (⟨S16384x16x1x1, .i1⟩ : BufTy).Contents (Elt F), (TRef.of (T := ⟨S16384x16x1x1, .i1⟩) main_call5_v11).toBuf (Val := Elt F) v = v := fun _ => rfl
  have of_main_call5_v11 : ∀ u : (⟨S16384x16x1x1, .i1⟩ : BufTy).Contents (Elt F), (TRef.of (T := ⟨S16384x16x1x1, .i1⟩) main_call5_v11).ofBuf (Val := Elt F) u = u := fun _ => rfl
  have to_main_call5_c_3 : ∀ v : (⟨S_, .i1⟩ : BufTy).Contents (Elt F), (TRef.of (T := ⟨S_, .i1⟩) main_call5_c_3).toBuf (Val := Elt F) v = v := fun _ => rfl
  have of_main_call5_c_3 : ∀ u : (⟨S_, .i1⟩ : BufTy).Contents (Elt F), (TRef.of (T := ⟨S_, .i1⟩) main_call5_c_3).ofBuf (Val := Elt F) u = u := fun _ => rfl
  try simp only [to_main_call5_c_1, of_main_call5_c_1, to_main_call5_c_2, of_main_call5_c_2, to_main_call5_v6, of_main_call5_v6, to_main_call5_v5, of_main_call5_v5, to_main_call5_v7, of_main_call5_v7, to_main_call5_v8, of_main_call5_v8, to_main_call5_v9, of_main_call5_v9, to_main_call5_v10, of_main_call5_v10, to_main_call5_v11, of_main_call5_v11, to_main_call5_c_3, of_main_call5_c_3]
  try simp only [h_main_call5_v5]
  rfl

theorem pass_16_main_v17 (W : Valuation τ sig (Elt F)) : after ops_16 W (Proc.devRef .tc main_v17) = W (Proc.devRef .tc main_v17) := by
  after_results_simp

theorem pass_16_main_v44 (W : Valuation τ sig (Elt F)) : after ops_16 W (Proc.devRef .tc main_v44) = W (Proc.devRef .tc main_v44) := by
  after_results_simp

theorem pass_16_main_v47 (W : Valuation τ sig (Elt F)) : after ops_16 W (Proc.devRef .tc main_v47) = W (Proc.devRef .tc main_v47) := by
  after_results_simp

theorem pass_16_main_call5_v5 (W : Valuation τ sig (Elt F)) : after ops_16 W (Proc.devRef .tc main_call5_v5) = W (Proc.devRef .tc main_call5_v5) := by
  after_results_simp

attribute [local irreducible] Host.reduce Host.gather val_main_call5_v11 val_main_call5_c_3 in
theorem res_17_main_call5_v12 (W : Valuation τ sig (Elt F)) (x2 : (⟨S16384x16, .i32⟩ : BufTy).Contents (Elt F)) (h_main_call5_v11 : W (Proc.devRef .tc main_call5_v11) = val_main_call5_v11 (F := F) x2) (h_main_call5_c_3 : W (Proc.devRef .tc main_call5_c_3) = val_main_call5_c_3 (F := F)) :
    after ops_17 W (Proc.devRef .tc main_call5_v12) = val_main_call5_v12 (F := F) x2 := by
  after_results_simp
  have to_main_call5_v11 : ∀ v : (⟨S16384x16x1x1, .i1⟩ : BufTy).Contents (Elt F), (TRef.of (T := ⟨S16384x16x1x1, .i1⟩) main_call5_v11).toBuf (Val := Elt F) v = v := fun _ => rfl
  have of_main_call5_v11 : ∀ u : (⟨S16384x16x1x1, .i1⟩ : BufTy).Contents (Elt F), (TRef.of (T := ⟨S16384x16x1x1, .i1⟩) main_call5_v11).ofBuf (Val := Elt F) u = u := fun _ => rfl
  have to_main_call5_c_3 : ∀ v : (⟨S_, .i1⟩ : BufTy).Contents (Elt F), (TRef.of (T := ⟨S_, .i1⟩) main_call5_c_3).toBuf (Val := Elt F) v = v := fun _ => rfl
  have of_main_call5_c_3 : ∀ u : (⟨S_, .i1⟩ : BufTy).Contents (Elt F), (TRef.of (T := ⟨S_, .i1⟩) main_call5_c_3).ofBuf (Val := Elt F) u = u := fun _ => rfl
  have to_main_call5_v12 : ∀ v : (⟨S16384x16x1, .i1⟩ : BufTy).Contents (Elt F), (TRef.of (T := ⟨S16384x16x1, .i1⟩) main_call5_v12).toBuf (Val := Elt F) v = v := fun _ => rfl
  have of_main_call5_v12 : ∀ u : (⟨S16384x16x1, .i1⟩ : BufTy).Contents (Elt F), (TRef.of (T := ⟨S16384x16x1, .i1⟩) main_call5_v12).ofBuf (Val := Elt F) u = u := fun _ => rfl
  try simp only [to_main_call5_v11, of_main_call5_v11, to_main_call5_c_3, of_main_call5_c_3, to_main_call5_v12, of_main_call5_v12]
  try simp only [h_main_call5_v11, h_main_call5_c_3]
  rfl

theorem pass_17_main_v17 (W : Valuation τ sig (Elt F)) : after ops_17 W (Proc.devRef .tc main_v17) = W (Proc.devRef .tc main_v17) := by
  after_results_simp

theorem pass_17_main_v44 (W : Valuation τ sig (Elt F)) : after ops_17 W (Proc.devRef .tc main_v44) = W (Proc.devRef .tc main_v44) := by
  after_results_simp

theorem pass_17_main_v47 (W : Valuation τ sig (Elt F)) : after ops_17 W (Proc.devRef .tc main_v47) = W (Proc.devRef .tc main_v47) := by
  after_results_simp

theorem pass_17_main_call5_v5 (W : Valuation τ sig (Elt F)) : after ops_17 W (Proc.devRef .tc main_call5_v5) = W (Proc.devRef .tc main_call5_v5) := by
  after_results_simp

attribute [local irreducible] Host.reduce Host.gather val_main_v47 val_main_call5_v5 in
theorem res_18_main_call5_v13 (W : Valuation τ sig (Elt F)) (x0 : (⟨S16384x25x7x7, .f32⟩ : BufTy).Contents (Elt F)) (x2 : (⟨S16384x16, .i32⟩ : BufTy).Contents (Elt F)) (x3 : (⟨S16384x16x2, .i32⟩ : BufTy).Contents (Elt F)) (h_main_v47 : W (Proc.devRef .tc main_v47) = val_main_v47 (F := F) x0 x3) (h_main_call5_v5 : W (Proc.devRef .tc main_call5_v5) = val_main_call5_v5 (F := F) x2) :
    after ops_18 W (Proc.devRef .tc main_call5_v13) = val_main_call5_v13 (F := F) x0 x2 x3 := by
  after_results_simp
  have to_main_v47 : ∀ v : (⟨S16384x16x20, .f32⟩ : BufTy).Contents (Elt F), (TRef.of (T := ⟨S16384x16x20, .f32⟩) main_v47).toBuf (Val := Elt F) v = v := fun _ => rfl
  have of_main_v47 : ∀ u : (⟨S16384x16x20, .f32⟩ : BufTy).Contents (Elt F), (TRef.of (T := ⟨S16384x16x20, .f32⟩) main_v47).ofBuf (Val := Elt F) u = u := fun _ => rfl
  have to_main_call5_v5 : ∀ v : (⟨S16384x16x1x1, .i32⟩ : BufTy).Contents (Elt F), (TRef.of (T := ⟨S16384x16x1x1, .i32⟩) main_call5_v5).toBuf (Val := Elt F) v = v := fun _ => rfl
  have of_main_call5_v5 : ∀ u : (⟨S16384x16x1x1, .i32⟩ : BufTy).Contents (Elt F), (TRef.of (T := ⟨S16384x16x1x1, .i32⟩) main_call5_v5).ofBuf (Val := Elt F) u = u := fun _ => rfl
  have to_main_call5_v13 : ∀ v : (⟨S16384x16x1, .f32⟩ : BufTy).Contents (Elt F), (TRef.of (T := ⟨S16384x16x1, .f32⟩) main_call5_v13).toBuf (Val := Elt F) v = v := fun _ => rfl
  have of_main_call5_v13 : ∀ u : (⟨S16384x16x1, .f32⟩ : BufTy).Contents (Elt F), (TRef.of (T := ⟨S16384x16x1, .f32⟩) main_call5_v13).ofBuf (Val := Elt F) u = u := fun _ => rfl
  try simp only [to_main_v47, of_main_v47, to_main_call5_v5, of_main_call5_v5, to_main_call5_v13, of_main_call5_v13]
  try simp only [h_main_v47, h_main_call5_v5]
  rfl

theorem pass_18_main_v17 (W : Valuation τ sig (Elt F)) : after ops_18 W (Proc.devRef .tc main_v17) = W (Proc.devRef .tc main_v17) := by
  after_results_simp

theorem pass_18_main_v44 (W : Valuation τ sig (Elt F)) : after ops_18 W (Proc.devRef .tc main_v44) = W (Proc.devRef .tc main_v44) := by
  after_results_simp

theorem pass_18_main_call5_v12 (W : Valuation τ sig (Elt F)) : after ops_18 W (Proc.devRef .tc main_call5_v12) = W (Proc.devRef .tc main_call5_v12) := by
  after_results_simp

attribute [local irreducible] Host.reduce Host.gather val_main_call5_v12 val_main_call5_v13 in
theorem res_19_main_v55 (W : Valuation τ sig (Elt F)) (x0 : (⟨S16384x25x7x7, .f32⟩ : BufTy).Contents (Elt F)) (x2 : (⟨S16384x16, .i32⟩ : BufTy).Contents (Elt F)) (x3 : (⟨S16384x16x2, .i32⟩ : BufTy).Contents (Elt F)) (h_main_call5_v12 : W (Proc.devRef .tc main_call5_v12) = val_main_call5_v12 (F := F) x2) (h_main_call5_v13 : W (Proc.devRef .tc main_call5_v13) = val_main_call5_v13 (F := F) x0 x2 x3) :
    after ops_19 W (Proc.devRef .tc main_v55) = val_main_v55 (F := F) x0 x2 x3 := by
  after_results_simp
  have to_main_call5_cst : ∀ v : (⟨S_, .f32⟩ : BufTy).Contents (Elt F), (TRef.of (T := ⟨S_, .f32⟩) main_call5_cst).toBuf (Val := Elt F) v = v := fun _ => rfl
  have of_main_call5_cst : ∀ u : (⟨S_, .f32⟩ : BufTy).Contents (Elt F), (TRef.of (T := ⟨S_, .f32⟩) main_call5_cst).ofBuf (Val := Elt F) u = u := fun _ => rfl
  have to_main_call5_v14 : ∀ v : (⟨S16384x16x1, .f32⟩ : BufTy).Contents (Elt F), (TRef.of (T := ⟨S16384x16x1, .f32⟩) main_call5_v14).toBuf (Val := Elt F) v = v := fun _ => rfl
  have of_main_call5_v14 : ∀ u : (⟨S16384x16x1, .f32⟩ : BufTy).Contents (Elt F), (TRef.of (T := ⟨S16384x16x1, .f32⟩) main_call5_v14).ofBuf (Val := Elt F) u = u := fun _ => rfl
  have to_main_call5_v12 : ∀ v : (⟨S16384x16x1, .i1⟩ : BufTy).Contents (Elt F), (TRef.of (T := ⟨S16384x16x1, .i1⟩) main_call5_v12).toBuf (Val := Elt F) v = v := fun _ => rfl
  have of_main_call5_v12 : ∀ u : (⟨S16384x16x1, .i1⟩ : BufTy).Contents (Elt F), (TRef.of (T := ⟨S16384x16x1, .i1⟩) main_call5_v12).ofBuf (Val := Elt F) u = u := fun _ => rfl
  have to_main_call5_v13 : ∀ v : (⟨S16384x16x1, .f32⟩ : BufTy).Contents (Elt F), (TRef.of (T := ⟨S16384x16x1, .f32⟩) main_call5_v13).toBuf (Val := Elt F) v = v := fun _ => rfl
  have of_main_call5_v13 : ∀ u : (⟨S16384x16x1, .f32⟩ : BufTy).Contents (Elt F), (TRef.of (T := ⟨S16384x16x1, .f32⟩) main_call5_v13).ofBuf (Val := Elt F) u = u := fun _ => rfl
  have to_main_v51 : ∀ v : (⟨S16384x16x1, .f32⟩ : BufTy).Contents (Elt F), (TRef.of (T := ⟨S16384x16x1, .f32⟩) main_v51).toBuf (Val := Elt F) v = v := fun _ => rfl
  have of_main_v51 : ∀ u : (⟨S16384x16x1, .f32⟩ : BufTy).Contents (Elt F), (TRef.of (T := ⟨S16384x16x1, .f32⟩) main_v51).ofBuf (Val := Elt F) u = u := fun _ => rfl
  try simp only [to_main_call5_cst, of_main_call5_cst, to_main_call5_v14, of_main_call5_v14, to_main_call5_v12, of_main_call5_v12, to_main_call5_v13, of_main_call5_v13, to_main_v51, of_main_v51]
  try simp only [h_main_call5_v12, h_main_call5_v13]
  rfl

theorem pass_19_main_v17 (W : Valuation τ sig (Elt F)) : after ops_19 W (Proc.devRef .tc main_v17) = W (Proc.devRef .tc main_v17) := by
  after_results_simp

theorem pass_19_main_v44 (W : Valuation τ sig (Elt F)) : after ops_19 W (Proc.devRef .tc main_v44) = W (Proc.devRef .tc main_v44) := by
  after_results_simp

attribute [local irreducible] Host.reduce Host.gather val_main_v17 val_main_v44 val_main_v55 in
theorem res_20_main_v57 (W : Valuation τ sig (Elt F)) (x0 : (⟨S16384x25x7x7, .f32⟩ : BufTy).Contents (Elt F)) (x1 : (⟨S16384x16x4, .f32⟩ : BufTy).Contents (Elt F)) (x2 : (⟨S16384x16, .i32⟩ : BufTy).Contents (Elt F)) (x3 : (⟨S16384x16x2, .i32⟩ : BufTy).Contents (Elt F)) (x4 : (⟨S16384x7x7, .f32⟩ : BufTy).Contents (Elt F)) (h_main_v17 : W (Proc.devRef .tc main_v17) = val_main_v17 (F := F) x0 x4) (h_main_v44 : W (Proc.devRef .tc main_v44) = val_main_v44 (F := F) x0 x1 x3) (h_main_v55 : W (Proc.devRef .tc main_v55) = val_main_v55 (F := F) x0 x2 x3) :
    after ops_20 W (Proc.devRef .tc main_v57) = val_main_v57 (F := F) x0 x1 x2 x3 x4 := by
  after_results_simp
  try simp only [h_main_v17, h_main_v44, h_main_v55]
  rfl

theorem pass_20_main_v17 (W : Valuation τ sig (Elt F)) : after ops_20 W (Proc.devRef .tc main_v17) = W (Proc.devRef .tc main_v17) := by
  after_results_simp

theorem pass_20_main_v44 (W : Valuation τ sig (Elt F)) : after ops_20 W (Proc.devRef .tc main_v44) = W (Proc.devRef .tc main_v44) := by
  after_results_simp

theorem pass_20_main_v55 (W : Valuation τ sig (Elt F)) : after ops_20 W (Proc.devRef .tc main_v55) = W (Proc.devRef .tc main_v55) := by
  after_results_simp

/-! ## The stretches chained from the launch contents -/

variable (V : Valuation τ sig (Elt F))

/-- The buffers' contents after stretches 0 to k. -/
abbrev upTo_0 : Valuation τ sig (Elt F) := after ops_0 V
abbrev upTo_1 : Valuation τ sig (Elt F) := after ops_1 (upTo_0 V)
abbrev upTo_2 : Valuation τ sig (Elt F) := after ops_2 (upTo_1 V)
abbrev upTo_3 : Valuation τ sig (Elt F) := after ops_3 (upTo_2 V)
abbrev upTo_4 : Valuation τ sig (Elt F) := after ops_4 (upTo_3 V)
abbrev upTo_5 : Valuation τ sig (Elt F) := after ops_5 (upTo_4 V)
abbrev upTo_6 : Valuation τ sig (Elt F) := after ops_6 (upTo_5 V)
abbrev upTo_7 : Valuation τ sig (Elt F) := after ops_7 (upTo_6 V)
abbrev upTo_8 : Valuation τ sig (Elt F) := after ops_8 (upTo_7 V)
abbrev upTo_9 : Valuation τ sig (Elt F) := after ops_9 (upTo_8 V)
abbrev upTo_10 : Valuation τ sig (Elt F) := after ops_10 (upTo_9 V)
abbrev upTo_11 : Valuation τ sig (Elt F) := after ops_11 (upTo_10 V)
abbrev upTo_12 : Valuation τ sig (Elt F) := after ops_12 (upTo_11 V)
abbrev upTo_13 : Valuation τ sig (Elt F) := after ops_13 (upTo_12 V)
abbrev upTo_14 : Valuation τ sig (Elt F) := after ops_14 (upTo_13 V)
abbrev upTo_15 : Valuation τ sig (Elt F) := after ops_15 (upTo_14 V)
abbrev upTo_16 : Valuation τ sig (Elt F) := after ops_16 (upTo_15 V)
abbrev upTo_17 : Valuation τ sig (Elt F) := after ops_17 (upTo_16 V)
abbrev upTo_18 : Valuation τ sig (Elt F) := after ops_18 (upTo_17 V)
abbrev upTo_19 : Valuation τ sig (Elt F) := after ops_19 (upTo_18 V)
abbrev upTo_20 : Valuation τ sig (Elt F) := after ops_20 (upTo_19 V)

theorem at_0_main_v2 : upTo_0 V (Proc.devRef .tc main_v2) = val_main_v2 (F := F) (V (Proc.devRef .tc main_arg0)) :=
  res_0_main_v2 V (V (Proc.devRef .tc main_arg0)) rfl

theorem at_0_main_arg0 : upTo_0 V (Proc.devRef .tc main_arg0) = V (Proc.devRef .tc main_arg0) :=
  pass_0_main_arg0 V

theorem at_0_main_arg1 : upTo_0 V (Proc.devRef .tc main_arg1) = V (Proc.devRef .tc main_arg1) :=
  pass_0_main_arg1 V

theorem at_0_main_arg2 : upTo_0 V (Proc.devRef .tc main_arg2) = V (Proc.devRef .tc main_arg2) :=
  pass_0_main_arg2 V

theorem at_0_main_arg3 : upTo_0 V (Proc.devRef .tc main_arg3) = V (Proc.devRef .tc main_arg3) :=
  pass_0_main_arg3 V

theorem at_0_main_arg4 : upTo_0 V (Proc.devRef .tc main_arg4) = V (Proc.devRef .tc main_arg4) :=
  pass_0_main_arg4 V

theorem at_1_main_v3 : upTo_1 V (Proc.devRef .tc main_v3) = val_main_v3 (F := F) (V (Proc.devRef .tc main_arg4)) :=
  res_1_main_v3 (upTo_0 V) (V (Proc.devRef .tc main_arg4)) (at_0_main_arg4 V)

theorem at_1_main_arg0 : upTo_1 V (Proc.devRef .tc main_arg0) = V (Proc.devRef .tc main_arg0) :=
  (pass_1_main_arg0 (upTo_0 V)).trans (at_0_main_arg0 V)

theorem at_1_main_arg1 : upTo_1 V (Proc.devRef .tc main_arg1) = V (Proc.devRef .tc main_arg1) :=
  (pass_1_main_arg1 (upTo_0 V)).trans (at_0_main_arg1 V)

theorem at_1_main_arg2 : upTo_1 V (Proc.devRef .tc main_arg2) = V (Proc.devRef .tc main_arg2) :=
  (pass_1_main_arg2 (upTo_0 V)).trans (at_0_main_arg2 V)

theorem at_1_main_arg3 : upTo_1 V (Proc.devRef .tc main_arg3) = V (Proc.devRef .tc main_arg3) :=
  (pass_1_main_arg3 (upTo_0 V)).trans (at_0_main_arg3 V)

theorem at_1_main_v2 : upTo_1 V (Proc.devRef .tc main_v2) = val_main_v2 (F := F) (V (Proc.devRef .tc main_arg0)) :=
  (pass_1_main_v2 (upTo_0 V)).trans (at_0_main_v2 V)

theorem at_2_main_v17 : upTo_2 V (Proc.devRef .tc main_v17) = val_main_v17 (F := F) (V (Proc.devRef .tc main_arg0)) (V (Proc.devRef .tc main_arg4)) :=
  res_2_main_v17 (upTo_1 V) (V (Proc.devRef .tc main_arg0)) (V (Proc.devRef .tc main_arg4)) (at_1_main_v2 V) (at_1_main_v3 V)

theorem at_2_main_arg0 : upTo_2 V (Proc.devRef .tc main_arg0) = V (Proc.devRef .tc main_arg0) :=
  (pass_2_main_arg0 (upTo_1 V)).trans (at_1_main_arg0 V)

theorem at_2_main_arg1 : upTo_2 V (Proc.devRef .tc main_arg1) = V (Proc.devRef .tc main_arg1) :=
  (pass_2_main_arg1 (upTo_1 V)).trans (at_1_main_arg1 V)

theorem at_2_main_arg2 : upTo_2 V (Proc.devRef .tc main_arg2) = V (Proc.devRef .tc main_arg2) :=
  (pass_2_main_arg2 (upTo_1 V)).trans (at_1_main_arg2 V)

theorem at_2_main_arg3 : upTo_2 V (Proc.devRef .tc main_arg3) = V (Proc.devRef .tc main_arg3) :=
  (pass_2_main_arg3 (upTo_1 V)).trans (at_1_main_arg3 V)

theorem at_3_main_v18 : upTo_3 V (Proc.devRef .tc main_v18) = val_main_v18 (F := F) (V (Proc.devRef .tc main_arg0)) :=
  res_3_main_v18 (upTo_2 V) (V (Proc.devRef .tc main_arg0)) (V (Proc.devRef .tc main_arg3)) (at_2_main_arg0 V) (at_2_main_arg3 V)

theorem at_3_main_v27 : upTo_3 V (Proc.devRef .tc main_v27) = val_main_v27 (F := F) (V (Proc.devRef .tc main_arg3)) :=
  res_3_main_v27 (upTo_2 V) (V (Proc.devRef .tc main_arg0)) (V (Proc.devRef .tc main_arg3)) (at_2_main_arg0 V) (at_2_main_arg3 V)

theorem at_3_main_arg1 : upTo_3 V (Proc.devRef .tc main_arg1) = V (Proc.devRef .tc main_arg1) :=
  (pass_3_main_arg1 (upTo_2 V)).trans (at_2_main_arg1 V)

theorem at_3_main_arg2 : upTo_3 V (Proc.devRef .tc main_arg2) = V (Proc.devRef .tc main_arg2) :=
  (pass_3_main_arg2 (upTo_2 V)).trans (at_2_main_arg2 V)

theorem at_3_main_v17 : upTo_3 V (Proc.devRef .tc main_v17) = val_main_v17 (F := F) (V (Proc.devRef .tc main_arg0)) (V (Proc.devRef .tc main_arg4)) :=
  (pass_3_main_v17 (upTo_2 V)).trans (at_2_main_v17 V)

theorem at_4_main_call2_v5 : upTo_4 V (Proc.devRef .tc main_call2_v5) = val_main_call2_v5 (F := F) (V (Proc.devRef .tc main_arg3)) :=
  res_4_main_call2_v5 (upTo_3 V) (V (Proc.devRef .tc main_arg3)) (at_3_main_v27 V)

theorem at_4_main_arg1 : upTo_4 V (Proc.devRef .tc main_arg1) = V (Proc.devRef .tc main_arg1) :=
  (pass_4_main_arg1 (upTo_3 V)).trans (at_3_main_arg1 V)

theorem at_4_main_arg2 : upTo_4 V (Proc.devRef .tc main_arg2) = V (Proc.devRef .tc main_arg2) :=
  (pass_4_main_arg2 (upTo_3 V)).trans (at_3_main_arg2 V)

theorem at_4_main_v17 : upTo_4 V (Proc.devRef .tc main_v17) = val_main_v17 (F := F) (V (Proc.devRef .tc main_arg0)) (V (Proc.devRef .tc main_arg4)) :=
  (pass_4_main_v17 (upTo_3 V)).trans (at_3_main_v17 V)

theorem at_4_main_v18 : upTo_4 V (Proc.devRef .tc main_v18) = val_main_v18 (F := F) (V (Proc.devRef .tc main_arg0)) :=
  (pass_4_main_v18 (upTo_3 V)).trans (at_3_main_v18 V)

theorem at_5_main_call2_v11 : upTo_5 V (Proc.devRef .tc main_call2_v11) = val_main_call2_v11 (F := F) (V (Proc.devRef .tc main_arg3)) :=
  res_5_main_call2_v11 (upTo_4 V) (V (Proc.devRef .tc main_arg3)) (at_4_main_call2_v5 V)

theorem at_5_main_call2_c_3 : upTo_5 V (Proc.devRef .tc main_call2_c_3) = val_main_call2_c_3 (F := F) :=
  res_5_main_call2_c_3 (upTo_4 V) (V (Proc.devRef .tc main_arg3)) (at_4_main_call2_v5 V)

theorem at_5_main_arg1 : upTo_5 V (Proc.devRef .tc main_arg1) = V (Proc.devRef .tc main_arg1) :=
  (pass_5_main_arg1 (upTo_4 V)).trans (at_4_main_arg1 V)

theorem at_5_main_arg2 : upTo_5 V (Proc.devRef .tc main_arg2) = V (Proc.devRef .tc main_arg2) :=
  (pass_5_main_arg2 (upTo_4 V)).trans (at_4_main_arg2 V)

theorem at_5_main_v17 : upTo_5 V (Proc.devRef .tc main_v17) = val_main_v17 (F := F) (V (Proc.devRef .tc main_arg0)) (V (Proc.devRef .tc main_arg4)) :=
  (pass_5_main_v17 (upTo_4 V)).trans (at_4_main_v17 V)

theorem at_5_main_v18 : upTo_5 V (Proc.devRef .tc main_v18) = val_main_v18 (F := F) (V (Proc.devRef .tc main_arg0)) :=
  (pass_5_main_v18 (upTo_4 V)).trans (at_4_main_v18 V)

theorem at_5_main_call2_v5 : upTo_5 V (Proc.devRef .tc main_call2_v5) = val_main_call2_v5 (F := F) (V (Proc.devRef .tc main_arg3)) :=
  (pass_5_main_call2_v5 (upTo_4 V)).trans (at_4_main_call2_v5 V)

theorem at_6_main_call2_v12 : upTo_6 V (Proc.devRef .tc main_call2_v12) = val_main_call2_v12 (F := F) (V (Proc.devRef .tc main_arg3)) :=
  res_6_main_call2_v12 (upTo_5 V) (V (Proc.devRef .tc main_arg3)) (at_5_main_call2_v11 V) (at_5_main_call2_c_3 V)

theorem at_6_main_arg1 : upTo_6 V (Proc.devRef .tc main_arg1) = V (Proc.devRef .tc main_arg1) :=
  (pass_6_main_arg1 (upTo_5 V)).trans (at_5_main_arg1 V)

theorem at_6_main_arg2 : upTo_6 V (Proc.devRef .tc main_arg2) = V (Proc.devRef .tc main_arg2) :=
  (pass_6_main_arg2 (upTo_5 V)).trans (at_5_main_arg2 V)

theorem at_6_main_v17 : upTo_6 V (Proc.devRef .tc main_v17) = val_main_v17 (F := F) (V (Proc.devRef .tc main_arg0)) (V (Proc.devRef .tc main_arg4)) :=
  (pass_6_main_v17 (upTo_5 V)).trans (at_5_main_v17 V)

theorem at_6_main_v18 : upTo_6 V (Proc.devRef .tc main_v18) = val_main_v18 (F := F) (V (Proc.devRef .tc main_arg0)) :=
  (pass_6_main_v18 (upTo_5 V)).trans (at_5_main_v18 V)

theorem at_6_main_call2_v5 : upTo_6 V (Proc.devRef .tc main_call2_v5) = val_main_call2_v5 (F := F) (V (Proc.devRef .tc main_arg3)) :=
  (pass_6_main_call2_v5 (upTo_5 V)).trans (at_5_main_call2_v5 V)

theorem at_7_main_call2_v13 : upTo_7 V (Proc.devRef .tc main_call2_v13) = val_main_call2_v13 (F := F) (V (Proc.devRef .tc main_arg0)) (V (Proc.devRef .tc main_arg3)) :=
  res_7_main_call2_v13 (upTo_6 V) (V (Proc.devRef .tc main_arg0)) (V (Proc.devRef .tc main_arg3)) (at_6_main_v18 V) (at_6_main_call2_v5 V)

theorem at_7_main_arg1 : upTo_7 V (Proc.devRef .tc main_arg1) = V (Proc.devRef .tc main_arg1) :=
  (pass_7_main_arg1 (upTo_6 V)).trans (at_6_main_arg1 V)

theorem at_7_main_arg2 : upTo_7 V (Proc.devRef .tc main_arg2) = V (Proc.devRef .tc main_arg2) :=
  (pass_7_main_arg2 (upTo_6 V)).trans (at_6_main_arg2 V)

theorem at_7_main_v17 : upTo_7 V (Proc.devRef .tc main_v17) = val_main_v17 (F := F) (V (Proc.devRef .tc main_arg0)) (V (Proc.devRef .tc main_arg4)) :=
  (pass_7_main_v17 (upTo_6 V)).trans (at_6_main_v17 V)

theorem at_7_main_call2_v12 : upTo_7 V (Proc.devRef .tc main_call2_v12) = val_main_call2_v12 (F := F) (V (Proc.devRef .tc main_arg3)) :=
  (pass_7_main_call2_v12 (upTo_6 V)).trans (at_6_main_call2_v12 V)

theorem at_8_main_v28 : upTo_8 V (Proc.devRef .tc main_v28) = val_main_v28 (F := F) (V (Proc.devRef .tc main_arg0)) (V (Proc.devRef .tc main_arg3)) :=
  res_8_main_v28 (upTo_7 V) (V (Proc.devRef .tc main_arg0)) (V (Proc.devRef .tc main_arg3)) (at_7_main_call2_v12 V) (at_7_main_call2_v13 V)

theorem at_8_main_arg1 : upTo_8 V (Proc.devRef .tc main_arg1) = V (Proc.devRef .tc main_arg1) :=
  (pass_8_main_arg1 (upTo_7 V)).trans (at_7_main_arg1 V)

theorem at_8_main_arg2 : upTo_8 V (Proc.devRef .tc main_arg2) = V (Proc.devRef .tc main_arg2) :=
  (pass_8_main_arg2 (upTo_7 V)).trans (at_7_main_arg2 V)

theorem at_8_main_v17 : upTo_8 V (Proc.devRef .tc main_v17) = val_main_v17 (F := F) (V (Proc.devRef .tc main_arg0)) (V (Proc.devRef .tc main_arg4)) :=
  (pass_8_main_v17 (upTo_7 V)).trans (at_7_main_v17 V)

theorem at_9_main_v44 : upTo_9 V (Proc.devRef .tc main_v44) = val_main_v44 (F := F) (V (Proc.devRef .tc main_arg0)) (V (Proc.devRef .tc main_arg1)) (V (Proc.devRef .tc main_arg3)) :=
  res_9_main_v44 (upTo_8 V) (V (Proc.devRef .tc main_arg0)) (V (Proc.devRef .tc main_arg1)) (V (Proc.devRef .tc main_arg3)) (at_8_main_v28 V) (at_8_main_arg1 V)

theorem at_9_main_arg2 : upTo_9 V (Proc.devRef .tc main_arg2) = V (Proc.devRef .tc main_arg2) :=
  (pass_9_main_arg2 (upTo_8 V)).trans (at_8_main_arg2 V)

theorem at_9_main_v17 : upTo_9 V (Proc.devRef .tc main_v17) = val_main_v17 (F := F) (V (Proc.devRef .tc main_arg0)) (V (Proc.devRef .tc main_arg4)) :=
  (pass_9_main_v17 (upTo_8 V)).trans (at_8_main_v17 V)

theorem at_9_main_v28 : upTo_9 V (Proc.devRef .tc main_v28) = val_main_v28 (F := F) (V (Proc.devRef .tc main_arg0)) (V (Proc.devRef .tc main_arg3)) :=
  (pass_9_main_v28 (upTo_8 V)).trans (at_8_main_v28 V)

theorem at_10_main_v46 : upTo_10 V (Proc.devRef .tc main_v46) = val_main_v46 (F := F) (V (Proc.devRef .tc main_arg0)) (V (Proc.devRef .tc main_arg3)) :=
  res_10_main_v46 (upTo_9 V) (V (Proc.devRef .tc main_arg0)) (V (Proc.devRef .tc main_arg3)) (at_9_main_v28 V)

theorem at_10_main_arg2 : upTo_10 V (Proc.devRef .tc main_arg2) = V (Proc.devRef .tc main_arg2) :=
  (pass_10_main_arg2 (upTo_9 V)).trans (at_9_main_arg2 V)

theorem at_10_main_v17 : upTo_10 V (Proc.devRef .tc main_v17) = val_main_v17 (F := F) (V (Proc.devRef .tc main_arg0)) (V (Proc.devRef .tc main_arg4)) :=
  (pass_10_main_v17 (upTo_9 V)).trans (at_9_main_v17 V)

theorem at_10_main_v44 : upTo_10 V (Proc.devRef .tc main_v44) = val_main_v44 (F := F) (V (Proc.devRef .tc main_arg0)) (V (Proc.devRef .tc main_arg1)) (V (Proc.devRef .tc main_arg3)) :=
  (pass_10_main_v44 (upTo_9 V)).trans (at_9_main_v44 V)

theorem at_11_main_call4_cst : upTo_11 V (Proc.devRef .tc main_call4_cst) = val_main_call4_cst (F := F) :=
  res_11_main_call4_cst (upTo_10 V)

theorem at_11_main_arg2 : upTo_11 V (Proc.devRef .tc main_arg2) = V (Proc.devRef .tc main_arg2) :=
  (pass_11_main_arg2 (upTo_10 V)).trans (at_10_main_arg2 V)

theorem at_11_main_v17 : upTo_11 V (Proc.devRef .tc main_v17) = val_main_v17 (F := F) (V (Proc.devRef .tc main_arg0)) (V (Proc.devRef .tc main_arg4)) :=
  (pass_11_main_v17 (upTo_10 V)).trans (at_10_main_v17 V)

theorem at_11_main_v44 : upTo_11 V (Proc.devRef .tc main_v44) = val_main_v44 (F := F) (V (Proc.devRef .tc main_arg0)) (V (Proc.devRef .tc main_arg1)) (V (Proc.devRef .tc main_arg3)) :=
  (pass_11_main_v44 (upTo_10 V)).trans (at_10_main_v44 V)

theorem at_11_main_v46 : upTo_11 V (Proc.devRef .tc main_v46) = val_main_v46 (F := F) (V (Proc.devRef .tc main_arg0)) (V (Proc.devRef .tc main_arg3)) :=
  (pass_11_main_v46 (upTo_10 V)).trans (at_10_main_v46 V)

theorem at_12_main_call4_v0 : upTo_12 V (Proc.devRef .tc main_call4_v0) = val_main_call4_v0 (F := F) (V (Proc.devRef .tc main_arg0)) (V (Proc.devRef .tc main_arg3)) :=
  res_12_main_call4_v0 (upTo_11 V) (V (Proc.devRef .tc main_arg0)) (V (Proc.devRef .tc main_arg3)) (at_11_main_v46 V) (at_11_main_call4_cst V)

theorem at_12_main_arg2 : upTo_12 V (Proc.devRef .tc main_arg2) = V (Proc.devRef .tc main_arg2) :=
  (pass_12_main_arg2 (upTo_11 V)).trans (at_11_main_arg2 V)

theorem at_12_main_v17 : upTo_12 V (Proc.devRef .tc main_v17) = val_main_v17 (F := F) (V (Proc.devRef .tc main_arg0)) (V (Proc.devRef .tc main_arg4)) :=
  (pass_12_main_v17 (upTo_11 V)).trans (at_11_main_v17 V)

theorem at_12_main_v44 : upTo_12 V (Proc.devRef .tc main_v44) = val_main_v44 (F := F) (V (Proc.devRef .tc main_arg0)) (V (Proc.devRef .tc main_arg1)) (V (Proc.devRef .tc main_arg3)) :=
  (pass_12_main_v44 (upTo_11 V)).trans (at_11_main_v44 V)

theorem at_12_main_v46 : upTo_12 V (Proc.devRef .tc main_v46) = val_main_v46 (F := F) (V (Proc.devRef .tc main_arg0)) (V (Proc.devRef .tc main_arg3)) :=
  (pass_12_main_v46 (upTo_11 V)).trans (at_11_main_v46 V)

theorem at_13_main_call4_v5 : upTo_13 V (Proc.devRef .tc main_call4_v5) = val_main_call4_v5 (F := F) (V (Proc.devRef .tc main_arg0)) (V (Proc.devRef .tc main_arg3)) :=
  res_13_main_call4_v5 (upTo_12 V) (V (Proc.devRef .tc main_arg0)) (V (Proc.devRef .tc main_arg3)) (at_12_main_call4_v0 V) (at_12_main_v46 V)

theorem at_13_main_arg2 : upTo_13 V (Proc.devRef .tc main_arg2) = V (Proc.devRef .tc main_arg2) :=
  (pass_13_main_arg2 (upTo_12 V)).trans (at_12_main_arg2 V)

theorem at_13_main_v17 : upTo_13 V (Proc.devRef .tc main_v17) = val_main_v17 (F := F) (V (Proc.devRef .tc main_arg0)) (V (Proc.devRef .tc main_arg4)) :=
  (pass_13_main_v17 (upTo_12 V)).trans (at_12_main_v17 V)

theorem at_13_main_v44 : upTo_13 V (Proc.devRef .tc main_v44) = val_main_v44 (F := F) (V (Proc.devRef .tc main_arg0)) (V (Proc.devRef .tc main_arg1)) (V (Proc.devRef .tc main_arg3)) :=
  (pass_13_main_v44 (upTo_12 V)).trans (at_12_main_v44 V)

theorem at_14_main_v47 : upTo_14 V (Proc.devRef .tc main_v47) = val_main_v47 (F := F) (V (Proc.devRef .tc main_arg0)) (V (Proc.devRef .tc main_arg3)) :=
  res_14_main_v47 (upTo_13 V) (V (Proc.devRef .tc main_arg0)) (V (Proc.devRef .tc main_arg2)) (V (Proc.devRef .tc main_arg3)) (at_13_main_call4_v5 V) (at_13_main_arg2 V)

theorem at_14_main_v50 : upTo_14 V (Proc.devRef .tc main_v50) = val_main_v50 (F := F) (V (Proc.devRef .tc main_arg2)) :=
  res_14_main_v50 (upTo_13 V) (V (Proc.devRef .tc main_arg0)) (V (Proc.devRef .tc main_arg2)) (V (Proc.devRef .tc main_arg3)) (at_13_main_call4_v5 V) (at_13_main_arg2 V)

theorem at_14_main_v17 : upTo_14 V (Proc.devRef .tc main_v17) = val_main_v17 (F := F) (V (Proc.devRef .tc main_arg0)) (V (Proc.devRef .tc main_arg4)) :=
  (pass_14_main_v17 (upTo_13 V)).trans (at_13_main_v17 V)

theorem at_14_main_v44 : upTo_14 V (Proc.devRef .tc main_v44) = val_main_v44 (F := F) (V (Proc.devRef .tc main_arg0)) (V (Proc.devRef .tc main_arg1)) (V (Proc.devRef .tc main_arg3)) :=
  (pass_14_main_v44 (upTo_13 V)).trans (at_13_main_v44 V)

theorem at_15_main_call5_v5 : upTo_15 V (Proc.devRef .tc main_call5_v5) = val_main_call5_v5 (F := F) (V (Proc.devRef .tc main_arg2)) :=
  res_15_main_call5_v5 (upTo_14 V) (V (Proc.devRef .tc main_arg2)) (at_14_main_v50 V)

theorem at_15_main_v17 : upTo_15 V (Proc.devRef .tc main_v17) = val_main_v17 (F := F) (V (Proc.devRef .tc main_arg0)) (V (Proc.devRef .tc main_arg4)) :=
  (pass_15_main_v17 (upTo_14 V)).trans (at_14_main_v17 V)

theorem at_15_main_v44 : upTo_15 V (Proc.devRef .tc main_v44) = val_main_v44 (F := F) (V (Proc.devRef .tc main_arg0)) (V (Proc.devRef .tc main_arg1)) (V (Proc.devRef .tc main_arg3)) :=
  (pass_15_main_v44 (upTo_14 V)).trans (at_14_main_v44 V)

theorem at_15_main_v47 : upTo_15 V (Proc.devRef .tc main_v47) = val_main_v47 (F := F) (V (Proc.devRef .tc main_arg0)) (V (Proc.devRef .tc main_arg3)) :=
  (pass_15_main_v47 (upTo_14 V)).trans (at_14_main_v47 V)

theorem at_16_main_call5_v11 : upTo_16 V (Proc.devRef .tc main_call5_v11) = val_main_call5_v11 (F := F) (V (Proc.devRef .tc main_arg2)) :=
  res_16_main_call5_v11 (upTo_15 V) (V (Proc.devRef .tc main_arg2)) (at_15_main_call5_v5 V)

theorem at_16_main_call5_c_3 : upTo_16 V (Proc.devRef .tc main_call5_c_3) = val_main_call5_c_3 (F := F) :=
  res_16_main_call5_c_3 (upTo_15 V) (V (Proc.devRef .tc main_arg2)) (at_15_main_call5_v5 V)

theorem at_16_main_v17 : upTo_16 V (Proc.devRef .tc main_v17) = val_main_v17 (F := F) (V (Proc.devRef .tc main_arg0)) (V (Proc.devRef .tc main_arg4)) :=
  (pass_16_main_v17 (upTo_15 V)).trans (at_15_main_v17 V)

theorem at_16_main_v44 : upTo_16 V (Proc.devRef .tc main_v44) = val_main_v44 (F := F) (V (Proc.devRef .tc main_arg0)) (V (Proc.devRef .tc main_arg1)) (V (Proc.devRef .tc main_arg3)) :=
  (pass_16_main_v44 (upTo_15 V)).trans (at_15_main_v44 V)

theorem at_16_main_v47 : upTo_16 V (Proc.devRef .tc main_v47) = val_main_v47 (F := F) (V (Proc.devRef .tc main_arg0)) (V (Proc.devRef .tc main_arg3)) :=
  (pass_16_main_v47 (upTo_15 V)).trans (at_15_main_v47 V)

theorem at_16_main_call5_v5 : upTo_16 V (Proc.devRef .tc main_call5_v5) = val_main_call5_v5 (F := F) (V (Proc.devRef .tc main_arg2)) :=
  (pass_16_main_call5_v5 (upTo_15 V)).trans (at_15_main_call5_v5 V)

theorem at_17_main_call5_v12 : upTo_17 V (Proc.devRef .tc main_call5_v12) = val_main_call5_v12 (F := F) (V (Proc.devRef .tc main_arg2)) :=
  res_17_main_call5_v12 (upTo_16 V) (V (Proc.devRef .tc main_arg2)) (at_16_main_call5_v11 V) (at_16_main_call5_c_3 V)

theorem at_17_main_v17 : upTo_17 V (Proc.devRef .tc main_v17) = val_main_v17 (F := F) (V (Proc.devRef .tc main_arg0)) (V (Proc.devRef .tc main_arg4)) :=
  (pass_17_main_v17 (upTo_16 V)).trans (at_16_main_v17 V)

theorem at_17_main_v44 : upTo_17 V (Proc.devRef .tc main_v44) = val_main_v44 (F := F) (V (Proc.devRef .tc main_arg0)) (V (Proc.devRef .tc main_arg1)) (V (Proc.devRef .tc main_arg3)) :=
  (pass_17_main_v44 (upTo_16 V)).trans (at_16_main_v44 V)

theorem at_17_main_v47 : upTo_17 V (Proc.devRef .tc main_v47) = val_main_v47 (F := F) (V (Proc.devRef .tc main_arg0)) (V (Proc.devRef .tc main_arg3)) :=
  (pass_17_main_v47 (upTo_16 V)).trans (at_16_main_v47 V)

theorem at_17_main_call5_v5 : upTo_17 V (Proc.devRef .tc main_call5_v5) = val_main_call5_v5 (F := F) (V (Proc.devRef .tc main_arg2)) :=
  (pass_17_main_call5_v5 (upTo_16 V)).trans (at_16_main_call5_v5 V)

theorem at_18_main_call5_v13 : upTo_18 V (Proc.devRef .tc main_call5_v13) = val_main_call5_v13 (F := F) (V (Proc.devRef .tc main_arg0)) (V (Proc.devRef .tc main_arg2)) (V (Proc.devRef .tc main_arg3)) :=
  res_18_main_call5_v13 (upTo_17 V) (V (Proc.devRef .tc main_arg0)) (V (Proc.devRef .tc main_arg2)) (V (Proc.devRef .tc main_arg3)) (at_17_main_v47 V) (at_17_main_call5_v5 V)

theorem at_18_main_v17 : upTo_18 V (Proc.devRef .tc main_v17) = val_main_v17 (F := F) (V (Proc.devRef .tc main_arg0)) (V (Proc.devRef .tc main_arg4)) :=
  (pass_18_main_v17 (upTo_17 V)).trans (at_17_main_v17 V)

theorem at_18_main_v44 : upTo_18 V (Proc.devRef .tc main_v44) = val_main_v44 (F := F) (V (Proc.devRef .tc main_arg0)) (V (Proc.devRef .tc main_arg1)) (V (Proc.devRef .tc main_arg3)) :=
  (pass_18_main_v44 (upTo_17 V)).trans (at_17_main_v44 V)

theorem at_18_main_call5_v12 : upTo_18 V (Proc.devRef .tc main_call5_v12) = val_main_call5_v12 (F := F) (V (Proc.devRef .tc main_arg2)) :=
  (pass_18_main_call5_v12 (upTo_17 V)).trans (at_17_main_call5_v12 V)

theorem at_19_main_v55 : upTo_19 V (Proc.devRef .tc main_v55) = val_main_v55 (F := F) (V (Proc.devRef .tc main_arg0)) (V (Proc.devRef .tc main_arg2)) (V (Proc.devRef .tc main_arg3)) :=
  res_19_main_v55 (upTo_18 V) (V (Proc.devRef .tc main_arg0)) (V (Proc.devRef .tc main_arg2)) (V (Proc.devRef .tc main_arg3)) (at_18_main_call5_v12 V) (at_18_main_call5_v13 V)

theorem at_19_main_v17 : upTo_19 V (Proc.devRef .tc main_v17) = val_main_v17 (F := F) (V (Proc.devRef .tc main_arg0)) (V (Proc.devRef .tc main_arg4)) :=
  (pass_19_main_v17 (upTo_18 V)).trans (at_18_main_v17 V)

theorem at_19_main_v44 : upTo_19 V (Proc.devRef .tc main_v44) = val_main_v44 (F := F) (V (Proc.devRef .tc main_arg0)) (V (Proc.devRef .tc main_arg1)) (V (Proc.devRef .tc main_arg3)) :=
  (pass_19_main_v44 (upTo_18 V)).trans (at_18_main_v44 V)

theorem at_20_main_v57 : upTo_20 V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) :=
  res_20_main_v57 (upTo_19 V) (V (Proc.devRef .tc main_arg0)) (V (Proc.devRef .tc main_arg1)) (V (Proc.devRef .tc main_arg2)) (V (Proc.devRef .tc main_arg3)) (V (Proc.devRef .tc main_arg4)) (at_19_main_v17 V) (at_19_main_v44 V) (at_19_main_v55 V)

theorem at_20_main_v17 : upTo_20 V (Proc.devRef .tc main_v17) = val_main_v17 (F := F) (V (Proc.devRef .tc main_arg0)) (V (Proc.devRef .tc main_arg4)) :=
  (pass_20_main_v17 (upTo_19 V)).trans (at_19_main_v17 V)

theorem at_20_main_v44 : upTo_20 V (Proc.devRef .tc main_v44) = val_main_v44 (F := F) (V (Proc.devRef .tc main_arg0)) (V (Proc.devRef .tc main_arg1)) (V (Proc.devRef .tc main_arg3)) :=
  (pass_20_main_v44 (upTo_19 V)).trans (at_19_main_v44 V)

theorem at_20_main_v55 : upTo_20 V (Proc.devRef .tc main_v55) = val_main_v55 (F := F) (V (Proc.devRef .tc main_arg0)) (V (Proc.devRef .tc main_arg2)) (V (Proc.devRef .tc main_arg3)) :=
  (pass_20_main_v55 (upTo_19 V)).trans (at_19_main_v55 V)

/-- After the whole line the buffers hold what they hold after the last stretch. -/
theorem after_ops : after ops V = upTo_20 V := by
  rw [ops_split]
  simp only [StableHlo.after_append]

/-! ## The four results -/

theorem stage_main_v57 : after ops V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) := by
  rw [after_ops]
  exact at_20_main_v57 V

theorem stage_main_v17 : after ops V (Proc.devRef .tc main_v17) = val_main_v17 (F := F) (V (Proc.devRef .tc main_arg0)) (V (Proc.devRef .tc main_arg4)) := by
  rw [after_ops]
  exact at_20_main_v17 V

theorem stage_main_v44 : after ops V (Proc.devRef .tc main_v44) = val_main_v44 (F := F) (V (Proc.devRef .tc main_arg0)) (V (Proc.devRef .tc main_arg1)) (V (Proc.devRef .tc main_arg3)) := by
  rw [after_ops]
  exact at_20_main_v44 V

theorem stage_main_v55 : after ops V (Proc.devRef .tc main_v55) = val_main_v55 (F := F) (V (Proc.devRef .tc main_arg0)) (V (Proc.devRef .tc main_arg2)) (V (Proc.devRef .tc main_arg3)) := by
  rw [after_ops]
  exact at_20_main_v55 V

end Cert.ReferenceIdeal.Line

end
-- ==== Proof.RefLine.lean ====
/-
  The reference's run, read: every weakly fair execution of its straight line terminates with the four results at
  their stage functions of the arguments — the line read stretch by stretch — and the arguments, which no operation
  writes, unchanged.
-/
import proofs.«418083_j22368189678034_3_alg».proof.Proof.RefStages

noncomputable section

namespace Cert.ReferenceIdeal.Line

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- No operation of the line writes an argument. -/
theorem keep_arg0 (V : Valuation τ sig (Elt F)) : after ops V (Proc.devRef .tc main_arg0) = V (Proc.devRef .tc main_arg0) := by
  after_results_simp
theorem keep_arg1 (V : Valuation τ sig (Elt F)) : after ops V (Proc.devRef .tc main_arg1) = V (Proc.devRef .tc main_arg1) := by
  after_results_simp
theorem keep_arg2 (V : Valuation τ sig (Elt F)) : after ops V (Proc.devRef .tc main_arg2) = V (Proc.devRef .tc main_arg2) := by
  after_results_simp
theorem keep_arg3 (V : Valuation τ sig (Elt F)) : after ops V (Proc.devRef .tc main_arg3) = V (Proc.devRef .tc main_arg3) := by
  after_results_simp
theorem keep_arg4 (V : Valuation τ sig (Elt F)) : after ops V (Proc.devRef .tc main_arg4) = V (Proc.devRef .tc main_arg4) := by
  after_results_simp

/-- The run with its results named by the stage functions. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v17) = val_main_v17 (F := F) (m ((c.tc : Thread nD τ).loc main_arg0)) (m ((c.tc : Thread nD τ).loc main_arg4))
      ∧ r.2.mem ((c.tc : Thread nD τ).loc main_v44) = val_main_v44 (F := F) (m ((c.tc : Thread nD τ).loc main_arg0)) (m ((c.tc : Thread nD τ).loc main_arg1)) (m ((c.tc : Thread nD τ).loc main_arg3))
      ∧ r.2.mem ((c.tc : Thread nD τ).loc main_v55) = val_main_v55 (F := F) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v57).trans (stage_main_v57 (launchContents m c)),
      (h c main_v17).trans (stage_main_v17 (launchContents m c)),
      (h c main_v44).trans (stage_main_v44 (launchContents m c)),
      (h c main_v55).trans (stage_main_v55 (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c))⟩)
    (run_line m ρ)

end Cert.ReferenceIdeal.Line

end
-- ==== Proof.RefCel.lean ====
/-
  The reference's objectness loss: channel 0 of the output, sliced and flattened to 49 cells per image, against the
  flattened targets; the clamped cross-entropies summed over all 16384·49 cells, divided by their number and negated.
  Negating a quotient is dividing the negation, so this is the objectness loss as the specification writes it.
-/
import proofs.«418083_j22368189678034_3_alg».proof.Proof.RefRead
import proofs.«418083_j22368189678034_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Yolo

/-- Channel 0 of the outputs, sliced and flattened twice, read at image b and flat cell g. -/
private theorem v2_at (x0 : (⟨S16384x25x7x7, .f32⟩ : BufTy).Contents (Elt Ideal)) (b : Fin 16384) (g : Fin 49) :
    val_main_v2 (F := Ideal) x0 (ix2 b g) = flatOut x0 b 0 g := by
  rw [val_main_v2_apply, val_main_v1_apply, val_main_v0_apply]
  unfold flatOut
  refine congrArg x0 (funext fun a => Fin.ext ?_)
  have hg := g.isLt
  match a with
  | ⟨0, _⟩ => show (((b.val * 49 + g.val) / 49 * 7 + (b.val * 49 + g.val) / 7 % 7) * 7 + (b.val * 49 + g.val) % 7) / 49 = b.val; omega
  | ⟨1, _⟩ => rfl
  | ⟨2, _⟩ => show (((b.val * 49 + g.val) / 49 * 7 + (b.val * 49 + g.val) / 7 % 7) * 7 + (b.val * 49 + g.val) % 7) / 7 % 7 = g.val / 7; omega
  | ⟨3, _⟩ => show (((b.val * 49 + g.val) / 49 * 7 + (b.val * 49 + g.val) / 7 % 7) * 7 + (b.val * 49 + g.val) % 7) % 7 = g.val % 7; omega

/-- The targets flattened, read at image b and flat cell g. -/
private theorem v3_at (x4 : (⟨S16384x7x7, .f32⟩ : BufTy).Contents (Elt Ideal)) (b : Fin 16384) (g : Fin 49) :
    val_main_v3 (F := Ideal) x4 (ix2 b g) = flatObj x4 b g := by
  rw [val_main_v3_apply]
  unfold flatObj
  refine congrArg x4 (funext fun a => Fin.ext ?_)
  have hg := g.isLt
  match a with
  | ⟨0, _⟩ => show (b.val * 49 + g.val) / 49 = b.val; omega
  | ⟨1, _⟩ => show (b.val * 49 + g.val) / 7 % 7 = g.val / 7; omega
  | ⟨2, _⟩ => show (b.val * 49 + g.val) % 7 = g.val % 7; omega

/-- One cell's summand is the clamped cross-entropy of its probability against its target. -/
private theorem v14_at (x0 : (⟨S16384x25x7x7, .f32⟩ : BufTy).Contents (Elt Ideal)) (x4 : (⟨S16384x7x7, .f32⟩ : BufTy).Contents (Elt Ideal))
    (i : S16384x49.Idx) :
    val_main_v14 (F := Ideal) x0 x4 i = bce (val_main_v2 (F := Ideal) x0 i) (val_main_v3 (F := Ideal) x4 i) := rfl

/-- The reference's second result is the objectness loss. -/
theorem v17_eq (x0 : (⟨S16384x25x7x7, .f32⟩ : BufTy).Contents (Elt Ideal)) (x4 : (⟨S16384x7x7, .f32⟩ : BufTy).Contents (Elt Ideal)) :
    val_main_v17 (F := Ideal) x0 x4 ix0 = celLoss x0 x4 := by
  rw [val_main_v17_apply, val_main_v16_apply, val_main_v15_apply, val_main_cst_3_apply, val_main_cst_4_apply]
  simp only [Ideal.hostNegf_def, Ideal.negf_def, Ideal.hostDivf_def, Ideal.ofBits_def, Ideal.ofBits_zero_f32, zero_add]
  unfold celLoss celSum rowCel
  have hs : ∑ j, val_main_v14 (F := Ideal) x0 x4 j
      = ∑ b : Fin 16384, ∑ g : Fin 49, bce (flatOut x0 b 0 g) (flatObj x4 b g) := by
    rw [sum_idx2]
    refine Finset.sum_congr rfl fun b _ => Finset.sum_congr rfl fun g _ => ?_
    rw [v14_at, v2_at, v3_at]
  have hw : (Ideal.ofBits .f32 0x49440000#32 : EReal) = ((802816 : ℝ) : EReal) := by
    simp [Ideal.ofBits, Ideal.ieee]
    rw [← EReal.coe_mul]
    exact congrArg (fun r : ℝ => (r : EReal)) (by norm_num)
  show -Ideal.div _ (Ideal.ofBits .f32 0x49440000#32)
    = Ideal.div (-∑ b : Fin 16384, ∑ g : Fin 49, bce (flatOut x0 b 0 g) (flatObj x4 b g)) (Ideal.ofBits .f32 0x49440000#32)
  rw [hs, hw, Ideal.div_coe (by norm_num), Ideal.div_coe (by norm_num), neg_mul]

end Cert.ReferenceIdeal.RefValue

end
-- ==== Proof.RefGather.lean ====
/-
  The reference's gather along the 49 cells: the flat-cell word 7·y + x of each box, made non-negative by adding 49
  when it is negative, indexes the flattened output; an index outside 0..48 would read a fill value instead.  When the
  word is the 32-bit word of a cell, the wrap does nothing, the range test passes, and the gathered value at
  (image b, channel c, box n) is the output of image b, channel c at that cell.
-/
import proofs.«418083_j22368189678034_3_alg».proof.Proof.RefRead
import proofs.«418083_j22368189678034_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.Read Cert.Yolo
open Idealize.ShloMosaic.StableHlo.Predicate

/-! ## A cell's 32-bit word: small, non-negative, and its own value -/

private theorem cell_toNat (g : Fin 49) : (BitVec.ofNat 32 g.val).toNat = g.val := by
  rw [BitVec.toNat_ofNat]; exact Nat.mod_eq_of_lt (by have := g.isLt; omega)

/-- A cell's word is not negative as a signed word. -/
private theorem cell_not_neg (g : Fin 49) : IntOp.cmpi .slt (BitVec.ofNat 32 g.val) 0#32 = 0#1 :=
  eq_zero_of_ne_one fun e => by
    have h := (slt_iff_toNat (a := BitVec.ofNat 32 g.val) (b := 0#32)
      (by rw [cell_toNat]; have := g.isLt; omega) (by decide)).mp e
    rw [cell_toNat] at h
    exact absurd h (by show ¬ g.val < 0; omega)

/-- A cell's word is at least zero … -/
private theorem cell_ge (g : Fin 49) : IntOp.cmpi .sge (BitVec.ofNat 32 g.val) 0#32 = 1#1 :=
  (sge_iff_toNat (a := BitVec.ofNat 32 g.val) (b := 0#32)
    (by rw [cell_toNat]; have := g.isLt; omega) (by decide)).mpr (by show 0 ≤ _; omega)

/-- … and at most 48. -/
private theorem cell_le (g : Fin 49) : IntOp.cmpi .sle (BitVec.ofNat 32 g.val) 48#32 = 1#1 :=
  (sle_iff_toNat (a := BitVec.ofNat 32 g.val) (b := 48#32)
    (by rw [cell_toNat]; have := g.isLt; omega) (by decide)).mpr (by
      rw [cell_toNat]; show g.val ≤ 48; have := g.isLt; omega)

/-- Read as a signed integer it is the cell's number. -/
private theorem cell_toInt (g : Fin 49) : (BitVec.ofNat 32 g.val).toInt.toNat = g.val := by
  rw [toInt_ofNat_small g.val (by have := g.isLt; omega)]; exact Int.toNat_natCast _

/-! ## The index word, broadcast over the channels -/

/-- The index array at (b, c, n) is the flat-cell word of box n of image b, whatever the channel. -/
private theorem word_apply (x3 : (⟨S16384x16x2, .i32⟩ : BufTy).Contents (Elt Ideal)) (b : Fin 16384) (c : Fin 25) (n : Fin 16) :
    val_main_v27 (F := Ideal) x3 (ix3 b c n) = cellWord x3 b n := by
  have e27 : idx_main_v27 (ix3 b c n) = ix3 b (0 : Fin 1) n := funext fun a => Fin.ext (by
    match a with
    | ⟨0, _⟩ => rfl
    | ⟨1, _⟩ => rfl
    | ⟨2, _⟩ => rfl)
  have e26 : idx_main_v26 (ix3 b (0 : Fin 1) n) = ix2 b n := funext fun a => Fin.ext (by
    match a with
    | ⟨0, _⟩ => rfl
    | ⟨1, _⟩ => rfl)
  have e20 : idx_main_v20 (ix2 b n) = ix3 b n (0 : Fin 1) := funext fun a => Fin.ext (by
    match a with
    | ⟨0, _⟩ => show (b.val * 16 + n.val) / 16 = b.val; omega
    | ⟨1, _⟩ => show (b.val * 16 + n.val) / 1 % 16 = n.val; omega
    | ⟨2, _⟩ => rfl)
  have e24 : idx_main_v24 (ix2 b n) = ix3 b n (0 : Fin 1) := funext fun a => Fin.ext (by
    match a with
    | ⟨0, _⟩ => show (b.val * 16 + n.val) / 16 = b.val; omega
    | ⟨1, _⟩ => show (b.val * 16 + n.val) / 1 % 16 = n.val; omega
    | ⟨2, _⟩ => rfl)
  have e19 : idx_main_v19 (ix3 b n (0 : Fin 1)) = ix3 b n (1 : Fin 2) := funext fun a => Fin.ext (by
    match a with
    | ⟨0, _⟩ => rfl
    | ⟨1, _⟩ => rfl
    | ⟨2, _⟩ => rfl)
  have e23 : idx_main_v23 (ix3 b n (0 : Fin 1)) = ix3 b n (0 : Fin 2) := funext fun a => Fin.ext (by
    match a with
    | ⟨0, _⟩ => rfl
    | ⟨1, _⟩ => rfl
    | ⟨2, _⟩ => rfl)
  rw [val_main_v27_apply, e27, val_main_v26_apply, e26, val_main_v25_apply, val_main_v22_apply, val_main_v20_apply, e20,
    val_main_v19_apply, e19, val_main_v21_apply, val_main_c_apply, val_main_v24_apply, e24, val_main_v23_apply, e23]
  rfl

/-! ## The wrapped index -/

/-- The index after the wrap of negative values: a cell's word is kept. -/
private theorem wrapped_apply (x3 : (⟨S16384x16x2, .i32⟩ : BufTy).Contents (Elt Ideal)) (g : Fin 49)
    (b : Fin 16384) (c : Fin 25) (n : Fin 16) (hw : cellWord x3 b n = BitVec.ofNat 32 g.val) :
    val_main_call2_v4 (F := Ideal) x3 (ix3 b c n) = BitVec.ofNat 32 g.val := by
  rw [val_main_call2_v4_apply, val_main_call2_v1_apply, val_main_call2_v0_apply, val_main_call2_c_apply, word_apply, hw,
    cell_not_neg, select_zero]

/-- The same with the trailing unit axis the gather reads its start indices through. -/
private theorem start_apply (x3 : (⟨S16384x16x2, .i32⟩ : BufTy).Contents (Elt Ideal)) (g : Fin 49)
    (b : Fin 16384) (c : Fin 25) (n : Fin 16) (z : Fin 1) (hw : cellWord x3 b n = BitVec.ofNat 32 g.val) :
    val_main_call2_v5 (F := Ideal) x3 (ix4 b c n z) = BitVec.ofNat 32 g.val := by
  have e5 : idx_main_call2_v5 (ix4 b c n z) = ix3 b c n := funext fun a => Fin.ext (by
    match a with
    | ⟨0, _⟩ => show (((b.val * 25 + c.val) * 16 + n.val) * 1 + z.val) / 400 = b.val; omega
    | ⟨1, _⟩ => show (((b.val * 25 + c.val) * 16 + n.val) * 1 + z.val) / 16 % 25 = c.val; omega
    | ⟨2, _⟩ => show (((b.val * 25 + c.val) * 16 + n.val) * 1 + z.val) % 16 = n.val; omega)
  rw [val_main_call2_v5_apply, e5, wrapped_apply x3 g b c n hw]

/-! ## The range test -/

/-- The test 0 ≤ index ≤ 48 at (b, c, n, 0) passes for a cell's word. -/
private theorem inrange_apply (x3 : (⟨S16384x16x2, .i32⟩ : BufTy).Contents (Elt Ideal)) (g : Fin 49)
    (b : Fin 16384) (c : Fin 25) (n : Fin 16) (z : Fin 1) (hw : cellWord x3 b n = BitVec.ofNat 32 g.val) :
    val_main_call2_v11 (F := Ideal) x3 (ix4 b c n z) = 1#1 := by
  rw [val_main_call2_v11_apply, val_main_call2_v7_apply, val_main_call2_v10_apply, val_main_call2_v6_apply,
    val_main_call2_c_2_apply, val_main_call2_v9_apply, val_main_call2_v8_apply, val_main_call2_c_1_apply,
    start_apply x3 g b c n z hw, cell_ge, cell_le]
  decide

/-- A reduction by `and` over an axis of extent one, from the constant one, is the one element it meets. -/
private theorem and_unit_axis (x : S16384x25x16x1.Idx → BitVec 1) (init : S_.Idx → BitVec 1)
    (h' : S16384x25x16x1.ReducesTo [3] S16384x25x16) (hu : 0 < S_.numel) (b : Fin 16384) (c : Fin 25) (n : Fin 16) :
    Host.reduce IntOp.andi x init h' hu (ix3 b c n)
      = IntOp.andi (x (ix4 b c n (0 : Fin 1))) (init (Shape.Idx.first hu)) := by
  have hR : S16384x25x16x1.Reduces [3] S16384x25x16 := by decide
  rw [Host.reduce_eq_fold_single IntOp.andi x init h' hR hu]
  show (Finset.univ : Finset (Fin 1)).fold IntOp.andi (init (Shape.Idx.first hu)) (fun k : Fin 1 => x (hR.lift (ix3 b c n) k)) = _
  rw [Finset.univ_unique, Finset.fold_singleton]
  refine congrArg (fun i => IntOp.andi (x i) (init (Shape.Idx.first hu))) (funext fun a => Fin.ext ?_)
  match a with
  | ⟨0, _⟩ => rfl
  | ⟨1, _⟩ => rfl
  | ⟨2, _⟩ => rfl
  | ⟨3, _⟩ => rfl

/-- The mask at (b, c, n) is one. -/
private theorem mask_apply (x3 : (⟨S16384x16x2, .i32⟩ : BufTy).Contents (Elt Ideal)) (g : Fin 49)
    (b : Fin 16384) (c : Fin 25) (n : Fin 16) (hw : cellWord x3 b n = BitVec.ofNat 32 g.val) :
    val_main_call2_v12 (F := Ideal) x3 (ix3 b c n) = 1#1 := by
  unfold val_main_call2_v12
  rw [and_unit_axis, inrange_apply x3 g b c n 0 hw, val_main_call2_c_3_apply]
  decide

/-! ## The gather -/

/-- The gather's dimension numbers: images and channels are batched, the cell axis is indexed. -/
private abbrev takeD : GatherDims S16384x25x49 S16384x25x16x1 S16384x25x16 :=
  gather_S16384x25x49_S16384x25x16x1_S16384x25x16_n_2_01_01_2_3_111

/-- The gather read at (b, c, n), when the start index there reads as the number of a cell `g`: the operand at (b, c, g). -/
private theorem take_apply {α : Type} (x : S16384x25x49.Idx → α) (idx : IVec S16384x25x16x1 32) (g : Fin 49)
    (b : Fin 16384) (c : Fin 25) (n : Fin 16) (hg : (idx (ix4 b c n (0 : Fin 1))).toInt.toNat = g.val) :
    Host.gather takeD x idx (ix3 b c n) = x (ix3 b c g) := by
  unfold Host.gather
  refine congrArg x (funext fun a => Fin.ext ?_)
  match a with
  | ⟨0, _⟩ =>
    show takeD.start (ix3 b c n) idx 0 + takeD.batchCoord (ix3 b c n) 0 + takeD.offCoord (ix3 b c n) 0 = b.val
    rw [takeD.start_batching _ _ 0 (by decide), takeD.offCoord_eq_zero _ 0 (by decide)]
    unfold GatherDims.batchCoord
    rw [dif_pos (show (0 : Fin S16384x25x49.rank) ∈ takeD.operandBatchingDims by decide), Nat.zero_add, Nat.add_zero]
    rfl
  | ⟨1, _⟩ =>
    show takeD.start (ix3 b c n) idx 1 + takeD.batchCoord (ix3 b c n) 1 + takeD.offCoord (ix3 b c n) 1 = c.val
    rw [takeD.start_batching _ _ 1 (by decide), takeD.offCoord_eq_zero _ 1 (by decide)]
    unfold GatherDims.batchCoord
    rw [dif_pos (show (1 : Fin S16384x25x49.rank) ∈ takeD.operandBatchingDims by decide), Nat.zero_add, Nat.add_zero]
    rfl
  | ⟨2, _⟩ =>
    show takeD.start (ix3 b c n) idx 2 + takeD.batchCoord (ix3 b c n) 2 + takeD.offCoord (ix3 b c n) 2 = g.val
    rw [takeD.batchCoord_eq_zero _ 2 (by decide), takeD.offCoord_eq_zero _ 2 (by decide)]
    unfold GatherDims.start
    rw [dif_pos (show (2 : Fin S16384x25x49.rank) ∈ takeD.startIndexMap by decide)]
    have hsi : takeD.siIdx (ix3 b c n) ⟨List.idxOf (2 : Fin S16384x25x49.rank) takeD.startIndexMap,
        List.idxOf_lt_length_iff.2 (by decide)⟩ = ix4 b c n (0 : Fin 1) := by
      funext q; refine Fin.ext ?_
      match q with
      | ⟨0, _⟩ => rfl
      | ⟨1, _⟩ => rfl
      | ⟨2, _⟩ => rfl
      | ⟨3, _⟩ => rfl
    rw [hsi, hg]
    show min g.val (49 - 1) + 0 + 0 = g.val
    have := g.isLt
    omega

/-- The gathered value at (b, c, n) is the flattened output at (b, c, cell). -/
private theorem gathered_apply (x0 : (⟨S16384x25x7x7, .f32⟩ : BufTy).Contents (Elt Ideal)) (x3 : (⟨S16384x16x2, .i32⟩ : BufTy).Contents (Elt Ideal))
    (g : Fin 49) (b : Fin 16384) (c : Fin 25) (n : Fin 16) (hw : cellWord x3 b n = BitVec.ofNat 32 g.val) :
    val_main_call2_v13 (F := Ideal) x0 x3 (ix3 b c n) = val_main_v18 (F := Ideal) x0 (ix3 b c g) := by
  unfold val_main_call2_v13
  exact take_apply _ _ g b c n (by rw [start_apply x3 g b c n 0 hw]; exact cell_toInt g)

/-- The flattened output at (b, c, g) is the output at row g / 7 and column g % 7. -/
private theorem flat_apply (x0 : (⟨S16384x25x7x7, .f32⟩ : BufTy).Contents (Elt Ideal)) (b : Fin 16384) (c : Fin 25) (g : Fin 49) :
    val_main_v18 (F := Ideal) x0 (ix3 b c g) = flatOut x0 b c g := by
  have e18 : idx_main_v18 (ix3 b c g) = ix4 b c (cellY g) (cellX g) := funext fun a => Fin.ext (by
    have hb := b.isLt; have hc := c.isLt; have hg := g.isLt
    match a with
    | ⟨0, _⟩ => show ((b.val * 25 + c.val) * 49 + g.val) / 1225 = b.val; omega
    | ⟨1, _⟩ => show ((b.val * 25 + c.val) * 49 + g.val) / 49 % 25 = c.val; omega
    | ⟨2, _⟩ => show ((b.val * 25 + c.val) * 49 + g.val) / 7 % 7 = g.val / 7; omega
    | ⟨3, _⟩ => show ((b.val * 25 + c.val) * 49 + g.val) % 7 = g.val % 7; omega)
  rw [val_main_v18_apply, e18]
  rfl

/-- The gathered channels read at an index, when every box's flat-cell word is the word of a cell `gi b n`. -/
theorem v28_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (c : Fin 25) (n : Fin 16) :
    val_main_v28 (F := Ideal) x0 x3 (ix3 b c n) = flatOut x0 b c (gi b n) := by
  rw [val_main_v28_apply, mask_apply x3 (gi b n) b c n (h b n), select_one, gathered_apply x0 x3 (gi b n) b c n (h b n),
    flat_apply]

end Cert.ReferenceIdeal.RefValue

end
-- ==== Proof.RefBox.lean ====
/-
  The reference's box loss: channels 1..4 gathered at each box's cell, against the target coordinates (the pixel
  coordinates over the image side, rounded to one decimal); per box the mean of the four squared differences —
  their sum divided by 4, which is the sum times a quarter —, summed over all boxes and divided by the batch size.
-/
import proofs.«418083_j22368189678034_3_alg».proof.Proof.RefRead
import proofs.«418083_j22368189678034_3_alg».proof.Proof.Spec
import proofs.«418083_j22368189678034_3_alg».proof.Proof.RefGather
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Yolo

/-! ## Dividing by four is multiplying by a quarter -/

private theorem four_word : Ideal.ofBits .f32 0x40800000#32 = ((4 : ℝ) : EReal) := by
  simp [Ideal.ofBits, Ideal.ieee, -EReal.coe_mul]; norm_num

private theorem quarter_word : Ideal.ofBits .f32 0x3E800000#32 = ((1 / 4 : ℝ) : EReal) := by
  simp [Ideal.ofBits, Ideal.ieee, -EReal.coe_mul]; norm_num

/-- For every extended real, the quotient by the word of 4 is the product with the word of a quarter. -/
private theorem div_four (s : EReal) : Ideal.div s (Ideal.ofBits .f32 0x40800000#32) = s * quarterW := by
  show _ = s * Ideal.ofBits .f32 0x3E800000#32
  rw [four_word, quarter_word, Ideal.div_coe (by norm_num)]

/-! ## The two operands of the difference, read at (b, n, k) -/

/-- The predicted coordinate: channel 1 + k of the gathered channels, which is the output at the box's cell. -/
private theorem pred_apply (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) (k : Fin 4) :
    val_main_v30 (F := Ideal) x0 x3 (ix3 b n k) = flatOut x0 b (boxCh k) (gi b n) := by
  have e30 : idx_main_v30 (ix3 b n k) = ix3 b k n := funext fun a => Fin.ext (by
    match a with
    | ⟨0, _⟩ => rfl
    | ⟨1, _⟩ => rfl
    | ⟨2, _⟩ => rfl)
  have e29 : idx_main_v29 (ix3 b k n) = ix3 b (boxCh k) n := funext fun a => Fin.ext (by
    match a with
    | ⟨0, _⟩ => rfl
    | ⟨1, _⟩ => rfl
    | ⟨2, _⟩ => rfl)
  rw [val_main_v30_apply, e30, val_main_v29_apply, e29, v28_eq x0 x3 gi h]

/-- The target coordinate: the pixel coordinate over the side, times ten, rounded to even, over ten. -/
private theorem target_apply (x1 : (⟨S16384x16x4, .f32⟩ : BufTy).Contents (Elt Ideal)) (i : S16384x16x4.Idx) :
    val_main_v37 (F := Ideal) x1 i = tgt (x1 i) := by
  rw [val_main_v37_apply, val_main_v35_apply, val_main_v34_apply, val_main_v32_apply, val_main_v31_apply, val_main_cst_5_apply,
    val_main_v33_apply, val_main_cst_6_apply, val_main_v36_apply, val_main_cst_7_apply]
  rfl

/-- One box's term: the four squared differences added from zero, then divided by four. -/
private theorem box_apply (x0 : (⟨S16384x25x7x7, .f32⟩ : BufTy).Contents (Elt Ideal)) (x1 : (⟨S16384x16x4, .f32⟩ : BufTy).Contents (Elt Ideal))
    (x3 : (⟨S16384x16x2, .i32⟩ : BufTy).Contents (Elt Ideal)) (gi : Fin 16384 → Fin 16 → Fin 49)
    (h : ∀ (b : Fin 16384) (n : Fin 16), cellWord x3 b n = BitVec.ofNat 32 (gi b n).val)
    (b : Fin 16384) (n : Fin 16) :
    val_main_v42 (F := Ideal) x0 x1 x3 (ix2 b n)
      = (∑ k : Fin 4, (flatOut x0 b (boxCh k) (gi b n) - tgt (x1 (ix3 b n k))) * (flatOut x0 b (boxCh k) (gi b n) - tgt (x1 (ix3 b n k))))
          * quarterW := by
  rw [val_main_v42_apply, val_main_v41_apply, val_main_cst_9_apply, val_main_v40_apply, val_main_cst_8_apply]
  show Ideal.div (Ideal.ofBits .f32 0x00000000#32 + _) (Ideal.ofBits .f32 0x40800000#32) = _
  rw [Ideal.ofBits_zero_f32, zero_add, div_four]
  refine congrArg (· * quarterW) (Finset.sum_congr rfl fun k _ => ?_)
  have e40 : idx_main_v40 (ix2 b n) k = ix3 b n k := funext fun a => Fin.ext (by
    match a with
    | ⟨0, _⟩ => rfl
    | ⟨1, _⟩ => rfl
    | ⟨2, _⟩ => rfl)
  rw [e40, val_main_v39_apply, val_main_v38_apply, pred_apply x0 x3 gi h, target_apply]
  rfl

/-- The reference's third result is the box loss. -/
theorem v44_eq (x0 : (⟨S16384x25x7x7, .f32⟩ : BufTy).Contents (Elt Ideal)) (x1 : (⟨S16384x16x4, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val) :
    val_main_v44 (F := Ideal) x0 x1 x3 ix0 = boxLoss x0 x1 gi := by
  rw [val_main_v44_apply, val_main_cst_11_apply, val_main_v43_apply, val_main_cst_10_apply]
  show Ideal.div (Ideal.ofBits .f32 0x00000000#32 + _) batchW = _
  rw [Ideal.ofBits_zero_f32, zero_add, sum_idx2]
  unfold boxLoss boxSum rowBox
  refine congrArg (Ideal.div · batchW) (Finset.sum_congr rfl fun b _ => Finset.sum_congr rfl fun n _ => ?_)
  exact box_apply x0 x1 x3 gi h b n

end Cert.ReferenceIdeal.RefValue

end
-- ==== Proof.RefCls.lean ====
/-
  The reference's class loss: channels 5..24 gathered at each box's cell are the box's 20 logits; their log-softmax
  (shift by the maximum, subtract the log of the sum of exponentials) is read at the box's class — the label less
  one, indexing the 20 classes like the cell gather above —, negated, summed over all boxes and divided by the batch size.
-/
import proofs.«418083_j22368189678034_3_alg».proof.Proof.RefRead
import proofs.«418083_j22368189678034_3_alg».proof.Proof.Spec
import proofs.«418083_j22368189678034_3_alg».proof.Proof.RefGather
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Yolo

/-! ## Indices at explicit coordinates -/

/-- The index over (b, n) with class c inserted. -/
private theorem lift_cls (hr : S16384x16x20.Reduces [2] S16384x16) (b : Fin 16384) (n : Fin 16) (c : Fin 20) :
    hr.lift (ix2 b n) c = ix3 b n c := by
  funext a
  apply Fin.ext
  match a with
  | ⟨0, _⟩ => rfl
  | ⟨1, _⟩ => rfl
  | ⟨2, _⟩ => rfl

/-- The host's maximum over the class axis, from an initial value, is the running maximum of the 20 entries. -/
private theorem hostmax_cls (v : S16384x16x20.Idx → EReal) (init : S_.Idx → EReal)
    (h' : S16384x16x20.ReducesTo [2] S16384x16) (hu : 0 < S_.numel) (b : Fin 16384) (n : Fin 16) :
    Host.reduce (FloatOps.maximumf (F := Ideal) (φ := .f32)) v init h' hu (ix2 b n)
      = (Finset.univ : Finset (Fin 20)).fold max (init (Shape.Idx.first hu)) (fun c => v (ix3 b n c)) := by
  refine (Host.reduce_eq_fold_single _ v init h' (by decide) hu (ix2 b n)).trans ?_
  exact congrArg (fun f : Fin 20 → EReal => (Finset.univ : Finset (Fin 20)).fold max (init (Shape.Idx.first hu)) f)
    (funext fun c => congrArg v (lift_cls _ b n c))

/-! ## The 20 logits of a box -/

/-- Channels 5..24 gathered at the box's cell, transposed to (image, box, class). -/
private theorem v46_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) (c : Fin 20) :
    val_main_v46 (F := Ideal) x0 x3 (ix3 b n c) = flatOut x0 b (clsCh c) (gi b n) := by
  rw [val_main_v46_apply, val_main_v45_apply]
  have e : idx_main_v45 (idx_main_v46 (ix3 b n c)) = ix3 b (clsCh c) n :=
    funext fun a => Fin.ext (by match a with | ⟨0, _⟩ => rfl | ⟨1, _⟩ => rfl | ⟨2, _⟩ => rfl)
  rw [e]
  exact v28_eq x0 x3 gi h b (clsCh c) n

/-- The running maximum of the 20 logits from minus infinity. -/
private theorem call4_v0_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) :
    val_main_call4_v0 (F := Ideal) x0 x3 (ix2 b n) = rowMax (fun c => flatOut x0 b (clsCh c) (gi b n)) := by
  have ev : ∀ c : Fin 20, val_main_v46 (F := Ideal) x0 x3 (ix3 b n c) = flatOut x0 b (clsCh c) (gi b n) :=
    v46_eq x0 x3 gi h b n
  unfold val_main_call4_v0
  generalize val_main_v46 (F := Ideal) x0 x3 = v at ev ⊢
  refine (hostmax_cls v _ _ _ b n).trans ?_
  rw [val_main_call4_cst_apply, show (fun c => v (ix3 b n c)) = fun c => flatOut x0 b (clsCh c) (gi b n) from funext ev]
  rfl

/-- The maximum the shift uses: the running maximum again, joined with minus infinity. -/
private theorem call4_v4_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) (c : Fin 20) :
    val_main_call4_v4 (F := Ideal) x0 x3 (ix3 b n c) = rowMax (fun c => flatOut x0 b (clsCh c) (gi b n)) := by
  rw [val_main_call4_v4_apply, val_main_call4_v3_apply]
  have e : idx_main_call4_v3 (idx_main_call4_v4 (ix3 b n c)) = ix2 b n :=
    funext fun a => Fin.ext (by match a with | ⟨0, _⟩ => rfl | ⟨1, _⟩ => rfl)
  rw [e, val_main_call4_v2_apply, val_main_call4_v1_apply, val_main_call4_cst_0_apply, call4_v0_eq x0 x3 gi h]
  show max negInfW (rowMax _) = _
  exact max_eq_right ((Finset.le_fold_max _).mpr (Or.inl le_rfl))

/-- The shifted logits. -/
private theorem call4_v5_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) (c : Fin 20) :
    val_main_call4_v5 (F := Ideal) x0 x3 (ix3 b n c)
      = flatOut x0 b (clsCh c) (gi b n) - rowMax (fun c => flatOut x0 b (clsCh c) (gi b n)) := by
  rw [val_main_call4_v5_apply, v46_eq x0 x3 gi h, call4_v4_eq x0 x3 gi h]
  rfl

/-- The sum of the shifted exponentials. -/
private theorem call4_v7_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) :
    val_main_call4_v7 (F := Ideal) x0 x3 (ix2 b n)
      = ∑ c : Fin 20, Ideal.exp (flatOut x0 b (clsCh c) (gi b n) - rowMax (fun c => flatOut x0 b (clsCh c) (gi b n))) := by
  rw [val_main_call4_v7_apply, val_main_call4_cst_1_apply]
  show Ideal.ofBits .f32 0x00000000#32 + _ = _
  rw [Ideal.ofBits_zero_f32, zero_add]
  refine Finset.sum_congr rfl fun c _ => ?_
  have e : idx_main_call4_v7 (ix2 b n) c = ix3 b n c :=
    funext fun a => Fin.ext (by match a with | ⟨0, _⟩ => rfl | ⟨1, _⟩ => rfl | ⟨2, _⟩ => rfl)
  rw [e, val_main_call4_v6_apply, call4_v5_eq x0 x3 gi h]
  rfl

/-- The log-softmax of the box's logits. -/
private theorem v47_eq (x0 : (⟨S16384x25x7x7, .f32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (b : Fin 16384) (n : Fin 16) (c : Fin 20) :
    val_main_v47 (F := Ideal) x0 x3 (ix3 b n c) = logp (fun c => flatOut x0 b (clsCh c) (gi b n)) c := by
  rw [val_main_v47_apply, call4_v5_eq x0 x3 gi h, val_main_call4_v10_apply, val_main_call4_v9_apply, val_main_call4_v8_apply]
  have e : idx_main_call4_v8 (idx_main_call4_v10 (ix3 b n c)) = ix2 b n :=
    funext fun a => Fin.ext (by match a with | ⟨0, _⟩ => rfl | ⟨1, _⟩ => rfl)
  rw [e, call4_v7_eq x0 x3 gi h]
  rfl

/-! ## Reading the box's class out of the 20 log-probabilities -/

/-- Facts about the word of a class: as a signed word it is non-negative and at most 19, and it is its own value. -/
private theorem cls_word_facts : ∀ l : Fin 20,
    IntOp.cmpi .slt (BitVec.ofNat 32 l.val) 0#32 = 0#1 ∧ IntOp.cmpi .sge (BitVec.ofNat 32 l.val) 0#32 = 1#1
      ∧ IntOp.cmpi .sle (BitVec.ofNat 32 l.val) 19#32 = 1#1 ∧ min (BitVec.ofNat 32 l.val).toInt.toNat 19 = l.val := by
  decide

section Gather
variable {α : Type}

/-- The gather along the class axis read at (b, n, 0): the operand at (b, n) and at the class the start index names,
    read signed and clamped into 0..19. -/
private theorem gather_cls (x : S16384x16x20.Idx → α) (idx : IVec S16384x16x1x1 32)
    (b : Fin 16384) (n : Fin 16) (k : Fin 1) :
    Host.gather gather_S16384x16x20_S16384x16x1x1_S16384x16x1_n_2_01_01_2_3_111 x idx (ix3 b n k)
      = x (ix3 b n ⟨min (idx (ix4 b n k 0)).toInt.toNat 19, by omega⟩) := by
  unfold Host.gather
  refine congrArg x (funext fun a => Fin.ext ?_)
  match a with
  | ⟨0, _⟩ =>
    have h1 : GatherDims.start gather_S16384x16x20_S16384x16x1x1_S16384x16x1_n_2_01_01_2_3_111 (ix3 b n k) idx ⟨0, by decide⟩ = 0 := rfl
    have h2 : GatherDims.batchCoord gather_S16384x16x20_S16384x16x1x1_S16384x16x1_n_2_01_01_2_3_111 (ix3 b n k) ⟨0, by decide⟩ = b.val := rfl
    have h3 : GatherDims.offCoord gather_S16384x16x20_S16384x16x1x1_S16384x16x1_n_2_01_01_2_3_111 (ix3 b n k) ⟨0, by decide⟩ = 0 := rfl
    show GatherDims.start _ (ix3 b n k) idx ⟨0, _⟩ + GatherDims.batchCoord _ (ix3 b n k) ⟨0, _⟩ + GatherDims.offCoord _ (ix3 b n k) ⟨0, _⟩ = b.val
    rw [h1, h2, h3]
    omega
  | ⟨1, _⟩ =>
    have h1 : GatherDims.start gather_S16384x16x20_S16384x16x1x1_S16384x16x1_n_2_01_01_2_3_111 (ix3 b n k) idx ⟨1, by decide⟩ = 0 := rfl
    have h2 : GatherDims.batchCoord gather_S16384x16x20_S16384x16x1x1_S16384x16x1_n_2_01_01_2_3_111 (ix3 b n k) ⟨1, by decide⟩ = n.val := rfl
    have h3 : GatherDims.offCoord gather_S16384x16x20_S16384x16x1x1_S16384x16x1_n_2_01_01_2_3_111 (ix3 b n k) ⟨1, by decide⟩ = 0 := rfl
    show GatherDims.start _ (ix3 b n k) idx ⟨1, _⟩ + GatherDims.batchCoord _ (ix3 b n k) ⟨1, _⟩ + GatherDims.offCoord _ (ix3 b n k) ⟨1, _⟩ = n.val
    rw [h1, h2, h3]
    omega
  | ⟨2, _⟩ =>
    have h1 : GatherDims.start gather_S16384x16x20_S16384x16x1x1_S16384x16x1_n_2_01_01_2_3_111 (ix3 b n k) idx ⟨2, by decide⟩
        = min (idx (ix4 b n k 0)).toInt.toNat 19 := by
      unfold GatherDims.start
      rw [dif_pos (show (⟨2, by decide⟩ : Fin S16384x16x20.rank) ∈ gather_S16384x16x20_S16384x16x1x1_S16384x16x1_n_2_01_01_2_3_111.startIndexMap from List.mem_singleton.mpr rfl)]
      have hsi : GatherDims.siIdx gather_S16384x16x20_S16384x16x1x1_S16384x16x1_n_2_01_01_2_3_111 (ix3 b n k)
          ⟨List.idxOf (⟨2, by decide⟩ : Fin S16384x16x20.rank) gather_S16384x16x20_S16384x16x1x1_S16384x16x1_n_2_01_01_2_3_111.startIndexMap,
            List.idxOf_lt_length_iff.2 (List.mem_singleton.mpr rfl)⟩ = ix4 b n k 0 := by
        funext d; refine Fin.ext ?_
        match d with
        | ⟨0, _⟩ => rfl
        | ⟨1, _⟩ => rfl
        | ⟨2, _⟩ => rfl
        | ⟨3, _⟩ => rfl
      rw [hsi]
      rfl
    have h2 : GatherDims.batchCoord gather_S16384x16x20_S16384x16x1x1_S16384x16x1_n_2_01_01_2_3_111 (ix3 b n k) ⟨2, by decide⟩ = 0 := rfl
    have h3 : GatherDims.offCoord gather_S16384x16x20_S16384x16x1x1_S16384x16x1_n_2_01_01_2_3_111 (ix3 b n k) ⟨2, by decide⟩ = 0 := rfl
    show GatherDims.start _ (ix3 b n k) idx ⟨2, _⟩ + GatherDims.batchCoord _ (ix3 b n k) ⟨2, _⟩ + GatherDims.offCoord _ (ix3 b n k) ⟨2, _⟩ = min (idx (ix4 b n k 0)).toInt.toNat 19
    rw [h1, h2, h3]
    omega

end Gather

/-- The index over (b, n, k) with the one coordinate of the unit axis inserted. -/
private theorem lift_unit (hr : S16384x16x1x1.Reduces [3] S16384x16x1) (b : Fin 16384) (n : Fin 16) (k c : Fin 1) :
    hr.lift (ix3 b n k) c = ix4 b n k c := by
  funext a
  apply Fin.ext
  match a with
  | ⟨0, _⟩ => rfl
  | ⟨1, _⟩ => rfl
  | ⟨2, _⟩ => rfl
  | ⟨3, _⟩ => rfl

/-- A conjunction over the trailing unit axis has one term. -/
private theorem hostand_unit (v : S16384x16x1x1.Idx → BitVec 1) (init : S_.Idx → BitVec 1)
    (h' : S16384x16x1x1.ReducesTo [3] S16384x16x1) (hu : 0 < S_.numel) (b : Fin 16384) (n : Fin 16) (k : Fin 1) :
    Host.reduce IntOp.andi v init h' hu (ix3 b n k) = IntOp.andi (v (ix4 b n k 0)) (init (Shape.Idx.first hu)) := by
  refine (Host.reduce_eq_fold_single IntOp.andi v init h' (by decide) hu (ix3 b n k)).trans ?_
  have key : ∀ (g : Fin 1 → BitVec 1) (i0 : BitVec 1),
      (Finset.univ : Finset (Fin 1)).fold IntOp.andi i0 g = IntOp.andi (g 0) i0 := fun g i0 => by
    rw [Finset.univ_unique, Finset.fold_singleton]; rfl
  exact (key _ _).trans (congrArg (fun i => IntOp.andi (v i) (init (Shape.Idx.first hu))) (lift_unit _ b n k 0))

section Take
variable (x0 : (⟨S16384x25x7x7, .f32⟩ : BufTy).Contents (Elt Ideal)) (x2 : (⟨S16384x16, .i32⟩ : BufTy).Contents (Elt Ideal))
  (x3 : (⟨S16384x16x2, .i32⟩ : BufTy).Contents (Elt Ideal))
  (li : Fin 16384 → Fin 16 → Fin 20)

/-- The label less one, as a column. -/
private theorem v50_eq (hl : ∀ (b : Fin 16384) (n : Fin 16), x2 (ix2 b n) - 1#32 = BitVec.ofNat 32 (li b n).val)
    (b : Fin 16384) (n : Fin 16) (k : Fin 1) :
    val_main_v50 (F := Ideal) x2 (ix3 b n k) = BitVec.ofNat 32 (li b n).val := by
  rw [val_main_v50_apply]
  have e : idx_main_v50 (ix3 b n k) = ix2 b n :=
    funext fun a => Fin.ext (by match a with | ⟨0, _⟩ => rfl | ⟨1, _⟩ => rfl)
  rw [e, val_main_v49_apply, val_main_v48_apply, val_main_c_12_apply]
  exact hl b n

/-- A class word is not negative, so the wrap leaves it as it is. -/
private theorem call5_v4_eq (hl : ∀ (b : Fin 16384) (n : Fin 16), x2 (ix2 b n) - 1#32 = BitVec.ofNat 32 (li b n).val)
    (b : Fin 16384) (n : Fin 16) (k : Fin 1) :
    val_main_call5_v4 (F := Ideal) x2 (ix3 b n k) = BitVec.ofNat 32 (li b n).val := by
  rw [val_main_call5_v4_apply, val_main_call5_v1_apply, val_main_call5_v0_apply, val_main_call5_c_apply,
    v50_eq x2 li hl, (cls_word_facts (li b n)).1, select_zero]

/-- The start index of the gather. -/
private theorem call5_v5_eq (hl : ∀ (b : Fin 16384) (n : Fin 16), x2 (ix2 b n) - 1#32 = BitVec.ofNat 32 (li b n).val)
    (b : Fin 16384) (n : Fin 16) (k k' : Fin 1) :
    val_main_call5_v5 (F := Ideal) x2 (ix4 b n k k') = BitVec.ofNat 32 (li b n).val := by
  rw [val_main_call5_v5_apply]
  have hn := n.isLt
  have hk := k.isLt
  have hk' := k'.isLt
  have e : idx_main_call5_v5 (ix4 b n k k') = ix3 b n 0 :=
    funext fun a => Fin.ext (by
      match a with
      | ⟨0, _⟩ => show (((b.val * 16 + n.val) * 1 + k.val) * 1 + k'.val) / 16 = b.val; omega
      | ⟨1, _⟩ => show (((b.val * 16 + n.val) * 1 + k.val) * 1 + k'.val) / 1 % 16 = n.val; omega
      | ⟨2, _⟩ => rfl)
  rw [e, call5_v4_eq x2 li hl]

/-- The range test passes. -/
private theorem call5_v12_eq (hl : ∀ (b : Fin 16384) (n : Fin 16), x2 (ix2 b n) - 1#32 = BitVec.ofNat 32 (li b n).val)
    (b : Fin 16384) (n : Fin 16) (k : Fin 1) :
    val_main_call5_v12 (F := Ideal) x2 (ix3 b n k) = 1#1 := by
  have e11 : val_main_call5_v11 (F := Ideal) x2 (ix4 b n k 0) = 1#1 := by
    rw [val_main_call5_v11_apply, val_main_call5_v7_apply, val_main_call5_v10_apply, val_main_call5_v6_apply,
      val_main_call5_c_2_apply, val_main_call5_v9_apply, val_main_call5_v8_apply, val_main_call5_c_1_apply,
      call5_v5_eq x2 li hl, (cls_word_facts (li b n)).2.1, (cls_word_facts (li b n)).2.2.1]
    rfl
  unfold val_main_call5_v12
  generalize val_main_call5_v11 (F := Ideal) x2 = v at e11 ⊢
  rw [hostand_unit, e11, val_main_call5_c_3_apply]
  rfl

/-- The value read for a box: the log-probability of its class. -/
private theorem v51_eq (gi : Fin 16384 → Fin 16 → Fin 49)
    (h : ∀ (b : Fin 16384) (n : Fin 16), cellWord x3 b n = BitVec.ofNat 32 (gi b n).val)
    (hl : ∀ (b : Fin 16384) (n : Fin 16), x2 (ix2 b n) - 1#32 = BitVec.ofNat 32 (li b n).val)
    (b : Fin 16384) (n : Fin 16) (k : Fin 1) :
    val_main_v51 (F := Ideal) x0 x2 x3 (ix3 b n k) = logp (fun c => flatOut x0 b (clsCh c) (gi b n)) (li b n) := by
  rw [val_main_v51_apply, call5_v12_eq x2 li hl, select_one]
  have e5 : val_main_call5_v5 (F := Ideal) x2 (ix4 b n k 0) = BitVec.ofNat 32 (li b n).val := call5_v5_eq x2 li hl b n k 0
  have e47 : ∀ c : Fin 20, val_main_v47 (F := Ideal) x0 x3 (ix3 b n c) = logp (fun c => flatOut x0 b (clsCh c) (gi b n)) c :=
    v47_eq x0 x3 gi h b n
  unfold val_main_call5_v13
  generalize val_main_call5_v5 (F := Ideal) x2 = idx at e5 ⊢
  generalize val_main_v47 (F := Ideal) x0 x3 = v at e47 ⊢
  rw [gather_cls]
  have ec : (⟨min (idx (ix4 b n k 0)).toInt.toNat 19, by omega⟩ : Fin 20) = li b n :=
    Fin.ext (by show min (idx (ix4 b n k 0)).toInt.toNat 19 = (li b n).val; rw [e5]; exact (cls_word_facts (li b n)).2.2.2)
  rw [ec, e47]

end Take

/-! ## The class loss -/

/-- Minus the log-probability of each box's class. -/
private theorem v53_eq (x0 : (⟨S16384x25x7x7, .f32⟩ : BufTy).Contents (Elt Ideal)) (x2 : (⟨S16384x16, .i32⟩ : BufTy).Contents (Elt Ideal))
    (x3 : (⟨S16384x16x2, .i32⟩ : BufTy).Contents (Elt Ideal)) (gi : Fin 16384 → Fin 16 → Fin 49)
    (h : ∀ (b : Fin 16384) (n : Fin 16), cellWord x3 b n = BitVec.ofNat 32 (gi b n).val)
    (li : Fin 16384 → Fin 16 → Fin 20)
    (hl : ∀ (b : Fin 16384) (n : Fin 16), x2 (ix2 b n) - 1#32 = BitVec.ofNat 32 (li b n).val)
    (b : Fin 16384) (n : Fin 16) :
    val_main_v53 (F := Ideal) x0 x2 x3 (ix2 b n) = -(logp (fun c => flatOut x0 b (clsCh c) (gi b n)) (li b n)) := by
  rw [val_main_v53_apply, val_main_v52_apply]
  have hn := n.isLt
  have e : idx_main_v52 (ix2 b n) = ix3 b n 0 :=
    funext fun a => Fin.ext (by
      match a with
      | ⟨0, _⟩ => show (b.val * 16 + n.val) / 16 = b.val; omega
      | ⟨1, _⟩ => show (b.val * 16 + n.val) / 1 % 16 = n.val; omega
      | ⟨2, _⟩ => rfl)
  rw [e, v51_eq x0 x2 x3 li gi h hl]
  rfl

/-! ## The fourth result -/

/-- The reference's fourth result is the class loss, when every label word less one is the word of a class `li b n`. -/
theorem v55_eq (x0 : (⟨S16384x25x7x7, .f32⟩ : BufTy).Contents (Elt Ideal)) (x2 : (⟨S16384x16, .i32⟩ : BufTy).Contents (Elt Ideal)) (x3 : (⟨S16384x16x2, .i32⟩ : BufTy).Contents (Elt Ideal))
    (gi : Fin 16384 → Fin 16 → Fin 49)
    (h : ∀ (b : Fin 16384) (n : Fin 16), cellWord x3 b n = BitVec.ofNat 32 (gi b n).val)
    (li : Fin 16384 → Fin 16 → Fin 20)
    (hl : ∀ (b : Fin 16384) (n : Fin 16), x2 (ix2 b n) - 1#32 = BitVec.ofNat 32 (li b n).val) :
    val_main_v55 (F := Ideal) x0 x2 x3 ix0 = clsLoss x0 gi li := by
  have e53 : ∀ (b : Fin 16384) (n : Fin 16), val_main_v53 (F := Ideal) x0 x2 x3 (ix2 b n)
      = -(logp (fun c => flatOut x0 b (clsCh c) (gi b n)) (li b n)) := v53_eq x0 x2 x3 gi h li hl
  rw [val_main_v55_apply, val_main_v54_apply, val_main_cst_13_apply, val_main_cst_14_apply]
  generalize val_main_v53 (F := Ideal) x0 x2 x3 = w at e53 ⊢
  show Ideal.div (Ideal.ofBits .f32 0x00000000#32 + ∑ j : S16384x16.Idx, w j) batchW = _
  rw [Ideal.ofBits_zero_f32, zero_add, sum_idx2]
  unfold clsLoss clsSum rowCls
  refine congrArg (fun s => Ideal.div s batchW) ?_
  exact Finset.sum_congr rfl fun b _ => Finset.sum_congr rfl fun n _ => e53 b n

end Cert.ReferenceIdeal.RefValue

end
-- ==== Proof.Claims.lean ====
/-
  The five claims.  Both idealized programs compute, from the same arguments, the same four extended reals: the
  total, objectness, box and class losses of the specification.  The kernel's folds over its 64 blocks are the sums
  over the batch (sums of extended reals regroup freely, and an indicator times any extended real is that real or
  zero, so its one-hot contractions are gathers); the reference's gathers read the same cells because, under the
  precondition, every grid coordinate lies in 0..6 and every label in 1..20, so neither index wraps or leaves its
  range.  The three programs' frames are their runs with the results forgotten; the idealization rewrote nothing.
-/
import proofs.«418083_j22368189678034_3_alg».proof.Defs
import proofs.«418083_j22368189678034_3_alg».proof.Proof.Gen.Kernel
import proofs.«418083_j22368189678034_3_alg».proof.Proof.Gen.Kernel.Frame
import proofs.«418083_j22368189678034_3_alg».proof.Proof.Gen.KernelIdeal
import proofs.«418083_j22368189678034_3_alg».proof.Proof.Gen.KernelIdeal.Frame
import proofs.«418083_j22368189678034_3_alg».proof.Proof.Gen.ReferenceIdeal
import proofs.«418083_j22368189678034_3_alg».proof.Proof.Gen.Pre_finite_inputs
import proofs.«418083_j22368189678034_3_alg».proof.Proof.KernelValue
import proofs.«418083_j22368189678034_3_alg».proof.Proof.PreRange
import proofs.«418083_j22368189678034_3_alg».proof.Proof.RefLine
import proofs.«418083_j22368189678034_3_alg».proof.Proof.RefRead
import proofs.«418083_j22368189678034_3_alg».proof.Proof.RefCel
import proofs.«418083_j22368189678034_3_alg».proof.Proof.RefBox
import proofs.«418083_j22368189678034_3_alg».proof.Proof.RefCls

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Yolo

/-- The reference's first result is the total: the three losses added in the specification's order. -/
theorem v57_eq (x0 : (⟨S16384x25x7x7, .f32⟩ : BufTy).Contents (Elt Ideal)) (x1 : (⟨S16384x16x4, .f32⟩ : BufTy).Contents (Elt Ideal)) (x2 : (⟨S16384x16, .i32⟩ : BufTy).Contents (Elt Ideal))
    (x3 : (⟨S16384x16x2, .i32⟩ : BufTy).Contents (Elt Ideal)) (x4 : (⟨S16384x7x7, .f32⟩ : BufTy).Contents (Elt Ideal))
    (gi : Fin 16384 → Fin 16 → Fin 49)
    (h : ∀ (b : Fin 16384) (n : Fin 16), cellWord x3 b n = BitVec.ofNat 32 (gi b n).val)
    (li : Fin 16384 → Fin 16 → Fin 20)
    (hl : ∀ (b : Fin 16384) (n : Fin 16), x2 (ix2 b n) - 1#32 = BitVec.ofNat 32 (li b n).val) :
    val_main_v57 (F := Ideal) x0 x1 x2 x3 x4 ix0 = totalLoss x0 x1 x4 gi li := by
  show (val_main_v17 (F := Ideal) x0 x4 ix0 + val_main_v44 (F := Ideal) x0 x1 x3 ix0) + val_main_v55 (F := Ideal) x0 x2 x3 ix0 = _
  rw [v17_eq, v44_eq x0 x1 x3 gi h, v55_eq x0 x2 x3 gi h li hl]
  rfl

end Cert.ReferenceIdeal.RefValue

namespace Cert.Proof.Claims

open Cert.Yolo Cert.KernelIdeal.Acc Cert.ReferenceIdeal.RefValue

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Line.run (F := Ideal) m ρ)

theorem preserves : Cert.preserves_Kernel_KernelIdeal := trivial

/-- From arguments that agree, both programs end at the four losses of those arguments, the cells and classes of
    the boxes being the ones their coordinate and label words spell under the precondition. -/
theorem algebraic : Cert.algebraic_KernelIdeal_ReferenceIdeal := by
  intro m ρ m' ρ' hpre hagree
  have hcw : ∀ (c : Dev Cert.KernelIdeal.nD) (b : Fin 16384) (n : Fin 16),
      cellWord (aCo m c) b n = BitVec.ofNat 32 (cellOf (aCo m c) b n).val :=
    fun c b n => Cert.Pre_finite_inputs.Range.cell_word _ _ _ _ _ (hpre c) b n
  have hlw : ∀ (c : Dev Cert.KernelIdeal.nD) (b : Fin 16384) (n : Fin 16),
      aLb m c (ix2 b n) - 1#32 = BitVec.ofNat 32 (classOf (aLb m c) b n).val :=
    fun c b n => Cert.Pre_finite_inputs.Range.class_word _ _ _ _ _ (hpre c) b n
  refine ⟨_, _, _, _, run_value m ρ (fun c => cellOf (aCo m c)) (fun c => classOf (aLb m c)) hcw hlw, ?_⟩
  refine (θ_run Cert.ReferenceIdeal.defs _ _).mono (fun _ h c => ?_) (Cert.ReferenceIdeal.Line.run (F := Ideal) m' ρ')
  obtain ⟨r57, r17, r44, r55, rest⟩ := h c
  obtain ⟨a0, a1, a2, a3, a4⟩ := hagree c
  refine ⟨r57.trans ?_, r17.trans ?_, r44.trans ?_, r55.trans ?_, rest⟩
  · rw [a0, a1, a2, a3, a4]
    funext i
    obtain rfl := eq_ix0 i
    exact v57_eq _ _ _ _ _ _ (hcw c) _ (hlw c)
  · rw [a0, a4]
    funext i
    obtain rfl := eq_ix0 i
    exact v17_eq _ _
  · rw [a0, a1, a3]
    funext i
    obtain rfl := eq_ix0 i
    exact v44_eq _ _ _ _ (hcw c)
  · rw [a0, a2, a3]
    funext i
    obtain rfl := eq_ix0 i
    exact v55_eq _ _ _ _ (hcw c) _ (hlw c)

end Cert.Proof.Claims

end
-- ==== Proof.lean ====
/-
  The certificate's claim: the Pallas kernel (a one-pass loss over blocks of 256 images, accumulated in three
  one-word outputs across 64 grid points) and its idealization run and leave their arguments unchanged; the
  idealization rewrote nothing; and the idealized kernel and the idealized jnp reference compute, over the extended
  reals, the same total, objectness, box and class losses — under the precondition that the float inputs are finite,
  the boxes' grid coordinates lie in 0..6 and their labels in 1..20.  The proofs are in Proof/Claims.lean.
-/
import proofs.«418083_j22368189678034_3_alg».proof.Defs
import proofs.«418083_j22368189678034_3_alg».proof.Proof.Gen.Kernel
import proofs.«418083_j22368189678034_3_alg».proof.Proof.Gen.KernelIdeal
import proofs.«418083_j22368189678034_3_alg».proof.Proof.Gen.ReferenceIdeal
import proofs.«418083_j22368189678034_3_alg».proof.Proof.Gen.Pre_finite_inputs
import proofs.«418083_j22368189678034_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
